-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x200000x3 : Shape := ⟨3, ![1, 200000, 3]⟩
abbrev S3x800x800x45 : Shape := ⟨4, ![3, 800, 800, 45]⟩
abbrev S800x800x45 : Shape := ⟨3, ![800, 800, 45]⟩
abbrev S_ : Shape := ⟨0, ![]⟩
abbrev S1x800x800x45 : Shape := ⟨4, ![1, 800, 800, 45]⟩

class Facts : Prop where
  bcast_S_S1x200000x3 : S_.BroadcastsInDim S1x200000x3 (![] : Fin 0 → Fin S1x200000x3.rank)
  reducesTo_S1x200000x3_S_d0_1_2 : S1x200000x3.ReducesTo [0, 1, 2] S_
  h_S_ : 0 < S_.numel
  bcast_S_S3x800x800x45 : S_.BroadcastsInDim S3x800x800x45 (![] : Fin 0 → Fin S3x800x800x45.rank)
  reducesTo_S3x800x800x45_S_d0_1_2_3 : S3x800x800x45.ReducesTo [0, 1, 2, 3] S_
  slices_S3x800x800x45_S1x800x800x45_0_0_0_0 : S3x800x800x45.Slices ![0, 0, 0, 0] S1x800x800x45
  bcast_S_S1x800x800x45 : S_.BroadcastsInDim S1x800x800x45 (![] : Fin 0 → Fin S1x800x800x45.rank)
  reducesTo_S1x800x800x45_S_d0_1_2_3 : S1x800x800x45.ReducesTo [0, 1, 2, 3] S_
  slices_S3x800x800x45_S1x800x800x45_1_0_0_0 : S3x800x800x45.Slices ![1, 0, 0, 0] S1x800x800x45
  slices_S3x800x800x45_S1x800x800x45_2_0_0_0 : S3x800x800x45.Slices ![2, 0, 0, 0] S1x800x800x45

variable [Facts]

def fn_part1 {F : FTy → Type} [FloatOps F] (main_arg3 : IVec S3x800x800x45 32) (main_v13 : IVec S_ 1) (main_v15 : IVec S3x800x800x45 1) (main_c_5 : IVec S_ 1) : IVec S_ 1 :=
  let main_v16 : IVec S_ 1 := (fun x v => Host.reduce IntOp.andi x v reducesTo_S3x800x800x45_S_d0_1_2_3 h_S_) main_v15 main_c_5
  let main_v17 : IVec S_ 1 := andi main_v13 main_v16
  let main_v18 : IVec S1x800x800x45 32 := (extractStridedSlice S1x800x800x45 ![0, 0, 0, 0] · slices_S3x800x800x45_S1x800x800x45_0_0_0_0) main_arg3
  let main_c_6 : IVec S_ 32 := constantI S_ 32 800#32
  let main_v19 : IVec S1x800x800x45 32 := broadcastInDim S1x800x800x45 ![] bcast_S_S1x800x800x45 main_c_6
  let main_v20 : IVec S1x800x800x45 1 := cmpi .slt main_v18 main_v19
  let main_c_7 : IVec S_ 1 := constantI S_ 1 1#1
  let main_v21 : IVec S_ 1 := (fun x v => Host.reduce IntOp.andi x v reducesTo_S1x800x800x45_S_d0_1_2_3 h_S_) main_v20 main_c_7
  let main_v22 : IVec S_ 1 := andi main_v17 main_v21
  let main_v23 : IVec S1x800x800x45 32 := (extractStridedSlice S1x800x800x45 ![1, 0, 0, 0] · slices_S3x800x800x45_S1x800x800x45_1_0_0_0) main_arg3
  let main_c_8 : IVec S_ 32 := constantI S_ 32 800#32
  let main_v24 : IVec S1x800x800x45 32 := broadcastInDim S1x800x800x45 ![] bcast_S_S1x800x800x45 main_c_8
  let main_v25 : IVec S1x800x800x45 1 := cmpi .slt main_v23 main_v24
  let main_c_9 : IVec S_ 1 := constantI S_ 1 1#1
  let main_v26 : IVec S_ 1 := (fun x v => Host.reduce IntOp.andi x v reducesTo_S1x800x800x45_S_d0_1_2_3 h_S_) main_v25 main_c_9
  let main_v27 : IVec S_ 1 := andi main_v22 main_v26
  let main_v28 : IVec S1x800x800x45 32 := (extractStridedSlice S1x800x800x45 ![2, 0, 0, 0] · slices_S3x800x800x45_S1x800x800x45_2_0_0_0) main_arg3
  let main_c_10 : IVec S_ 32 := constantI S_ 32 45#32
  let main_v29 : IVec S1x800x800x45 32 := broadcastInDim S1x800x800x45 ![] bcast_S_S1x800x800x45 main_c_10
  let main_v30 : IVec S1x800x800x45 1 := cmpi .slt main_v28 main_v29
  let main_c_11 : IVec S_ 1 := constantI S_ 1 1#1
  let main_v31 : IVec S_ 1 := (fun x v => Host.reduce IntOp.andi x v reducesTo_S1x800x800x45_S_d0_1_2_3 h_S_) main_v30 main_c_11
  let main_v32 : IVec S_ 1 := andi main_v27 main_v31
  main_v32

def fn {F : FTy → Type} [FloatOps F] (main_arg0 : FVec F S1x200000x3 .f32) (main_arg1 : FVec F S1x200000x3 .f32) (main_arg2 : FVec F S1x200000x3 .f32) (main_arg3 : IVec S3x800x800x45 32) (main_arg4 : IVec S800x800x45 32) : IVec S_ 1 :=
  let main_v0 : FVec F S1x200000x3 .f32 := Host.absf main_arg0
  let main_cst : FVec F S_ .f32 := constant S_ .f32 0x7F800000#32
  let main_v1 : FVec F S1x200000x3 .f32 := broadcastInDim S1x200000x3 ![] bcast_S_S1x200000x3 main_cst
  let main_v2 : IVec S1x200000x3 1 := cmpf .olt main_v0 main_v1
  let main_c : IVec S_ 1 := constantI S_ 1 1#1
  let main_v3 : IVec S_ 1 := (fun x v => Host.reduce IntOp.andi x v reducesTo_S1x200000x3_S_d0_1_2 h_S_) main_v2 main_c
  let main_v4 : FVec F S1x200000x3 .f32 := Host.absf main_arg1
  let main_cst_0 : FVec F S_ .f32 := constant S_ .f32 0x7F800000#32
  let main_v5 : FVec F S1x200000x3 .f32 := broadcastInDim S1x200000x3 ![] bcast_S_S1x200000x3 main_cst_0
  let main_v6 : IVec S1x200000x3 1 := cmpf .olt main_v4 main_v5
  let main_c_1 : IVec S_ 1 := constantI S_ 1 1#1
  let main_v7 : IVec S_ 1 := (fun x v => Host.reduce IntOp.andi x v reducesTo_S1x200000x3_S_d0_1_2 h_S_) main_v6 main_c_1
  let main_v8 : IVec S_ 1 := andi main_v3 main_v7
  let main_v9 : FVec F S1x200000x3 .f32 := Host.absf main_arg2
  let main_cst_2 : FVec F S_ .f32 := constant S_ .f32 0x7F800000#32
  let main_v10 : FVec F S1x200000x3 .f32 := broadcastInDim S1x200000x3 ![] bcast_S_S1x200000x3 main_cst_2
  let main_v11 : IVec S1x200000x3 1 := cmpf .olt main_v9 main_v10
  let main_c_3 : IVec S_ 1 := constantI S_ 1 1#1
  let main_v12 : IVec S_ 1 := (fun x v => Host.reduce IntOp.andi x v reducesTo_S1x200000x3_S_d0_1_2 h_S_) main_v11 main_c_3
  let main_v13 : IVec S_ 1 := andi main_v8 main_v12
  let main_c_4 : IVec S_ 32 := constantI S_ 32 0#32
  let main_v14 : IVec S3x800x800x45 32 := broadcastInDim S3x800x800x45 ![] bcast_S_S3x800x800x45 main_c_4
  let main_v15 : IVec S3x800x800x45 1 := cmpi .sge main_arg3 main_v14
  let main_c_5 : IVec S_ 1 := constantI S_ 1 1#1
  fn_part1 (F := F) main_arg3 main_v13 main_v15 main_c_5
-- ==== Kernel.lean ====
abbrev S1x200000x3 : Shape := ⟨3, ![1, 200000, 3]⟩
abbrev S3x800x800x45 : Shape := ⟨4, ![3, 800, 800, 45]⟩
abbrev S800x800x45 : Shape := ⟨3, ![800, 800, 45]⟩
abbrev S200000x3 : Shape := ⟨2, ![200000, 3]⟩
abbrev S3x200000 : Shape := ⟨2, ![3, 200000]⟩
abbrev S_ : Shape := ⟨0, ![]⟩
abbrev S3x200704 : Shape := ⟨2, ![3, 200704]⟩
abbrev S1x200704 : Shape := ⟨2, ![1, 200704]⟩
abbrev S3x25088 : Shape := ⟨2, ![3, 25088]⟩
abbrev S1x25088 : Shape := ⟨2, ![1, 25088]⟩
abbrev S200704 : Shape := ⟨1, ![200704]⟩
abbrev S3x28800000 : Shape := ⟨2, ![3, 28800000]⟩
abbrev S1x28800000 : Shape := ⟨2, ![1, 28800000]⟩
abbrev S3x400000 : Shape := ⟨2, ![3, 400000]⟩
abbrev S1x400000 : Shape := ⟨2, ![1, 400000]⟩
abbrev S28800000 : Shape := ⟨1, ![28800000]⟩
abbrev S200704x1 : Shape := ⟨2, ![200704, 1]⟩
abbrev S25088 : Shape := ⟨1, ![25088]⟩
abbrev S1x200000 : Shape := ⟨2, ![1, 200000]⟩
abbrev S200000 : Shape := ⟨1, ![200000]⟩

abbrev nBuf : Space → Nat
  | .hbm => 54
  | .vmem => 18
  | .smem => 0
  | _ => 0

abbrev bufTy : (tb : Table) → Fin (tcTables nBuf tb) → BufTy
  | .hbm, ⟨0, _⟩ => ⟨S1x200000x3, .f32⟩
  | .hbm, ⟨1, _⟩ => ⟨S1x200000x3, .f32⟩
  | .hbm, ⟨2, _⟩ => ⟨S1x200000x3, .f32⟩
  | .hbm, ⟨3, _⟩ => ⟨S3x800x800x45, .i32⟩
  | .hbm, ⟨4, _⟩ => ⟨S800x800x45, .i32⟩
  | .hbm, ⟨5, _⟩ => ⟨S200000x3, .f32⟩
  | .hbm, ⟨6, _⟩ => ⟨S3x200000, .f32⟩
  | .hbm, ⟨7, _⟩ => ⟨S200000x3, .f32⟩
  | .hbm, ⟨8, _⟩ => ⟨S3x200000, .f32⟩
  | .hbm, ⟨9, _⟩ => ⟨S200000x3, .f32⟩
  | .hbm, ⟨10, _⟩ => ⟨S3x200000, .f32⟩
  | .hbm, ⟨11, _⟩ => ⟨S_, .i32⟩
  | .hbm, ⟨12, _⟩ => ⟨S_, .f32⟩
  | .hbm, ⟨13, _⟩ => ⟨S3x200704, .f32⟩
  | .hbm, ⟨14, _⟩ => ⟨S_, .i32⟩
  | .hbm, ⟨15, _⟩ => ⟨S_, .f32⟩
  | .hbm, ⟨16, _⟩ => ⟨S3x200704, .f32⟩
  | .hbm, ⟨17, _⟩ => ⟨S3x200704, .f32⟩
  | .hbm, ⟨18, _⟩ => ⟨S1x200704, .i32⟩
  | .hbm, ⟨19, _⟩ => ⟨S200704, .i32⟩
  | .hbm, ⟨20, _⟩ => ⟨S3x28800000, .i32⟩
  | .hbm, ⟨21, _⟩ => ⟨S1x28800000, .i32⟩
  | .hbm, ⟨22, _⟩ => ⟨S28800000, .i32⟩
  | .hbm, ⟨23, _⟩ => ⟨S_, .i32⟩
  | .hbm, ⟨24, _⟩ => ⟨S200704, .i32⟩
  | .hbm, ⟨25, _⟩ => ⟨S200704, .i1⟩
  | .hbm, ⟨26, _⟩ => ⟨S_, .i32⟩
  | .hbm, ⟨27, _⟩ => ⟨S200704, .i32⟩
  | .hbm, ⟨28, _⟩ => ⟨S200704, .i32⟩
  | .hbm, ⟨29, _⟩ => ⟨S200704, .i32⟩
  | .hbm, ⟨30, _⟩ => ⟨S200704x1, .i32⟩
  | .hbm, ⟨31, _⟩ => ⟨S200704, .i32⟩
  | .hbm, ⟨32, _⟩ => ⟨S28800000, .i32⟩
  | .hbm, ⟨33, _⟩ => ⟨S_, .i32⟩
  | .hbm, ⟨34, _⟩ => ⟨S200704, .i32⟩
  | .hbm, ⟨35, _⟩ => ⟨S200704, .i1⟩
  | .hbm, ⟨36, _⟩ => ⟨S_, .i32⟩
  | .hbm, ⟨37, _⟩ => ⟨S200704, .i32⟩
  | .hbm, ⟨38, _⟩ => ⟨S200704, .i32⟩
  | .hbm, ⟨39, _⟩ => ⟨S200704, .i32⟩
  | .hbm, ⟨40, _⟩ => ⟨S200704x1, .i32⟩
  | .hbm, ⟨41, _⟩ => ⟨S200704, .i32⟩
  | .hbm, ⟨42, _⟩ => ⟨S_, .i32⟩
  | .hbm, ⟨43, _⟩ => ⟨S200704, .i32⟩
  | .hbm, ⟨44, _⟩ => ⟨S200704, .i1⟩
  | .hbm, ⟨45, _⟩ => ⟨S_, .i32⟩
  | .hbm, ⟨46, _⟩ => ⟨S200704, .i32⟩
  | .hbm, ⟨47, _⟩ => ⟨S200704, .i32⟩
  | .hbm, ⟨48, _⟩ => ⟨S200704, .i32⟩
  | .hbm, ⟨49, _⟩ => ⟨S200704x1, .i32⟩
  | .hbm, ⟨50, _⟩ => ⟨S3x200704, .f32⟩
  | .hbm, ⟨51, _⟩ => ⟨S1x200704, .f32⟩
  | .hbm, ⟨52, _⟩ => ⟨S1x200000, .f32⟩
  | .hbm, ⟨53, _⟩ => ⟨S200000, .i32⟩
  | .local _ .vmem, ⟨0, _⟩ => ⟨S3x25088, .f32⟩
  | .local _ .vmem, ⟨1, _⟩ => ⟨S3x25088, .f32⟩
  | .local _ .vmem, ⟨2, _⟩ => ⟨S3x25088, .f32⟩
  | .local _ .vmem, ⟨3, _⟩ => ⟨S3x25088, .f32⟩
  | .local _ .vmem, ⟨4, _⟩ => ⟨S3x25088, .f32⟩
  | .local _ .vmem, ⟨5, _⟩ => ⟨S3x25088, .f32⟩
  | .local _ .vmem, ⟨6, _⟩ => ⟨S1x25088, .i32⟩
  | .local _ .vmem, ⟨7, _⟩ => ⟨S1x25088, .i32⟩
  | .local _ .vmem, ⟨8, _⟩ => ⟨S3x400000, .i32⟩
  | .local _ .vmem, ⟨9, _⟩ => ⟨S3x400000, .i32⟩
  | .local _ .vmem, ⟨10, _⟩ => ⟨S1x400000, .i32⟩
  | .local _ .vmem, ⟨11, _⟩ => ⟨S1x400000, .i32⟩
  | .local _ .vmem, ⟨12, _⟩ => ⟨S3x25088, .f32⟩
  | .local _ .vmem, ⟨13, _⟩ => ⟨S3x25088, .f32⟩
  | .local _ .vmem, ⟨14, _⟩ => ⟨S3x25088, .f32⟩
  | .local _ .vmem, ⟨15, _⟩ => ⟨S3x25088, .f32⟩
  | .local _ .vmem, ⟨16, _⟩ => ⟨S1x25088, .f32⟩
  | .local _ .vmem, ⟨17, _⟩ => ⟨S1x25088, .f32⟩
  | _, _ => ⟨S1x200000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x25088 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x25088 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x25088 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x25088 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![72], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S3x400000 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x400000 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S3x25088 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3x25088 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x25088 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S1x200000x3_S200000x3 : S1x200000x3.ShapeCasts S200000x3
  transposes_S200000x3_S3x200000_1_0 : S200000x3.Transposes [1, 0] S3x200000
  pads_S3x200000_S3x200704_000_07040 : S3x200000.Pads (![0, 0] : Fin 2 → Nat) ![0, 704] ![0, 0] S3x200704
  h_S_ : 0 < S_.numel
  inb_S3x25088_S3x25088_0_0 : ∀ a, (![0, 0] : Fin 2 → Nat) a + S3x25088.size a ≤ S3x25088.size a
  h_S3x25088 : 0 < S3x25088.numel
  shapeCasts_S3x25088_S3x25088 : S3x25088.ShapeCasts S3x25088
  slices_S3x25088_o0_0_S1x25088 : S3x25088.Slices ![0, 0] S1x25088
  slices_S3x25088_o1_0_S1x25088 : S3x25088.Slices ![1, 0] S1x25088
  slices_S3x25088_o2_0_S1x25088 : S3x25088.Slices ![2, 0] S1x25088
  inb_S1x25088_S1x25088_0_0 : ∀ a, (![0, 0] : Fin 2 → Nat) a + S1x25088.size a ≤ S1x25088.size a
  h_S1x25088 : 0 < S1x25088.numel
  shapeCasts_S1x200704_S200704 : S1x200704.ShapeCasts S200704
  shapeCasts_S3x800x800x45_S3x28800000 : S3x800x800x45.ShapeCasts S3x28800000
  inb_S3x400000_S3x400000_0_0 : ∀ a, (![0, 0] : Fin 2 → Nat) a + S3x400000.size a ≤ S3x400000.size a
  h_S3x400000 : 0 < S3x400000.numel
  shapeCasts_S3x400000_S3x400000 : S3x400000.ShapeCasts S3x400000
  slices_S3x400000_o0_0_S1x400000 : S3x400000.Slices ![0, 0] S1x400000
  slices_S3x400000_o1_0_S1x400000 : S3x400000.Slices ![1, 0] S1x400000
  slices_S3x400000_o2_0_S1x400000 : S3x400000.Slices ![2, 0] S1x400000
  inb_S1x400000_S1x400000_0_0 : ∀ a, (![0, 0] : Fin 2 → Nat) a + S1x400000.size a ≤ S1x400000.size a
  h_S1x400000 : 0 < S1x400000.numel
  shapeCasts_S1x28800000_S28800000 : S1x28800000.ShapeCasts S28800000
  bcast_S_S200704 : S_.BroadcastsInDim S200704 (![] : Fin 0 → Fin S200704.rank)
  bcast_S200704_S200704x1_0 : S200704.BroadcastsInDim S200704x1 (![0] : Fin 1 → Fin S200704x1.rank)
  shapeCasts_S800x800x45_S28800000 : S800x800x45.ShapeCasts S28800000
  reduces_S3x25088_S25088 : S3x25088.Reduces [0] S25088
  shapeCasts_S25088_S1x25088 : S25088.ShapeCasts S1x25088
  slices_S1x200704_S1x200000_0_0 : S1x200704.Slices ![0, 0] S1x200000
  slices_S200704_S200000_0 : S200704.Slices ![0] S200000
  gather_S28800000_S200704x1_S200704_n_0_n_n_0_1_1_wf : GatherDims.WF S28800000 S200704x1 S200704 [] [0] [] [0] [] 1 ![1]
  gather_S3x200000_S200704x1_S3x200704_0_1_n_n_1_1_31_wf : GatherDims.WF S3x200000 S200704x1 S3x200704 [0] [1] [] [1] [] 1 ![3, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x25088.size a ≤ S3x200704.size a
  hwx0_0 : ∀ i : grid0.Coords, EltTy.bits .f32 = 32 ∨ (Rect.block (s := S3x200704) S3x25088.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x25088.size a ≤ S3x200704.size a
  hwx0_1 : ∀ i : grid0.Coords, EltTy.bits .f32 = 32 ∨ (Rect.block (s := S3x200704) S3x25088.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x25088.size a ≤ S3x200704.size a
  hwx0_2 : ∀ i : grid0.Coords, EltTy.bits .f32 = 32 ∨ (Rect.block (s := S3x200704) S3x25088.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x25088.size a ≤ S1x200704.size a
  hwx0_3 : ∀ i : grid0.Coords, EltTy.bits .i32 = 32 ∨ (Rect.block (s := S1x200704) S1x25088.size (cc0_transform_3 i) (hinb0_3 i)).WholeWords (EltTy.packing .i32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3x400000.size a ≤ S3x28800000.size a
  hwx1_0 : ∀ i : grid1.Coords, EltTy.bits .i32 = 32 ∨ (Rect.block (s := S3x28800000) S3x400000.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x400000.size a ≤ S1x28800000.size a
  hwx1_1 : ∀ i : grid1.Coords, EltTy.bits .i32 = 32 ∨ (Rect.block (s := S1x28800000) S1x400000.size (cc1_transform_1 i) (hinb1_1 i)).WholeWords (EltTy.packing .i32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3x25088.size a ≤ S3x200704.size a
  hwx2_0 : ∀ i : grid2.Coords, EltTy.bits .f32 = 32 ∨ (Rect.block (s := S3x200704) S3x25088.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3x25088.size a ≤ S3x200704.size a
  hwx2_1 : ∀ i : grid2.Coords, EltTy.bits .f32 = 32 ∨ (Rect.block (s := S3x200704) S3x25088.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x25088.size a ≤ S1x200704.size a
  hwx2_2 : ∀ i : grid2.Coords, EltTy.bits .f32 = 32 ∨ (Rect.block (s := S1x200704) S1x25088.size (cc2_transform_2 i) (hinb2_2 i)).WholeWords (EltTy.packing .f32)

variable [Facts₀]

def gather_S28800000_S200704x1_S200704_n_0_n_n_0_1_1 : GatherDims S28800000 S200704x1 S200704 where
  offsetDims := []
  collapsedSliceDims := [0]
  operandBatchingDims := []
  startIndicesBatchingDims := []
  startIndexMap := [0]
  indexVectorDim := 1
  sliceSizes := ![1]
  wf := gather_S28800000_S200704x1_S200704_n_0_n_n_0_1_1_wf
def gather_S3x200000_S200704x1_S3x200704_0_1_n_n_1_1_31 : GatherDims S3x200000 S200704x1 S3x200704 where
  offsetDims := [0]
  collapsedSliceDims := [1]
  operandBatchingDims := []
  startIndicesBatchingDims := []
  startIndexMap := [1]
  indexVectorDim := 1
  sliceSizes := ![3, 1]
  wf := gather_S3x200000_S200704x1_S3x200704_0_1_n_n_1_1_31_wf

abbrev win0_0 : Pipeline.Window sig grid0 :=
  Pipeline.Window.ofSpec (Memref.whole main_v6) S3x25088.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S3x25088.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8_0) S3x25088.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8_1) S1x25088.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S3x400000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x400000.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v34) S3x25088.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8_0) S3x25088.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S1x25088.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S1x200000x3 : Shape := ⟨3, ![1, 200000, 3]⟩
abbrev S3x800x800x45 : Shape := ⟨4, ![3, 800, 800, 45]⟩
abbrev S800x800x45 : Shape := ⟨3, ![800, 800, 45]⟩
abbrev S3 : Shape := ⟨1, ![3]⟩
abbrev S1x1x3 : Shape := ⟨3, ![1, 1, 3]⟩
abbrev S_ : Shape := ⟨0, ![]⟩
abbrev S1x200000x1 : Shape := ⟨3, ![1, 200000, 1]⟩
abbrev S200000 : Shape := ⟨1, ![200000]⟩
abbrev S200000x1 : Shape := ⟨2, ![200000, 1]⟩
abbrev S200000x3 : Shape := ⟨2, ![200000, 3]⟩
abbrev S3x200000 : Shape := ⟨2, ![3, 200000]⟩
abbrev S1x200000 : Shape := ⟨2, ![1, 200000]⟩

abbrev nBuf : Space → Nat
  | .hbm => 103
  | .vmem => 0
  | .smem => 0
  | _ => 0

abbrev bufTy : (tb : Table) → Fin (tcTables nBuf tb) → BufTy
  | .hbm, ⟨0, _⟩ => ⟨S1x200000x3, .f32⟩
  | .hbm, ⟨1, _⟩ => ⟨S1x200000x3, .f32⟩
  | .hbm, ⟨2, _⟩ => ⟨S1x200000x3, .f32⟩
  | .hbm, ⟨3, _⟩ => ⟨S3x800x800x45, .i32⟩
  | .hbm, ⟨4, _⟩ => ⟨S800x800x45, .i32⟩
  | .hbm, ⟨5, _⟩ => ⟨S3, .f32⟩
  | .hbm, ⟨6, _⟩ => ⟨S3, .i32⟩
  | .hbm, ⟨7, _⟩ => ⟨S1x200000x3, .f32⟩
  | .hbm, ⟨8, _⟩ => ⟨S1x1x3, .f32⟩
  | .hbm, ⟨9, _⟩ => ⟨S1x200000x3, .f32⟩
  | .hbm, ⟨10, _⟩ => ⟨S1x200000x3, .f32⟩
  | .hbm, ⟨11, _⟩ => ⟨S_, .f32⟩
  | .hbm, ⟨12, _⟩ => ⟨S1x200000x3, .f32⟩
  | .hbm, ⟨13, _⟩ => ⟨S1x200000x3, .f32⟩
  | .hbm, ⟨14, _⟩ => ⟨S1x200000x3, .i32⟩
  | .hbm, ⟨15, _⟩ => ⟨S_, .i32⟩
  | .hbm, ⟨16, _⟩ => ⟨S3, .i32⟩
  | .hbm, ⟨17, _⟩ => ⟨S3, .i32⟩
  | .hbm, ⟨18, _⟩ => ⟨S_, .i32⟩
  | .hbm, ⟨19, _⟩ => ⟨S_, .i32⟩
  | .hbm, ⟨20, _⟩ => ⟨S1x200000x3, .i32⟩
  | .hbm, ⟨21, _⟩ => ⟨S1x200000x3, .i32⟩
  | .hbm, ⟨22, _⟩ => ⟨S1x1x3, .i32⟩
  | .hbm, ⟨23, _⟩ => ⟨S1x200000x3, .i32⟩
  | .hbm, ⟨24, _⟩ => ⟨S1x200000x3, .i32⟩
  | .hbm, ⟨25, _⟩ => ⟨S1x200000x1, .i32⟩
  | .hbm, ⟨26, _⟩ => ⟨S200000, .i32⟩
  | .hbm, ⟨27, _⟩ => ⟨S1x200000x1, .i32⟩
  | .hbm, ⟨28, _⟩ => ⟨S200000, .i32⟩
  | .hbm, ⟨29, _⟩ => ⟨S1x200000x1, .i32⟩
  | .hbm, ⟨30, _⟩ => ⟨S200000, .i32⟩
  | .hbm, ⟨31, _⟩ => ⟨S_, .i32⟩
  | .hbm, ⟨32, _⟩ => ⟨S200000, .i32⟩
  | .hbm, ⟨33, _⟩ => ⟨S200000, .i1⟩
  | .hbm, ⟨34, _⟩ => ⟨S_, .i32⟩
  | .hbm, ⟨35, _⟩ => ⟨S200000, .i32⟩
  | .hbm, ⟨36, _⟩ => ⟨S200000, .i32⟩
  | .hbm, ⟨37, _⟩ => ⟨S200000, .i32⟩
  | .hbm, ⟨38, _⟩ => ⟨S_, .i32⟩
  | .hbm, ⟨39, _⟩ => ⟨S200000, .i32⟩
  | .hbm, ⟨40, _⟩ => ⟨S200000, .i1⟩
  | .hbm, ⟨41, _⟩ => ⟨S_, .i32⟩
  | .hbm, ⟨42, _⟩ => ⟨S200000, .i32⟩
  | .hbm, ⟨43, _⟩ => ⟨S200000, .i32⟩
  | .hbm, ⟨44, _⟩ => ⟨S200000, .i32⟩
  | .hbm, ⟨45, _⟩ => ⟨S_, .i32⟩
  | .hbm, ⟨46, _⟩ => ⟨S200000, .i32⟩
  | .hbm, ⟨47, _⟩ => ⟨S200000, .i1⟩
  | .hbm, ⟨48, _⟩ => ⟨S_, .i32⟩
  | .hbm, ⟨49, _⟩ => ⟨S200000, .i32⟩
  | .hbm, ⟨50, _⟩ => ⟨S200000, .i32⟩
  | .hbm, ⟨51, _⟩ => ⟨S200000, .i32⟩
  | .hbm, ⟨52, _⟩ => ⟨S200000x1, .i32⟩
  | .hbm, ⟨53, _⟩ => ⟨S200000x1, .i32⟩
  | .hbm, ⟨54, _⟩ => ⟨S200000x1, .i32⟩
  | .hbm, ⟨55, _⟩ => ⟨S200000x3, .i32⟩
  | .hbm, ⟨56, _⟩ => ⟨S3x200000, .i32⟩
  | .hbm, ⟨57, _⟩ => ⟨S1x200000, .i32⟩
  | .hbm, ⟨58, _⟩ => ⟨S200000, .i32⟩
  | .hbm, ⟨59, _⟩ => ⟨S1x200000, .i32⟩
  | .hbm, ⟨60, _⟩ => ⟨S200000, .i32⟩
  | .hbm, ⟨61, _⟩ => ⟨S1x200000, .i32⟩
  | .hbm, ⟨62, _⟩ => ⟨S200000, .i32⟩
  | .hbm, ⟨63, _⟩ => ⟨S_, .i32⟩
  | .hbm, ⟨64, _⟩ => ⟨S200000, .i32⟩
  | .hbm, ⟨65, _⟩ => ⟨S200000, .i1⟩
  | .hbm, ⟨66, _⟩ => ⟨S_, .i32⟩
  | .hbm, ⟨67, _⟩ => ⟨S200000, .i32⟩
  | .hbm, ⟨68, _⟩ => ⟨S200000, .i32⟩
  | .hbm, ⟨69, _⟩ => ⟨S200000, .i32⟩
  | .hbm, ⟨70, _⟩ => ⟨S_, .i32⟩
  | .hbm, ⟨71, _⟩ => ⟨S200000, .i32⟩
  | .hbm, ⟨72, _⟩ => ⟨S200000, .i1⟩
  | .hbm, ⟨73, _⟩ => ⟨S_, .i32⟩
  | .hbm, ⟨74, _⟩ => ⟨S200000, .i32⟩
  | .hbm, ⟨75, _⟩ => ⟨S200000, .i32⟩
  | .hbm, ⟨76, _⟩ => ⟨S200000, .i32⟩
  | .hbm, ⟨77, _⟩ => ⟨S_, .i32⟩
  | .hbm, ⟨78, _⟩ => ⟨S200000, .i32⟩
  | .hbm, ⟨79, _⟩ => ⟨S200000, .i1⟩
  | .hbm, ⟨80, _⟩ => ⟨S_, .i32⟩
  | .hbm, ⟨81, _⟩ => ⟨S200000, .i32⟩
  | .hbm, ⟨82, _⟩ => ⟨S200000, .i32⟩
  | .hbm, ⟨83, _⟩ => ⟨S200000, .i32⟩
  | .hbm, ⟨84, _⟩ => ⟨S200000x1, .i32⟩
  | .hbm, ⟨85, _⟩ => ⟨S200000x1, .i32⟩
  | .hbm, ⟨86, _⟩ => ⟨S200000x1, .i32⟩
  | .hbm, ⟨87, _⟩ => ⟨S200000x3, .i32⟩
  | .hbm, ⟨88, _⟩ => ⟨S200000, .i32⟩
  | .hbm, ⟨89, _⟩ => ⟨S_, .i32⟩
  | .hbm, ⟨90, _⟩ => ⟨S200000, .i32⟩
  | .hbm, ⟨91, _⟩ => ⟨S200000, .i1⟩
  | .hbm, ⟨92, _⟩ => ⟨S_, .i32⟩
  | .hbm, ⟨93, _⟩ => ⟨S200000, .i32⟩
  | .hbm, ⟨94, _⟩ => ⟨S200000, .i32⟩
  | .hbm, ⟨95, _⟩ => ⟨S200000, .i32⟩
  | .hbm, ⟨96, _⟩ => ⟨S200000x1, .i32⟩
  | .hbm, ⟨97, _⟩ => ⟨S1x200000x3, .f32⟩
  | .hbm, ⟨98, _⟩ => ⟨S1x200000x3, .f32⟩
  | .hbm, ⟨99, _⟩ => ⟨S1x200000x3, .f32⟩
  | .hbm, ⟨100, _⟩ => ⟨S_, .f32⟩
  | .hbm, ⟨101, _⟩ => ⟨S1x200000, .f32⟩
  | .hbm, ⟨102, _⟩ => ⟨S1x200000, .f32⟩
  | _, _ => ⟨S1x200000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_7 : Ref sig .tc := ⟨.hbm, 45, rfl⟩
abbrev main_v26 : Ref sig .tc := ⟨.hbm, 46, rfl⟩
abbrev main_v27 : Ref sig .tc := ⟨.hbm, 47, rfl⟩
abbrev main_c_8 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_9 : Ref sig .tc := ⟨.hbm, 63, rfl⟩
abbrev main_v42 : Ref sig .tc := ⟨.hbm, 64, rfl⟩
abbrev main_v43 : Ref sig .tc := ⟨.hbm, 65, rfl⟩
abbrev main_c_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_11 : Ref sig .tc := ⟨.hbm, 70, rfl⟩
abbrev main_v47 : Ref sig .tc := ⟨.hbm, 71, rfl⟩
abbrev main_v48 : Ref sig .tc := ⟨.hbm, 72, rfl⟩
abbrev main_c_12 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_13 : Ref sig .tc := ⟨.hbm, 77, rfl⟩
abbrev main_v52 : Ref sig .tc := ⟨.hbm, 78, rfl⟩
abbrev main_v53 : Ref sig .tc := ⟨.hbm, 79, rfl⟩
abbrev main_c_14 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_15 : Ref sig .tc := ⟨.hbm, 89, rfl⟩
abbrev main_v62 : Ref sig .tc := ⟨.hbm, 90, rfl⟩
abbrev main_v63 : Ref sig .tc := ⟨.hbm, 91, rfl⟩
abbrev main_c_16 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_call1_v0 : Ref sig .tc := ⟨.hbm, 99, rfl⟩
abbrev main_call1_cst : Ref sig .tc := ⟨.hbm, 100, rfl⟩
abbrev main_call1_v1 : Ref sig .tc := ⟨.hbm, 101, rfl⟩
abbrev main_v70 : Ref sig .tc := ⟨.hbm, 102, rfl⟩

abbrev nD : Nat := 1
abbrev τ : Topo := Topo.v7x

variable {F : FTy → Type} [FloatOps F]

class Facts₀ : Prop where
  bcast_S3_S1x1x3_2 : S3.BroadcastsInDim S1x1x3 (![2] : Fin 1 → Fin S1x1x3.rank)
  bcast_S1x1x3_S1x200000x3_0_1_2 : S1x1x3.BroadcastsInDim S1x200000x3 (![0, 1, 2] : Fin 3 → Fin S1x200000x3.rank)
  bcast_S_S1x200000x3 : S_.BroadcastsInDim S1x200000x3 (![] : Fin 0 → Fin S1x200000x3.rank)
  bcast_S_S3 : S_.BroadcastsInDim S3 (![] : Fin 0 → Fin S3.rank)
  slices_S1x200000x3_S1x200000x1_0_0_0 : S1x200000x3.Slices ![0, 0, 0] S1x200000x1
  shapeCasts_S1x200000x1_S200000 : S1x200000x1.ShapeCasts S200000
  slices_S1x200000x3_S1x200000x1_0_0_1 : S1x200000x3.Slices ![0, 0, 1] S1x200000x1
  slices_S1x200000x3_S1x200000x1_0_0_2 : S1x200000x3.Slices ![0, 0, 2] S1x200000x1
  bcast_S_S200000 : S_.BroadcastsInDim S200000 (![] : Fin 0 → Fin S200000.rank)
  bcast_S200000_S200000x1_0 : S200000.BroadcastsInDim S200000x1 (![0] : Fin 1 → Fin S200000x1.rank)
  concatenates_S200000x1_S200000x1_S200000x1_S200000x3_d1 : Shape.Concatenates [S200000x1, S200000x1, S200000x1] S200000x3 1
  slices_S3x200000_S1x200000_0_0 : S3x200000.Slices ![0, 0] S1x200000
  shapeCasts_S1x200000_S200000 : S1x200000.ShapeCasts S200000
  slices_S3x200000_S1x200000_1_0 : S3x200000.Slices ![1, 0] S1x200000
  slices_S3x200000_S1x200000_2_0 : S3x200000.Slices ![2, 0] S1x200000
  reducesTo_S1x200000x3_S1x200000_d2 : S1x200000x3.ReducesTo [2] S1x200000
  h_S_ : 0 < S_.numel
  gather_S3x800x800x45_S200000x3_S3x200000_0_123_n_n_123_1_3111_wf : GatherDims.WF S3x800x800x45 S200000x3 S3x200000 [0] [1, 2, 3] [] [1, 2, 3] [] 1 ![3, 1, 1, 1]
  gather_S800x800x45_S200000x3_S200000_n_012_n_n_012_1_111_wf : GatherDims.WF S800x800x45 S200000x3 S200000 [] [0, 1, 2] [] [0, 1, 2] [] 1 ![1, 1, 1]
  gather_S1x200000x3_S200000x1_S1x200000x3_02_1_n_n_1_1_113_wf : GatherDims.WF S1x200000x3 S200000x1 S1x200000x3 [0, 2] [1] [] [1] [] 1 ![1, 1, 3]

variable [Facts₀]

def gather_S3x800x800x45_S200000x3_S3x200000_0_123_n_n_123_1_3111 : GatherDims S3x800x800x45 S200000x3 S3x200000 where
  offsetDims := [0]
  collapsedSliceDims := [1, 2, 3]
  operandBatchingDims := []
  startIndicesBatchingDims := []
  startIndexMap := [1, 2, 3]
  indexVectorDim := 1
  sliceSizes := ![3, 1, 1, 1]
  wf := gather_S3x800x800x45_S200000x3_S3x200000_0_123_n_n_123_1_3111_wf
def gather_S800x800x45_S200000x3_S200000_n_012_n_n_012_1_111 : GatherDims S800x800x45 S200000x3 S200000 where
  offsetDims := []
  collapsedSliceDims := [0, 1, 2]
  operandBatchingDims := []
  startIndicesBatchingDims := []
  startIndexMap := [0, 1, 2]
  indexVectorDim := 1
  sliceSizes := ![1, 1, 1]
  wf := gather_S800x800x45_S200000x3_S200000_n_012_n_n_012_1_111_wf
def gather_S1x200000x3_S200000x1_S1x200000x3_02_1_n_n_1_1_113 : GatherDims S1x200000x3 S200000x1 S1x200000x3 where
  offsetDims := [0, 2]
  collapsedSliceDims := [1]
  operandBatchingDims := []
  startIndicesBatchingDims := []
  startIndexMap := [1]
  indexVectorDim := 1
  sliceSizes := ![1, 1, 3]
  wf := gather_S1x200000x3_S200000x1_S1x200000x3_02_1_n_n_1_1_113_wf

class Facts : Prop extends Facts₀ where

variable [Facts]
-- ==== Proof.Spec.lean ====
/-
  What both programs compute, stated once over the five argument arrays, index by index, on the extended
  reals and on 32-bit words.

  A point `n` of the first cloud is moved by its flow: `deformed n k = pc1[n,k] + flow[n,k]`. Each coordinate is
  sent to a cell of an 800 × 800 × 45 grid whose lower corner is (−40, −40, −1) and whose cells have side 0.1 (the f32
  word of 0.1): `((d − lo_k) / 0.1)` truncated to a word and clipped to `[0, last_k]`. The table `full_ids` gives,
  per cell, the three coordinates of the nearest occupied cell; `orig_index_grid` at THAT cell gives the number of a
  point of the second cloud (the second result); the first result is the Euclidean distance from that point to the
  deformed point, `sqrt (∑_k (pc2[idx,k] − deformed n k)²)`.

  Every table lookup reads its index as StableHLO's gather does: signed, then clamped to the axis (`clampTo`); the
  lookup into the second cloud first adds the axis length to a negative index (`wrapNeg`), as jnp does.
  The words below are the facts that make the clamps and wraps disappear where the index is already in range, and
  the arithmetic of a row-major position in the grid, `a·36000 + b·45 + c`.
-/
import Idealize.ShloMosaic.PureOps.Ideal
import Idealize.ShloMosaic.Lib.ValueIdx

noncomputable section

open scoped BigOperators

namespace Cert.Voxel

open Idealize.ShloMosaic Idealize.ShloMosaic.ValueIdx

/-- A point cloud, or a flow: one leading axis of extent 1, 200000 points, 3 coordinates. -/
abbrev Pts : Shape := ⟨3, ![1, 200000, 3]⟩
/-- The nearest-occupied-cell table: 3 coordinates per cell of the grid. -/
abbrev Ids : Shape := ⟨4, ![3, 800, 800, 45]⟩
/-- The grid. -/
abbrev Grid : Shape := ⟨3, ![800, 800, 45]⟩

/-- A word read as a position on an axis of `N` cells: signed, a negative one to 0, one past the end to the last. -/
def clampTo (N : Nat) (hN : 0 < N) (w : BitVec 32) : Fin N := ⟨min w.toInt.toNat (N - 1), by omega⟩

/-- A possibly negative index on an axis of `N` cells, counted from the end when negative: `w + N` if `w < 0`. -/
def wrapNeg (N w : BitVec 32) : BitVec 32 := Scalar.select (IntOp.cmpi .slt w 0#32) (IntOp.addi w N) w

/-- The grid's lower corner, as f32 words: −40, −40, −1. -/
def loBits : Fin 3 → BitVec 32 := ![0xC2200000#32, 0xC2200000#32, 0xBF800000#32]
/-- The last cell on each axis. -/
def lastCell : Fin 3 → BitVec 32 := ![799#32, 799#32, 44#32]

/-- Coordinate `k` of point `n` after the flow is added. -/
def deformed (x f : Pts.Idx → EReal) (n : Fin 200000) (k : Fin 3) : EReal :=
  FloatOps.addf (F := Ideal) (φ := .f32) (x (ix3 0 n k)) (f (ix3 0 n k))

/-- The cell on axis `k` of a coordinate `d`: `(d − lo_k) / 0.1` truncated to a word, clipped to `[0, last_k]`. -/
def cellWord (k : Fin 3) (d : EReal) : BitVec 32 :=
  IntOp.minsi (lastCell k) (IntOp.maxsi 0#32
    (FloatOps.fptosi (F := Ideal) (φ := .f32) 32
      (FloatOps.divf (F := Ideal) (φ := .f32) (FloatOps.subf (F := Ideal) (φ := .f32) d (FloatOps.ofBits (F := Ideal) .f32 (loBits k)))
        (FloatOps.ofBits (F := Ideal) .f32 0x3DCCCCCD#32))))

/-- The cell of point `n` on axis `k`. -/
def cellAt (x f : Pts.Idx → EReal) (n : Fin 200000) (k : Fin 3) : BitVec 32 := cellWord k (deformed x f n k)

/-- Coordinate `j` of the nearest occupied cell to point `n`'s cell. -/
def nearCoord (ids : Ids.Idx → BitVec 32) (x f : Pts.Idx → EReal) (n : Fin 200000) (j : Fin 3) : BitVec 32 :=
  ids (ix4 j (clampTo 800 (by decide) (cellAt x f n 0)) (clampTo 800 (by decide) (cellAt x f n 1)) (clampTo 45 (by decide) (cellAt x f n 2)))

/-- THE SECOND RESULT at point `n`: the second cloud's point number stored at the nearest occupied cell. -/
def nearest (ids : Ids.Idx → BitVec 32) (og : Grid.Idx → BitVec 32) (x f : Pts.Idx → EReal) (n : Fin 200000) : BitVec 32 :=
  og (ix3 (clampTo 800 (by decide) (nearCoord ids x f n 0)) (clampTo 800 (by decide) (nearCoord ids x f n 1))
    (clampTo 45 (by decide) (nearCoord ids x f n 2)))

/-- Coordinate `k` of the matched point of the second cloud minus the deformed point's. -/
def offset (ids : Ids.Idx → BitVec 32) (og : Grid.Idx → BitVec 32) (x f p : Pts.Idx → EReal) (n : Fin 200000) (k : Fin 3) : EReal :=
  FloatOps.subf (F := Ideal) (φ := .f32)
    (p (ix3 0 (clampTo 200000 (by decide) (wrapNeg 200000#32 (nearest ids og x f n))) k)) (deformed x f n k)

/-- THE FIRST RESULT at point `n`: the distance from the deformed point to the matched point. -/
def dist (ids : Ids.Idx → BitVec 32) (og : Grid.Idx → BitVec 32) (x f p : Pts.Idx → EReal) (n : Fin 200000) : EReal :=
  Ideal.sqrt (∑ k : Fin 3, offset ids og x f p n k * offset ids og x f p n k)

/-- The first result as an array [1, 200000]. -/
def distArr (ids : Ids.Idx → BitVec 32) (og : Grid.Idx → BitVec 32) (x f p : Pts.Idx → EReal) :
    (⟨2, ![1, 200000]⟩ : Shape).Idx → EReal := fun i => dist ids og x f p (i 1)
/-- The second result as an array [200000]. -/
def nearestArr (ids : Ids.Idx → BitVec 32) (og : Grid.Idx → BitVec 32) (x f : Pts.Idx → EReal) :
    (⟨1, ![200000]⟩ : Shape).Idx → BitVec 32 := fun i => nearest ids og x f (i 0)

/-- Every entry of the nearest-occupied-cell table is a cell coordinate on its axis. -/
def IdsInRange (ids : Ids.Idx → BitVec 32) : Prop :=
  ∀ (a : Fin 800) (b : Fin 800) (c : Fin 45),
    (ids (ix4 0 a b c)).toNat < 800 ∧ (ids (ix4 1 a b c)).toNat < 800 ∧ (ids (ix4 2 a b c)).toNat < 45

/-! ## Words -/

/-- A word clipped to `[0, hi]` (`hi` non-negative) lies there, read unsigned. -/
theorem clip_toNat_le (hi w : BitVec 32) (hhi : hi.toNat < 2 ^ 31) :
    (IntOp.minsi hi (IntOp.maxsi 0#32 w)).toNat ≤ hi.toNat := by
  unfold IntOp.minsi IntOp.maxsi
  have hhiI : hi.toInt = hi.toNat := by rw [BitVec.toInt_eq_toNat_cond]; split <;> omega
  by_cases h1 : w.slt 0#32
  · -- a negative word is raised to 0
    rw [if_pos h1]
    by_cases h2 : hi.slt 0#32
    · rw [if_pos h2]
    · rw [if_neg h2]; simp
  · rw [if_neg h1]
    by_cases h2 : hi.slt w
    · rw [if_pos h2]
    · rw [if_neg h2]
      -- w is non-negative and not above hi, read signed: so it is, read unsigned
      have h1' : ¬ w.toInt < 0 := by simpa [BitVec.slt] using h1
      have h2' : ¬ hi.toInt < w.toInt := by simpa [BitVec.slt] using h2
      have hwI : w.toInt = w.toNat := by
        rw [BitVec.toInt_eq_toNat_cond] at h1' ⊢
        split <;> simp_all <;> omega
      rw [hhiI, hwI] at h2'
      omega

theorem cellWord_le (k : Fin 3) (d : EReal) : (cellWord k d).toNat ≤ (lastCell k).toNat := by
  unfold cellWord
  refine clip_toNat_le _ _ ?_
  fin_cases k <;> decide

theorem cellWord0_lt (d : EReal) : (cellWord 0 d).toNat < 800 := by
  have := cellWord_le 0 d; have e : (lastCell 0).toNat = 799 := by decide
  omega
theorem cellWord1_lt (d : EReal) : (cellWord 1 d).toNat < 800 := by
  have := cellWord_le 1 d; have e : (lastCell 1).toNat = 799 := by decide
  omega
theorem cellWord2_lt (d : EReal) : (cellWord 2 d).toNat < 45 := by
  have := cellWord_le 2 d; have e : (lastCell 2).toNat = 44 := by decide
  omega

/-- A word already on the axis is its own clamp. -/
theorem clampTo_val_of_lt (N : Nat) (hN : 0 < N) (w : BitVec 32) (h : w.toNat < N) (hN' : N ≤ 2 ^ 31) :
    (clampTo N hN w).val = w.toNat := by
  unfold clampTo
  have : w.toInt = w.toNat := by rw [BitVec.toInt_eq_toNat_cond]; split <;> omega
  simp only [this, Int.toNat_natCast]
  omega

/-- A non-negative word is not counted from the end. -/
theorem wrapNeg_of_nonneg (N w : BitVec 32) (h : w.toNat < 2 ^ 31) : wrapNeg N w = w := by
  unfold wrapNeg Scalar.select IntOp.cmpi
  have : ¬ w.slt 0#32 := by
    simp only [BitVec.slt, BitVec.toInt_eq_toNat_cond, BitVec.toNat_ofNat]
    split <;> simp <;> omega
  simp [this]

/-- The row-major position of cell (a, b, c) of the 800 × 800 × 45 grid, computed in words: `a·36000 + b·45 + c`. -/
def flatWord (a b c : BitVec 32) : BitVec 32 := IntOp.addi (IntOp.addi (IntOp.muli a 36000#32) (IntOp.muli b 45#32)) c

/-- On cell coordinates the word arithmetic does not wrap: the word IS the position. -/
theorem flat_toNat (a b c : BitVec 32) (ha : a.toNat < 800) (hb : b.toNat < 800) (hc : c.toNat < 45) :
    (flatWord a b c).toNat = a.toNat * 36000 + b.toNat * 45 + c.toNat := by
  unfold flatWord IntOp.addi IntOp.muli
  simp only [BitVec.toNat_add, BitVec.toNat_mul, BitVec.toNat_ofNat]
  omega

end Cert.Voxel

end
-- ==== Proof.PreDecode.lean ====
/-
  The precondition, read: where `finite_inputs` holds, every entry of the nearest-occupied-cell table is a cell
  coordinate on its own axis — channel 0 and channel 1 in [0, 800), channel 2 in [0, 45). The predicate says it as
  four reductions by `and`: every entry non-negative (a signed compare of the whole table against 0), and each
  channel's slab [k : k+1] below its axis length (a signed compare of the slab against 800, 800, 45).
-/
import proofs.«404501_j6201932775870_3_alg».proof.Pre_finite_inputs
import proofs.«404501_j6201932775870_3_alg».proof.Proof.Spec
import Idealize.ShloMosaic.Lib.ReduceAll
import Idealize.ShloMosaic.Lib.StableHlo.Predicate

noncomputable section

namespace Cert.PreDecode

open Idealize.ShloMosaic Idealize.ShloMosaic.ValueIdx

open Cert.Pre_finite_inputs Cert.Pre_finite_inputs.Facts

/-- The scalar shape has one index. -/
instance : Subsingleton S_.Idx := ⟨fun a b => funext fun d => d.elim0⟩

/-! ## Words -/

/-- A word that is at least 0 read signed is below 2³¹ read unsigned. -/
theorem toNat_lt_of_sge_zero (w : BitVec 32) (h : IntOp.cmpi .sge w 0#32 = 1#1) : w.toNat < 2 ^ 31 := by
  have h0 : (0#32 : BitVec 32).toInt ≤ w.toInt := IntOp.cmpi_sge.1 h
  have hz : (0#32 : BitVec 32).toInt = 0 := by decide
  rw [hz, BitVec.toInt_eq_toNat_cond] at h0
  have := w.isLt
  split at h0 <;> omega

/-- A word below 2³¹ that is below a small bound `n` read signed is below `n` read unsigned. -/
theorem toNat_lt_of_slt (w : BitVec 32) (n : Nat) (hw : w.toNat < 2 ^ 31) (hn : n < 2 ^ 31)
    (h : IntOp.cmpi .slt w (BitVec.ofNat 32 n) = 1#1) : w.toNat < n := by
  have e : (BitVec.ofNat 32 n).toNat = n := by rw [BitVec.toNat_ofNat]; exact Nat.mod_eq_of_lt (by omega)
  have := (StableHlo.Predicate.slt_iff_toNat hw (by rw [e]; exact hn)).1 h
  rwa [e] at this

/-! ## The slab of channel `k` read at a cell is the table read at (k, cell) -/

theorem slab_apply (ids : IVec S3x800x800x45 32) (k : Fin 3) (hs : S3x800x800x45.Slices ![k.val, 0, 0, 0] S1x800x800x45)
    (a : Fin 800) (b : Fin 800) (c : Fin 45) :
    extractStridedSlice S1x800x800x45 ![k.val, 0, 0, 0] ids hs (ix4 0 a b c) = ids (ix4 k a b c) := by
  unfold extractStridedSlice
  refine congrArg ids (funext fun d => ?_)
  match d with
  | ⟨0, _⟩ => exact Fin.ext (Nat.add_zero _)
  | ⟨1, _⟩ => exact Fin.ext (Nat.zero_add _)
  | ⟨2, _⟩ => exact Fin.ext (Nat.zero_add _)
  | ⟨3, _⟩ => exact Fin.ext (Nat.zero_add _)

/-! ## Each reduction, read back at one entry -/

/-- The whole table compared against 0: every entry is below 2³¹ read unsigned. -/
theorem nonneg_of_all [Cert.Pre_finite_inputs.Facts] (ids : IVec S3x800x800x45 32)
    (h : Host.reduce IntOp.andi
        (cmpi .sge ids (broadcastInDim S3x800x800x45 ![] bcast_S_S3x800x800x45 (constantI S_ 32 0#32)))
        (constantI S_ 1 1#1) reducesTo_S3x800x800x45_S_d0_1_2_3 h_S_ ix0 = 1#1)
    (k : Fin 3) (a : Fin 800) (b : Fin 800) (c : Fin 45) : (ids (ix4 k a b c)).toNat < 2 ^ 31 :=
  toNat_lt_of_sge_zero _ (Host.reduce_andi_all _ _ _ _ _ h (ix4 k a b c))

/-- Channel `k`'s slab compared against a bound `n`: every entry of the channel, non-negative, is below `n`. -/
theorem below_of_all [Cert.Pre_finite_inputs.Facts] (ids : IVec S3x800x800x45 32) (k : Fin 3) (n : Nat) (hn : n < 2 ^ 31)
    (hs : S3x800x800x45.Slices ![k.val, 0, 0, 0] S1x800x800x45)
    (h : Host.reduce IntOp.andi
        (cmpi .slt (extractStridedSlice S1x800x800x45 ![k.val, 0, 0, 0] ids hs)
          (broadcastInDim S1x800x800x45 ![] bcast_S_S1x800x800x45 (constantI S_ 32 (BitVec.ofNat 32 n))))
        (constantI S_ 1 1#1) reducesTo_S1x800x800x45_S_d0_1_2_3 h_S_ ix0 = 1#1)
    (a : Fin 800) (b : Fin 800) (c : Fin 45) (h0 : (ids (ix4 k a b c)).toNat < 2 ^ 31) :
    (ids (ix4 k a b c)).toNat < n := by
  have e : IntOp.cmpi .slt (extractStridedSlice S1x800x800x45 ![k.val, 0, 0, 0] ids hs (ix4 0 a b c)) (BitVec.ofNat 32 n) = 1#1 :=
    Host.reduce_andi_all _ _ _ _ _ h (ix4 0 a b c)
  rw [slab_apply] at e
  exact toNat_lt_of_slt _ n h0 hn e

/-- Where the precondition holds the table's entries are in range. -/
theorem ids_in_range {F : FTy → Type} [FloatOps F] [Cert.Pre_finite_inputs.Facts]
    (a0 a1 a2 : FVec F Cert.Pre_finite_inputs.S1x200000x3 .f32) (ids : IVec Cert.Pre_finite_inputs.S3x800x800x45 32)
    (og : IVec Cert.Pre_finite_inputs.S800x800x45 32)
    (h : Cert.Pre_finite_inputs.fn (F := F) a0 a1 a2 ids og = fun _ => 1#1) : Cert.Voxel.IdsInRange ids := by
  -- the predicate at its one index: a conjunction, by `and`, of seven reductions
  have e := congrFun h ValueIdx.ix0
  unfold Cert.Pre_finite_inputs.fn Cert.Pre_finite_inputs.fn_part1 at e
  dsimp only at e
  simp only [andi, IntOp.andi_eq_one] at e
  obtain ⟨⟨⟨⟨-, hge⟩, hlt0⟩, hlt1⟩, hlt2⟩ := e
  intro a b c
  have hnn := nonneg_of_all ids hge
  exact ⟨below_of_all ids 0 800 (by decide) _ hlt0 a b c (hnn 0 a b c),
    below_of_all ids 1 800 (by decide) _ hlt1 a b c (hnn 1 a b c),
    below_of_all ids 2 45 (by decide) _ hlt2 a b c (hnn 2 a b c)⟩

end Cert.PreDecode

end
-- ==== Proof.KRegion0.lean ====
/-
  The first kernel region, read as whole arrays. Its grid has 8 points; point t stages columns [25088·t, 25088·(t+1)) of
  the two padded clouds [3, 200704] and writes the same columns of its two outputs, and the 8 column ranges tile the
  arrays. So each output array after the region is one function of the region's input arrays, column by column:
  the deformed cloud is the sum of the two inputs, and the flat cell index at column n is the row-major position
  `cx·36000 + cy·45 + cz` of the cell of the deformed point in column n.
-/
import proofs.«404501_j6201932775870_3_alg».proof.Proof.Gen.KernelIdeal.Frame
import proofs.«404501_j6201932775870_3_alg».proof.Proof.Spec
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- The first padded cloud as the region finds it. -/
abbrev inA (c : Dev nD) : Vec Ideal S3x200704 .f32 := V c main_v6
/-- The second padded cloud (the flow) as the region finds it. -/
abbrev inB (c : Dev nD) : Vec Ideal S3x200704 .f32 := V c main_v7

/-- Row k, column n of the deformed cloud. -/
def deformedAt (c : Dev nD) (k : Fin 3) (n : Fin 200704) : EReal :=
  FloatOps.addf (F := Ideal) (φ := .f32) (inA V c (ix2 k n)) (inB V c (ix2 k n))

/-! ## The body's arithmetic at one element of a block -/

/-- The two zero offsets, however spelt. -/
theorem zero_off : (![0, 0] : Fin 2 → Nat) = fun _ => 0 :=
  funext fun a => match a with | ⟨0, _⟩ => rfl | ⟨1, _⟩ => rfl

/-- The stored sum at row p, column q of a block: the two loaded blocks' entries added. -/
theorem sum_at (x0 x1 : Vec Ideal S3x25088 .f32) (p : Fin 3) (q : Fin 25088) :
    k0_pay2 x0 x1 (ix2 p q) = FloatOps.addf (F := Ideal) (φ := .f32) (x0 (ix2 p q)) (x1 (ix2 p q)) := by
  unfold k0_pay2
  simp only [shapeCast_self]
  rfl

/-- Row k of the stored sum, cut out as a one-row block, at column q: the sum at row k, column q. -/
theorem row_at (x0 x1 : Vec Ideal S3x25088 .f32) (k : Fin 3) (h : S3x25088.Slices ![k.val, 0] S1x25088) (q : Fin 25088) :
    extractStridedSlice S1x25088 ![k.val, 0] (k0_pay2 x0 x1) h (ix2 0 q)
      = FloatOps.addf (F := Ideal) (φ := .f32) (x0 (ix2 k q)) (x1 (ix2 k q)) :=
  (extractStridedSlice_apply ![k.val, 0] (k0_pay2 x0 x1) h (ix2 0 q) (ix2 k q)
    (fun a => match a with
      | ⟨0, _⟩ => by show k.val = k.val + 0; omega
      | ⟨1, _⟩ => by show q.val = 0 + q.val; omega)).trans (sum_at x0 x1 k q)

/-- The stored word at column q of a block: the row-major position of the cell of the column's summed point. -/
theorem flat_at (x0 x1 : Vec Ideal S3x25088 .f32) (q : Fin 25088) :
    k0_pay1 (k0_pay3 x0 x1) (k0_pay4 x0 x1) (k0_pay5 x0 x1) 45#32 (ix2 0 q)
      = Cert.Voxel.flatWord
          (Cert.Voxel.cellWord 0 (FloatOps.addf (F := Ideal) (φ := .f32) (x0 (ix2 0 q)) (x1 (ix2 0 q))))
          (Cert.Voxel.cellWord 1 (FloatOps.addf (F := Ideal) (φ := .f32) (x0 (ix2 1 q)) (x1 (ix2 1 q))))
          (Cert.Voxel.cellWord 2 (FloatOps.addf (F := Ideal) (φ := .f32) (x0 (ix2 2 q)) (x1 (ix2 2 q)))) := by
  rw [← row_at x0 x1 0 slices_S3x25088_o0_0_S1x25088 q, ← row_at x0 x1 1 slices_S3x25088_o1_0_S1x25088 q,
    ← row_at x0 x1 2 slices_S3x25088_o2_0_S1x25088 q]
  rfl

/-! ## The blocks of a point -/

/-- The index maps, decided over the grid: at point t every window's block is block (0, t). -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- The deformed cloud as one function of the region's input arrays. -/
abbrev deformedFn (c : Dev nD) : Vec Ideal S3x200704 .f32 := fun i => deformedAt V c (i 0) (i 1)

/-- It is the sum of the two input arrays at every index. -/
theorem deformedFn_apply (c : Dev nD) (e : S3x200704.Idx) :
    deformedFn V c e = FloatOps.addf (F := Ideal) (φ := .f32) (V c main_v6 e) (V c main_v7 e) := by
  obtain ⟨r, n, rfl⟩ : ∃ r n, e = ix2 r n := ⟨e 0, e 1, eq_ix2 e⟩
  rfl

/-- WHAT POINT t WRITES BACK to the deformed cloud is block t of the sum of the two input arrays. -/
theorem deformed_flushed (c : Dev nD) (t : Fin cfg0.N) :
    (dat0 (F := Ideal) V c).flushed 2 t = ((cfg0.win 2).blk t).view.read (Elt Ideal) (deformedFn V c) := by
  show (cfg0.win 2).cut (grid0.coords t) ((dat0 (F := Ideal) V c).after 2 t) = _
  rw [after0_2]
  unfold out0_2
  rw [View.canon_unit_zero zero_off]
  simp only [View.ld_unit_zero (S := S3x25088) zero_off]
  obtain ⟨a0, a1, b0, b1, c0, c1, d0, d1⟩ := idx_facts t
  funext j
  obtain ⟨p, q, rfl⟩ : ∃ p q, j = ix2 p q := ⟨j 0, j 1, eq_ix2 j⟩
  show k0_pay2 (iblk0 V c 0 t) (iblk0 V c 1 t) (ix2 p q) = _
  rw [sum_at]
  show FloatOps.addf (F := Ideal) (φ := .f32) (V c main_v6 (((cfg0.win 0).blk t).view.emb (ix2 p q)))
      (V c main_v7 (((cfg0.win 1).blk t).view.emb (ix2 p q)))
    = deformedFn V c (((cfg0.win 2).blk t).view.emb (ix2 p q))
  rw [deformedFn_apply]
  have h0 : ((cfg0.win 0).blk t).view.emb (ix2 p q) = ((cfg0.win 2).blk t).view.emb (ix2 p q) := by
    funext a; apply Fin.ext
    match a with
    | ⟨0, _⟩ => show win0_0.index t (0 : Fin 2) * 3 + 1 * p.val = win0_2.index t (0 : Fin 2) * 3 + 1 * p.val; omega
    | ⟨1, _⟩ => show win0_0.index t (1 : Fin 2) * 25088 + 1 * q.val = win0_2.index t (1 : Fin 2) * 25088 + 1 * q.val; omega
  have h1 : ((cfg0.win 1).blk t).view.emb (ix2 p q) = ((cfg0.win 2).blk t).view.emb (ix2 p q) := by
    funext a; apply Fin.ext
    match a with
    | ⟨0, _⟩ => show win0_1.index t (0 : Fin 2) * 3 + 1 * p.val = win0_2.index t (0 : Fin 2) * 3 + 1 * p.val; omega
    | ⟨1, _⟩ => show win0_1.index t (1 : Fin 2) * 25088 + 1 * q.val = win0_2.index t (1 : Fin 2) * 25088 + 1 * q.val; omega
  rw [h0, h1]

/-- An index of the deformed cloud is in point t's block iff each coordinate is in the block's range on its axis. -/
theorem deformed_mem_blk (t : Fin cfg0.N) (i : S3x200704.Idx) :
    i ∈ ((cfg0.win 2).blk t).view.set ↔ ∀ a : Fin 2, win0_2.index t a * S3x25088.size a ≤ (i a).val
      ∧ (i a).val < win0_2.index t a * S3x25088.size a + S3x25088.size a := by
  show i ∈ ((View.whole main_v8_0).slice (win0_2.rect t)).set ↔ _
  rw [View.set_slice_whole, Rect.mem_set_unit]
  exact Iff.rfl

/-- Column n of the deformed cloud is in the block of point n / 25088: the 8 blocks tile the array. -/
theorem deformed_cover (i : S3x200704.Idx) :
    ∃ t : Fin cfg0.N, (cfg0.win 2).flush t = true ∧ i ∈ ((cfg0.win 2).blk t).view.set := by
  have hi0 : (i 0).val < 3 := (i 0).isLt
  have hi1 : (i 1).val < 200704 := (i 1).isLt
  obtain ⟨t, ht⟩ : ∃ t : Fin cfg0.N, t.val = (i 1).val / 25088 :=
    ⟨⟨(i 1).val / 25088, by rw [show cfg0.N = 8 from N_0]; omega⟩, rfl⟩
  obtain ⟨-, -, -, -, c0, c1, -, -⟩ := idx_facts t
  refine ⟨t, flush0_2 t, ?_⟩
  rw [deformed_mem_blk]
  intro a
  match a with
  | ⟨0, _⟩ =>
    show win0_2.index t (0 : Fin 2) * 3 ≤ (i 0).val ∧ (i 0).val < win0_2.index t (0 : Fin 2) * 3 + 3
    omega
  | ⟨1, _⟩ =>
    show win0_2.index t (1 : Fin 2) * 25088 ≤ (i 1).val ∧ (i 1).val < win0_2.index t (1 : Fin 2) * 25088 + 25088
    omega

/-- THE DEFORMED CLOUD after the region: the sum of the two inputs, index by index. -/
theorem deformed_arr (c : Dev nD) :
    (dat0 (F := Ideal) V c).arrAt 2 cfg0.N = (fun i => deformedAt V c (i 0) (i 1) : Vec Ideal S3x200704 .f32) := by
  exact (dat0 (F := Ideal) V c).arrAt_eq_of_cover 2 (deformedFn V c) (fun t _ => deformed_flushed V c t) deformed_cover

/-! ## The flat cell index -/

/-- The flat cell index as one function of the region's input arrays. -/
abbrev flatFn (c : Dev nD) : Vec Ideal S1x200704 .i32 := fun i =>
  Cert.Voxel.flatWord (Cert.Voxel.cellWord 0 (deformedAt V c 0 (i 1))) (Cert.Voxel.cellWord 1 (deformedAt V c 1 (i 1)))
    (Cert.Voxel.cellWord 2 (deformedAt V c 2 (i 1)))

/-- Row k, column q of the first input's block at point t is row k, column 25088·t + q of its array. -/
theorem inA_block_idx (t : Fin cfg0.N) (k : Fin 3) (q : Fin 25088) (n : Fin 200704) (hn : n.val = t.val * 25088 + q.val) :
    ((cfg0.win 0).blk t).view.emb (ix2 k q) = (ix2 k n : S3x200704.Idx) := by
  obtain ⟨a0, a1, -, -, -, -, -, -⟩ := idx_facts t
  funext a; apply Fin.ext
  match a with
  | ⟨0, _⟩ => show win0_0.index t (0 : Fin 2) * 3 + 1 * k.val = k.val; omega
  | ⟨1, _⟩ => show win0_0.index t (1 : Fin 2) * 25088 + 1 * q.val = n.val; omega

/-- Row k, column q of the second input's block at point t is row k, column 25088·t + q of its array. -/
theorem inB_block_idx (t : Fin cfg0.N) (k : Fin 3) (q : Fin 25088) (n : Fin 200704) (hn : n.val = t.val * 25088 + q.val) :
    ((cfg0.win 1).blk t).view.emb (ix2 k q) = (ix2 k n : S3x200704.Idx) := by
  obtain ⟨-, -, b0, b1, -, -, -, -⟩ := idx_facts t
  funext a; apply Fin.ext
  match a with
  | ⟨0, _⟩ => show win0_1.index t (0 : Fin 2) * 3 + 1 * k.val = k.val; omega
  | ⟨1, _⟩ => show win0_1.index t (1 : Fin 2) * 25088 + 1 * q.val = n.val; omega

/-- Column q of the flat index's block at point t is column 25088·t + q of its array. -/
theorem flat_block_idx (t : Fin cfg0.N) (q : Fin 25088) (n : Fin 200704) (hn : n.val = t.val * 25088 + q.val) :
    ((cfg0.win 3).blk t).view.emb (ix2 0 q) = (ix2 0 n : S1x200704.Idx) := by
  obtain ⟨-, -, -, -, -, -, d0, d1⟩ := idx_facts t
  funext a; apply Fin.ext
  match a with
  | ⟨0, _⟩ => show win0_3.index t (0 : Fin 2) * 1 + 1 * 0 = 0; omega
  | ⟨1, _⟩ => show win0_3.index t (1 : Fin 2) * 25088 + 1 * q.val = n.val; omega

/-- WHAT POINT t WRITES BACK to the flat cell index is block t of the cell position of the summed input arrays. -/
theorem flat_flushed (c : Dev nD) (t : Fin cfg0.N) :
    (dat0 (F := Ideal) V c).flushed 3 t = ((cfg0.win 3).blk t).view.read (Elt Ideal) (flatFn V c) := by
  show (cfg0.win 3).cut (grid0.coords t) ((dat0 (F := Ideal) V c).after 3 t) = _
  rw [after0_3]
  unfold out0_3
  rw [View.canon_unit_zero zero_off]
  simp only [View.ld_unit_zero (S := S3x25088) zero_off]
  funext j
  obtain ⟨p, q, rfl⟩ : ∃ p q, j = ix2 p q := ⟨j 0, j 1, eq_ix2 j⟩
  obtain rfl : p = 0 := Subsingleton.elim _ _
  have ht : t.val < 8 := lt_of_lt_of_eq t.isLt (show cfg0.N = 8 from N_0)
  obtain ⟨n, hn⟩ : ∃ n : Fin 200704, n.val = t.val * 25088 + q.val := ⟨⟨t.val * 25088 + q.val, by omega⟩, rfl⟩
  show k0_pay1 (k0_pay3 (iblk0 V c 0 t) (iblk0 V c 1 t)) (k0_pay4 (iblk0 V c 0 t) (iblk0 V c 1 t))
      (k0_pay5 (iblk0 V c 0 t) (iblk0 V c 1 t)) 45#32 (ix2 0 q) = _
  rw [flat_at]
  show Cert.Voxel.flatWord
      (Cert.Voxel.cellWord 0 (FloatOps.addf (F := Ideal) (φ := .f32) (V c main_v6 (((cfg0.win 0).blk t).view.emb (ix2 0 q)))
        (V c main_v7 (((cfg0.win 1).blk t).view.emb (ix2 0 q)))))
      (Cert.Voxel.cellWord 1 (FloatOps.addf (F := Ideal) (φ := .f32) (V c main_v6 (((cfg0.win 0).blk t).view.emb (ix2 1 q)))
        (V c main_v7 (((cfg0.win 1).blk t).view.emb (ix2 1 q)))))
      (Cert.Voxel.cellWord 2 (FloatOps.addf (F := Ideal) (φ := .f32) (V c main_v6 (((cfg0.win 0).blk t).view.emb (ix2 2 q)))
        (V c main_v7 (((cfg0.win 1).blk t).view.emb (ix2 2 q)))))
    = flatFn V c (((cfg0.win 3).blk t).view.emb (ix2 0 q))
  rw [inA_block_idx t 0 q n hn, inA_block_idx t 1 q n hn, inA_block_idx t 2 q n hn,
    inB_block_idx t 0 q n hn, inB_block_idx t 1 q n hn, inB_block_idx t 2 q n hn, flat_block_idx t q n hn]
  rfl

/-- An index of the flat cell index is in point t's block iff each coordinate is in the block's range on its axis. -/
theorem flat_mem_blk (t : Fin cfg0.N) (i : S1x200704.Idx) :
    i ∈ ((cfg0.win 3).blk t).view.set ↔ ∀ a : Fin 2, win0_3.index t a * S1x25088.size a ≤ (i a).val
      ∧ (i a).val < win0_3.index t a * S1x25088.size a + S1x25088.size a := by
  show i ∈ ((View.whole main_v8_1).slice (win0_3.rect t)).set ↔ _
  rw [View.set_slice_whole, Rect.mem_set_unit]
  exact Iff.rfl

/-- Column n of the flat cell index is in the block of point n / 25088: the 8 blocks tile the array. -/
theorem flat_cover (i : S1x200704.Idx) :
    ∃ t : Fin cfg0.N, (cfg0.win 3).flush t = true ∧ i ∈ ((cfg0.win 3).blk t).view.set := by
  have hi0 : (i 0).val < 1 := (i 0).isLt
  have hi1 : (i 1).val < 200704 := (i 1).isLt
  obtain ⟨t, ht⟩ : ∃ t : Fin cfg0.N, t.val = (i 1).val / 25088 :=
    ⟨⟨(i 1).val / 25088, by rw [show cfg0.N = 8 from N_0]; omega⟩, rfl⟩
  obtain ⟨-, -, -, -, -, -, d0, d1⟩ := idx_facts t
  refine ⟨t, flush0_3 t, ?_⟩
  rw [flat_mem_blk]
  intro a
  match a with
  | ⟨0, _⟩ =>
    show win0_3.index t (0 : Fin 2) * 1 ≤ (i 0).val ∧ (i 0).val < win0_3.index t (0 : Fin 2) * 1 + 1
    omega
  | ⟨1, _⟩ =>
    show win0_3.index t (1 : Fin 2) * 25088 ≤ (i 1).val ∧ (i 1).val < win0_3.index t (1 : Fin 2) * 25088 + 25088
    omega

/-- THE FLAT CELL INDEX after the region: at column n, the row-major position of the cell of column n's deformed point. -/
theorem flat_arr (c : Dev nD) :
    (dat0 (F := Ideal) V c).arrAt 3 cfg0.N
      = (fun i => Cert.Voxel.flatWord (Cert.Voxel.cellWord 0 (deformedAt V c 0 (i 1))) (Cert.Voxel.cellWord 1 (deformedAt V c 1 (i 1)))
          (Cert.Voxel.cellWord 2 (deformedAt V c 2 (i 1))) : Vec Ideal S1x200704 .i32) := by
  exact (dat0 (F := Ideal) V c).arrAt_eq_of_cover 3 (flatFn V c) (fun t _ => flat_flushed V c t) flat_cover

end Cert.KernelIdeal.Region0

end
-- ==== Proof.KRegion1.lean ====
/-
  The packing region, read as a whole array. Its grid has 72 points; point t stages columns [400000·t, 400000·(t+1)) of
  the nearest-occupied-cell table laid out as [3, 28800000] (one row per coordinate, one column per cell of the grid)
  and writes the same columns of its output [1, 28800000]; the 72 column ranges tile the arrays. So after the region
  column j of the output holds the row-major position `a·36000 + b·45 + c` of the cell (a, b, c) stored in column j of the
  table.
-/
import proofs.«404501_j6201932775870_3_alg».proof.Proof.Gen.KernelIdeal.Frame
import proofs.«404501_j6201932775870_3_alg».proof.Proof.Spec
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- The table, one row per coordinate, as the region finds it. -/
abbrev tbl (c : Dev nD) : Vec Ideal S3x28800000 .i32 := V c main_v10

/-- The whole output array the region leaves: at column j, the row-major position of the cell stored in column j. -/
abbrev packed (c : Dev nD) : Vec Ideal S1x28800000 .i32 :=
  fun i => Cert.Voxel.flatWord (tbl V c (ix2 0 (i 1))) (tbl V c (ix2 1 (i 1))) (tbl V c (ix2 2 (i 1)))

/-- The zero offsets of a whole staging buffer. -/
theorem zero_off : (![0, 0] : Fin 2 → Nat) = fun _ => 0 :=
  funext fun a => match a with | ⟨0, _⟩ => rfl | ⟨1, _⟩ => rfl

/-- The body's arithmetic at column q of a staged block: the three rows of the column, packed. -/
theorem pay_apply (x0 : Vec Ideal S3x400000 .i32) (u : Fin 1) (q : Fin 400000) :
    k1_pay1 (F := Ideal) x0 (ix2 u q) = Cert.Voxel.flatWord (x0 (ix2 0 q)) (x0 (ix2 1 q)) (x0 (ix2 2 q)) := by
  obtain rfl : u = 0 := Subsingleton.elim _ _
  have r0 : extractStridedSlice S1x400000 ![0, 0] x0 slices_S3x400000_o0_0_S1x400000 (ix2 0 q) = x0 (ix2 0 q) :=
    extractStridedSlice_apply _ _ _ _ _ fun a => match a with | ⟨0, _⟩ => rfl | ⟨1, _⟩ => (Nat.zero_add _).symm
  have r1 : extractStridedSlice S1x400000 ![1, 0] x0 slices_S3x400000_o1_0_S1x400000 (ix2 0 q) = x0 (ix2 1 q) :=
    extractStridedSlice_apply _ _ _ _ _ fun a => match a with | ⟨0, _⟩ => rfl | ⟨1, _⟩ => (Nat.zero_add _).symm
  have r2 : extractStridedSlice S1x400000 ![2, 0] x0 slices_S3x400000_o2_0_S1x400000 (ix2 0 q) = x0 (ix2 2 q) :=
    extractStridedSlice_apply _ _ _ _ _ fun a => match a with | ⟨0, _⟩ => rfl | ⟨1, _⟩ => (Nat.zero_add _).symm
  unfold k1_pay1 Cert.Voxel.flatWord
  simp only [shapeCast_self]
  show IntOp.addi (IntOp.addi
      (IntOp.muli (extractStridedSlice S1x400000 ![0, 0] x0 slices_S3x400000_o0_0_S1x400000 (ix2 0 q)) 36000#32)
      (IntOp.muli (extractStridedSlice S1x400000 ![1, 0] x0 slices_S3x400000_o1_0_S1x400000 (ix2 0 q)) 45#32))
      (extractStridedSlice S1x400000 ![2, 0] x0 slices_S3x400000_o2_0_S1x400000 (ix2 0 q)) = _
  rw [r0, r1, r2]

/-- Where the blocks sit: at point t both windows are at block (0, t). -/
theorem block_index : ∀ t : Fin cfg1.N, win1_0.index t (0 : Fin 2) = 0 ∧ win1_0.index t (1 : Fin 2) = t.val
    ∧ win1_1.index t (0 : Fin 2) = 0 ∧ win1_1.index t (1 : Fin 2) = t.val :=
  (by decide +kernel : ∀ t : Fin grid1.N, _)

/-- Row k, column q of the table's block at point t is row k, column 400000·t + q of the table. -/
theorem tbl_block (c : Dev nD) (t : Fin cfg1.N) (k : Fin 3) (q : Fin 400000) (n : Fin 28800000)
    (hn : n.val = 400000 * t.val + q.val) :
    (iblk1 (F := Ideal) V c 0 t : Vec Ideal S3x400000 .i32) (ix2 k q) = tbl V c (ix2 k n) := by
  obtain ⟨e0, e1, -, -⟩ := block_index t
  show V c main_v10 (((cfg1.win 0).blk t).view.emb (ix2 k q)) = V c main_v10 (ix2 k n)
  refine congrArg _ (funext fun a => Fin.ext ?_)
  match a with
  | ⟨0, _⟩ => show win1_0.index t (0 : Fin 2) * 3 + 1 * k.val = k.val; omega
  | ⟨1, _⟩ => show win1_0.index t (1 : Fin 2) * 400000 + 1 * q.val = n.val; omega

/-- WHAT POINT t WRITES BACK is block t of the packed table. -/
theorem flushed_eq (c : Dev nD) (t : Fin cfg1.N) :
    (dat1 (F := Ideal) V c).flushed 1 t = ((cfg1.win 1).blk t).view.read (Elt Ideal) (packed V c) := by
  show (cfg1.win 1).cut (grid1.coords t) ((dat1 (F := Ideal) V c).after 1 t) = _
  rw [after1_1]
  unfold out1_1
  rw [View.canon_unit_zero zero_off]
  simp only [View.ld_unit_zero (S := S3x400000) zero_off]
  funext j
  obtain ⟨p, q, rfl⟩ : ∃ (p : Fin 1) (q : Fin 400000), j = ix2 p q := ⟨j 0, j 1, eq_ix2 j⟩
  obtain ⟨-, -, -, e3⟩ := block_index t
  have hn : ((((cfg1.win 1).blk t).view.emb (ix2 p q)) 1).val = 400000 * t.val + q.val := by
    show win1_1.index t (1 : Fin 2) * 400000 + 1 * q.val = _
    omega
  show k1_pay1 (F := Ideal) (iblk1 (F := Ideal) V c 0 t) (ix2 p q)
    = packed V c (((cfg1.win 1).blk t).view.emb (ix2 p q))
  refine (pay_apply (iblk1 (F := Ideal) V c 0 t) p q).trans ?_
  rw [tbl_block V c t 0 q _ hn, tbl_block V c t 1 q _ hn, tbl_block V c t 2 q _ hn]

/-- An index of the array is in point t's block iff each coordinate is in the block's range on its axis. -/
theorem mem_blk (t : Fin cfg1.N) (i : S1x28800000.Idx) :
    i ∈ ((cfg1.win 1).blk t).view.set ↔ ∀ a : Fin 2, win1_1.index t a * S1x400000.size a ≤ (i a).val ∧ (i a).val < win1_1.index t a * S1x400000.size a + S1x400000.size a := by
  show i ∈ ((View.whole main_v11).slice (win1_1.rect t)).set ↔ _
  rw [View.set_slice_whole, Rect.mem_set_unit]
  exact Iff.rfl

/-- Every block of columns is some point's. -/
theorem block_onto : ∀ b : Fin 72, ∃ t : Fin cfg1.N, win1_1.index t = ![0, b.val] :=
  (by decide +kernel : ∀ b : Fin 72, ∃ t : Fin grid1.N, win1_1.index t = ![0, b.val])

/-- The 72 blocks cover the array: column n is in the block of point n / 400000. -/
theorem cover (i : S1x28800000.Idx) :
    ∃ t : Fin cfg1.N, (cfg1.win 1).flush t = true ∧ i ∈ ((cfg1.win 1).blk t).view.set := by
  have hi0 : (i 0).val < 1 := (i 0).isLt
  have hi1 : (i 1).val < 28800000 := (i 1).isLt
  obtain ⟨t, ht⟩ := block_onto ⟨(i 1).val / 400000, by omega⟩
  have q0 : win1_1.index t (0 : Fin 2) = 0 := congrFun ht 0
  have q1 : win1_1.index t (1 : Fin 2) = (i 1).val / 400000 := congrFun ht 1
  refine ⟨t, flush1_1 t, ?_⟩
  rw [mem_blk]
  intro a
  match a with
  | ⟨0, _⟩ => show win1_1.index t (0 : Fin 2) * 1 ≤ (i 0).val ∧ (i 0).val < win1_1.index t (0 : Fin 2) * 1 + 1; omega
  | ⟨1, _⟩ => show win1_1.index t (1 : Fin 2) * 400000 ≤ (i 1).val ∧ (i 1).val < win1_1.index t (1 : Fin 2) * 400000 + 400000; omega

/-- THE PACKED TABLE after the region: at column j, the row-major position of the cell stored in column j. -/
theorem packed_arr (c : Dev nD) :
    (dat1 (F := Ideal) V c).arrAt 1 cfg1.N
      = (fun i => Cert.Voxel.flatWord (tbl V c (ix2 0 (i 1))) (tbl V c (ix2 1 (i 1))) (tbl V c (ix2 2 (i 1))) : Vec Ideal S1x28800000 .i32) :=
  (dat1 (F := Ideal) V c).arrAt_eq_of_cover 1 (packed V c) (fun t _ => flushed_eq V c t) cover

end Cert.KernelIdeal.Region1

end
-- ==== Proof.KRegion2.lean ====
/-
  The distance region, read as a whole array. Its grid has 8 points; point t stages columns [25088·t, 25088·(t+1)) of
  the matched points [3, 200704] and of the deformed cloud [3, 200704] and writes the same columns of its output
  [1, 200704]; the 8 column ranges tile the arrays. So after the region column n of the output holds
  `sqrt (∑_k (p[k,n] − q[k,n])²)`, the sum over the three coordinates, on the extended reals.
-/
import proofs.«404501_j6201932775870_3_alg».proof.Proof.Gen.KernelIdeal.Frame
import proofs.«404501_j6201932775870_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- The matched points of the second cloud, one row per coordinate, as the region finds them. -/
abbrev matched (c : Dev nD) : Vec Ideal S3x200704 .f32 := V c main_v34
/-- The deformed cloud as the region finds it. -/
abbrev moved (c : Dev nD) : Vec Ideal S3x200704 .f32 := V c main_v8_0

/-- Coordinate k of the difference at column n. -/
def diffAt (c : Dev nD) (k : Fin 3) (n : Fin 200704) : EReal :=
  FloatOps.subf (F := Ideal) (φ := .f32) (matched V c (ix2 k n)) (moved V c (ix2 k n))

/-- The whole output array the region leaves: at column n, the distance between the two points of column n. -/
abbrev dists (c : Dev nD) : Vec Ideal S1x200704 .f32 :=
  fun i => Ideal.sqrt (∑ k : Fin 3, diffAt V c k (i 1) * diffAt V c k (i 1))

/-- The zero offsets of a whole staging buffer. -/
theorem zero_off : (![0, 0] : Fin 2 → Nat) = fun _ => 0 :=
  funext fun a => match a with | ⟨0, _⟩ => rfl | ⟨1, _⟩ => rfl

/-- A lane vector viewed as one row, then its square roots: at column q, the square root of lane q. -/
theorem sqrt_row_apply (z : FVec Ideal S25088 .f32) (u : Fin 1) (q : Fin 25088) :
    Idealize.ShloMosaic.sqrt (shapeCast S1x25088 z shapeCasts_S25088_S1x25088) (ix2 u q) = Ideal.sqrt (z (ix1 q)) := by
  show Ideal.sqrt (shapeCast S1x25088 z shapeCasts_S25088_S1x25088 (ix2 u q)) = _
  rw [shapeCast_a_1a_apply]

/-- The sum down the three rows, read at lane q. -/
theorem lane_sum (y : FVec Ideal S3x25088 .f32) (hφ : FKind.Formats .f32)
    (hacc : (0x00000000#32 : BitVec 32) = FKind.add.neutral .f32 hφ) (q : Fin 25088) :
    multiReduction (F := Ideal) .add [0] S25088 y 0x00000000#32 reduces_S3x25088_S25088 hφ hacc (ix1 q)
      = ∑ k : Fin 3, y (ix2 k q) := by
  refine (Ideal.multiReduction_add_single y _ reduces_S3x25088_S25088 hφ hacc (ix1 q)).trans ?_
  refine Finset.sum_congr rfl fun k _ => congrArg y (funext fun a => Fin.ext ?_)
  match a with
  | ⟨0, _⟩ => rfl
  | ⟨1, _⟩ => rfl

/-- The body's arithmetic at column q of two staged blocks: the square root of the sum, over the three rows, of the
    squared differences of the column's entries. -/
theorem pay_apply (x0 x1 : Vec Ideal S3x25088 .f32) (u : Fin 1) (q : Fin 25088) :
    k2_pay1 (F := Ideal) x0 x1 (ix2 u q)
      = Ideal.sqrt (∑ k : Fin 3, FloatOps.subf (F := Ideal) (φ := .f32) (x0 (ix2 k q)) (x1 (ix2 k q))
          * FloatOps.subf (F := Ideal) (φ := .f32) (x0 (ix2 k q)) (x1 (ix2 k q))) := by
  unfold k2_pay1
  simp only [shapeCast_self]
  rw [sqrt_row_apply]
  refine congrArg Ideal.sqrt ((lane_sum _ _ _ q).trans ?_)
  rfl

/-- Where the blocks sit: at point t all three windows are at block (0, t). -/
theorem block_index : ∀ t : Fin cfg2.N, win2_0.index t (0 : Fin 2) = 0 ∧ win2_0.index t (1 : Fin 2) = t.val
    ∧ win2_1.index t (0 : Fin 2) = 0 ∧ win2_1.index t (1 : Fin 2) = t.val
    ∧ win2_2.index t (0 : Fin 2) = 0 ∧ win2_2.index t (1 : Fin 2) = t.val :=
  (by decide +kernel : ∀ t : Fin grid2.N, _)

/-- Row k, column q of the matched points' block at point t is row k, column 25088·t + q of the matched points. -/
theorem matched_block (c : Dev nD) (t : Fin cfg2.N) (k : Fin 3) (q : Fin 25088) (n : Fin 200704)
    (hn : n.val = 25088 * t.val + q.val) :
    (iblk2 (F := Ideal) V c 0 t : Vec Ideal S3x25088 .f32) (ix2 k q) = matched V c (ix2 k n) := by
  obtain ⟨e0, e1, -, -, -, -⟩ := block_index t
  show V c main_v34 (((cfg2.win 0).blk t).view.emb (ix2 k q)) = V c main_v34 (ix2 k n)
  refine congrArg _ (funext fun a => Fin.ext ?_)
  match a with
  | ⟨0, _⟩ => show win2_0.index t (0 : Fin 2) * 3 + 1 * k.val = k.val; omega
  | ⟨1, _⟩ => show win2_0.index t (1 : Fin 2) * 25088 + 1 * q.val = n.val; omega

/-- Row k, column q of the deformed cloud's block at point t is row k, column 25088·t + q of the deformed cloud. -/
theorem moved_block (c : Dev nD) (t : Fin cfg2.N) (k : Fin 3) (q : Fin 25088) (n : Fin 200704)
    (hn : n.val = 25088 * t.val + q.val) :
    (iblk2 (F := Ideal) V c 1 t : Vec Ideal S3x25088 .f32) (ix2 k q) = moved V c (ix2 k n) := by
  obtain ⟨-, -, e2, e3, -, -⟩ := block_index t
  show V c main_v8_0 (((cfg2.win 1).blk t).view.emb (ix2 k q)) = V c main_v8_0 (ix2 k n)
  refine congrArg _ (funext fun a => Fin.ext ?_)
  match a with
  | ⟨0, _⟩ => show win2_1.index t (0 : Fin 2) * 3 + 1 * k.val = k.val; omega
  | ⟨1, _⟩ => show win2_1.index t (1 : Fin 2) * 25088 + 1 * q.val = n.val; omega

/-- WHAT POINT t WRITES BACK is block t of the distances. -/
theorem flushed_eq (c : Dev nD) (t : Fin cfg2.N) :
    (dat2 (F := Ideal) V c).flushed 2 t = ((cfg2.win 2).blk t).view.read (Elt Ideal) (dists V c) := by
  show (cfg2.win 2).cut (grid2.coords t) ((dat2 (F := Ideal) V c).after 2 t) = _
  rw [after2_2]
  unfold out2_2
  rw [View.canon_unit_zero zero_off]
  simp only [View.ld_unit_zero (S := S3x25088) zero_off]
  funext j
  obtain ⟨p, q, rfl⟩ : ∃ (p : Fin 1) (q : Fin 25088), j = ix2 p q := ⟨j 0, j 1, eq_ix2 j⟩
  obtain ⟨-, -, -, -, -, e5⟩ := block_index t
  have hn : ((((cfg2.win 2).blk t).view.emb (ix2 p q)) 1).val = 25088 * t.val + q.val := by
    show win2_2.index t (1 : Fin 2) * 25088 + 1 * q.val = _
    omega
  show k2_pay1 (F := Ideal) (iblk2 (F := Ideal) V c 0 t) (iblk2 (F := Ideal) V c 1 t) (ix2 p q)
    = dists V c (((cfg2.win 2).blk t).view.emb (ix2 p q))
  refine (pay_apply (iblk2 (F := Ideal) V c 0 t) (iblk2 (F := Ideal) V c 1 t) p q).trans ?_
  refine congrArg Ideal.sqrt (Finset.sum_congr rfl fun k _ => ?_)
  rw [matched_block V c t k q _ hn, moved_block V c t k q _ hn]
  rfl

/-- An index of the array is in point t's block iff each coordinate is in the block's range on its axis. -/
theorem mem_blk (t : Fin cfg2.N) (i : S1x200704.Idx) :
    i ∈ ((cfg2.win 2).blk t).view.set ↔ ∀ a : Fin 2, win2_2.index t a * S1x25088.size a ≤ (i a).val ∧ (i a).val < win2_2.index t a * S1x25088.size a + S1x25088.size a := by
  show i ∈ ((View.whole main_v35).slice (win2_2.rect t)).set ↔ _
  rw [View.set_slice_whole, Rect.mem_set_unit]
  exact Iff.rfl

/-- Every block of columns is some point's. -/
theorem block_onto : ∀ b : Fin 8, ∃ t : Fin cfg2.N, win2_2.index t = ![0, b.val] :=
  (by decide +kernel : ∀ b : Fin 8, ∃ t : Fin grid2.N, win2_2.index t = ![0, b.val])

/-- The 8 blocks cover the array: column n is in the block of point n / 25088. -/
theorem cover (i : S1x200704.Idx) :
    ∃ t : Fin cfg2.N, (cfg2.win 2).flush t = true ∧ i ∈ ((cfg2.win 2).blk t).view.set := by
  have hi0 : (i 0).val < 1 := (i 0).isLt
  have hi1 : (i 1).val < 200704 := (i 1).isLt
  obtain ⟨t, ht⟩ := block_onto ⟨(i 1).val / 25088, by omega⟩
  have q0 : win2_2.index t (0 : Fin 2) = 0 := congrFun ht 0
  have q1 : win2_2.index t (1 : Fin 2) = (i 1).val / 25088 := congrFun ht 1
  refine ⟨t, flush2_2 t, ?_⟩
  rw [mem_blk]
  intro a
  match a with
  | ⟨0, _⟩ => show win2_2.index t (0 : Fin 2) * 1 ≤ (i 0).val ∧ (i 0).val < win2_2.index t (0 : Fin 2) * 1 + 1; omega
  | ⟨1, _⟩ => show win2_2.index t (1 : Fin 2) * 25088 ≤ (i 1).val ∧ (i 1).val < win2_2.index t (1 : Fin 2) * 25088 + 25088; omega

/-- THE DISTANCES after the region: at column n, the square root of the sum of the three squared differences. -/
theorem dist_arr (c : Dev nD) :
    (dat2 (F := Ideal) V c).arrAt 2 cfg2.N
      = (fun i => Ideal.sqrt (∑ k : Fin 3, diffAt V c k (i 1) * diffAt V c k (i 1)) : Vec Ideal S1x200704 .f32) :=
  (dat2 (F := Ideal) V c).arrAt_eq_of_cover 2 (dists V c) (fun t _ => flushed_eq V c t) cover

end Cert.KernelIdeal.Region2

end
-- ==== Proof.KStages.lean ====
/-
  The kernel program's stages as functions of the five argument arrays. Its @main lays each cloud out one row per
  coordinate and pads it to 8 blocks of columns; the first region adds cloud and flow and turns every column into the
  row-major position of its cell; the second packs the nearest-occupied-cell table into one such position per cell; two
  table lookups by position give the matched point number; a lookup into the second cloud gives the matched point; the
  third region takes the distance; the first 200000 columns are the results.
-/
import proofs.«404501_j6201932775870_3_alg».proof.KernelIdeal
import proofs.«404501_j6201932775870_3_alg».proof.Proof.Gen.KernelIdeal
import proofs.«404501_j6201932775870_3_alg».proof.Proof.Spec
import Idealize.ShloMosaic.Lib.ValueIdx

noncomputable section

open scoped BigOperators

namespace Cert.KernelIdeal.Stages

open Idealize.ShloMosaic Idealize.ShloMosaic.ValueIdx
open Cert.KernelIdeal Cert.KernelIdeal.Gen

/-! ## The program's stages as functions of the argument arrays -/

/-- A cloud [1, 200000, 3] laid out one row per coordinate. -/
def rows (x : Vec Ideal S1x200000x3 .f32) : Vec Ideal S3x200000 .f32 :=
  transpose S3x200000 [1, 0] (shapeCast S200000x3 x shapeCasts_S1x200000x3_S200000x3) transposes_S200000x3_S3x200000_1_0

/-- The same padded with zeros to 200704 columns (8 blocks of 25088). -/
def rowsPadded (x : Vec Ideal S1x200000x3 .f32) : Vec Ideal S3x200704 .f32 :=
  pad S3x200704 ![0, 0] ![0, 704] ![0, 0] (rows x) (sitofp (F := Ideal) .f32 (constantI S_ 32 0#32)) pads_S3x200000_S3x200704_000_07040 h_S_

/-- Coordinate k of column n of the deformed (padded) cloud. -/
def movedAt (x f : Vec Ideal S1x200000x3 .f32) (k : Fin 3) (n : Fin 200704) : EReal :=
  FloatOps.addf (F := Ideal) (φ := .f32) (rowsPadded x (ix2 k n)) (rowsPadded f (ix2 k n))

/-- The flat cell index of every column, as the first region leaves it: [1, 200704]. -/
def flatRow (x f : Vec Ideal S1x200000x3 .f32) : Vec Ideal S1x200704 .i32 := fun i =>
  Cert.Voxel.flatWord (Cert.Voxel.cellWord 0 (movedAt x f 0 (i 1))) (Cert.Voxel.cellWord 1 (movedAt x f 1 (i 1)))
    (Cert.Voxel.cellWord 2 (movedAt x f 2 (i 1)))
/-- … as a vector [200704]. -/
def flatVec (x f : Vec Ideal S1x200000x3 .f32) : Vec Ideal S200704 .i32 := shapeCast S200704 (flatRow x f) shapeCasts_S1x200704_S200704

/-- The nearest-occupied-cell table with the grid flattened: one row per coordinate, one column per cell. -/
def idsRows (ids : Vec Ideal S3x800x800x45 .i32) : Vec Ideal S3x28800000 .i32 := shapeCast S3x28800000 ids shapeCasts_S3x800x800x45_S3x28800000
/-- The packed table as the second region leaves it: per cell, the flat index of its nearest occupied cell. -/
def packedRow (ids : Vec Ideal S3x800x800x45 .i32) : Vec Ideal S1x28800000 .i32 := fun i =>
  Cert.Voxel.flatWord (idsRows ids (ix2 0 (i 1))) (idsRows ids (ix2 1 (i 1))) (idsRows ids (ix2 2 (i 1)))
/-- … as a vector [28800000]. -/
def packedVec (ids : Vec Ideal S3x800x800x45 .i32) : Vec Ideal S28800000 .i32 := shapeCast S28800000 (packedRow ids) shapeCasts_S1x28800000_S28800000
/-- The grid flattened. -/
def gridVec (og : Vec Ideal S800x800x45 .i32) : Vec Ideal S28800000 .i32 := shapeCast S28800000 og shapeCasts_S800x800x45_S28800000

/-- jnp's reading of possibly negative indices on an axis of N positions: N is added to a negative one. -/
def wrapVec (N : BitVec 32) (v : Vec Ideal S200704 .i32) : Vec Ideal S200704 .i32 :=
  select (cmpi .slt v (broadcastInDim S200704 ![] bcast_S_S200704 (constantI S_ 32 0#32)))
    (addi v (broadcastInDim S200704 ![] bcast_S_S200704 (constantI S_ 32 N))) v
/-- A vector of indices as the [200704, 1] column of start indices a gather takes. -/
def col (v : Vec Ideal S200704 .i32) : Vec Ideal S200704x1 .i32 := broadcastInDim S200704x1 ![0] bcast_S200704_S200704x1_0 v
/-- `t[v]` of a flat table of 28800000 entries by 200704 indices. -/
def take (t : Vec Ideal S28800000 .i32) (v : Vec Ideal S200704 .i32) : Vec Ideal S200704 .i32 :=
  Host.gather gather_S28800000_S200704x1_S200704_n_0_n_n_0_1_1 t (col (wrapVec 28800000#32 v))

/-- Per column, the flat index of the nearest occupied cell. -/
def nearFlat (x f : Vec Ideal S1x200000x3 .f32) (ids : Vec Ideal S3x800x800x45 .i32) : Vec Ideal S200704 .i32 :=
  take (packedVec ids) (flatVec x f)
/-- Per column, the matched point number. -/
def nearestFull (x f : Vec Ideal S1x200000x3 .f32) (ids : Vec Ideal S3x800x800x45 .i32) (og : Vec Ideal S800x800x45 .i32) : Vec Ideal S200704 .i32 :=
  take (gridVec og) (nearFlat x f ids)
/-- Per column, the matched point of the second cloud, one row per coordinate. -/
def matchedRows (x f p : Vec Ideal S1x200000x3 .f32) (ids : Vec Ideal S3x800x800x45 .i32) (og : Vec Ideal S800x800x45 .i32) : Vec Ideal S3x200704 .f32 :=
  Host.gather gather_S3x200000_S200704x1_S3x200704_0_1_n_n_1_1_31 (rows p) (col (wrapVec 200000#32 (nearestFull x f ids og)))
/-- Coordinate k of matched point minus deformed point, at column n. -/
def gapAt (x f p : Vec Ideal S1x200000x3 .f32) (ids : Vec Ideal S3x800x800x45 .i32) (og : Vec Ideal S800x800x45 .i32) (k : Fin 3) (n : Fin 200704) : EReal :=
  FloatOps.subf (F := Ideal) (φ := .f32) (matchedRows x f p ids og (ix2 k n)) (movedAt x f k n)
/-- Per column, the distance, as the third region leaves it: [1, 200704]. -/
def distRow (x f p : Vec Ideal S1x200000x3 .f32) (ids : Vec Ideal S3x800x800x45 .i32) (og : Vec Ideal S800x800x45 .i32) : Vec Ideal S1x200704 .f32 := fun i =>
  Ideal.sqrt (∑ k : Fin 3, gapAt x f p ids og k (i 1) * gapAt x f p ids og k (i 1))

/-- THE FIRST RESULT: the first 200000 columns of the distances. -/
def distOut (x f p : Vec Ideal S1x200000x3 .f32) (ids : Vec Ideal S3x800x800x45 .i32) (og : Vec Ideal S800x800x45 .i32) : Vec Ideal S1x200000 .f32 :=
  extractStridedSlice S1x200000 ![0, 0] (distRow x f p ids og) slices_S1x200704_S1x200000_0_0
/-- THE SECOND RESULT: the first 200000 matched point numbers. -/
def nearestOut (x f : Vec Ideal S1x200000x3 .f32) (ids : Vec Ideal S3x800x800x45 .i32) (og : Vec Ideal S800x800x45 .i32) : Vec Ideal S200000 .i32 :=
  extractStridedSlice S200000 ![0] (nearestFull x f ids og) slices_S200704_S200000_0

end Cert.KernelIdeal.Stages

end
-- ==== Proof.KFold.lean ====
/-
  The kernel program's fold, read. The frame certificate names the buffers' contents at every boundary of @main: after
  each stretch of host operations the fold of that stretch over what was there, after each region the region's arrays at
  what its write-backs leave. Walking the two result buffers back through the ten boundaries — the last stretch's two
  slices, the distance region's output, the three table lookups, the packing region's output, the cell region's two
  outputs, the padded layouts of the clouds — gives each result as a function of the five argument arrays: the stages
  of `Cert.KernelIdeal.Stages`.
-/
import proofs.«404501_j6201932775870_3_alg».proof.Proof.Gen.KernelIdeal.Frame
import proofs.«404501_j6201932775870_3_alg».proof.Proof.KRegion0
import proofs.«404501_j6201932775870_3_alg».proof.Proof.KRegion1
import proofs.«404501_j6201932775870_3_alg».proof.Proof.KRegion2
import proofs.«404501_j6201932775870_3_alg».proof.Proof.KStages
import Idealize.ShloMosaic.Lib.StableHlo.Run

set_option maxRecDepth 16384

noncomputable section

open scoped BigOperators

namespace Cert.KernelIdeal.Fold

open Idealize.ShloMosaic Idealize.ShloMosaic.TcCoe Idealize.SL.Sem Idealize.ShloMosaic.ValueIdx Idealize.ShloMosaic.StableHlo
open Cert.KernelIdeal Cert.KernelIdeal.Gen Cert.KernelIdeal.Stages

variable (m : (ℓ : Loc nD τ sig) → Buf (Elt Ideal) ℓ) (ρ : Dev nD → PrngReg)

/-- The five argument arrays at launch. -/
abbrev xK (c : Dev nD) : Vec Ideal S1x200000x3 .f32 := m ((c : Thread nD τ).loc main_arg0)
abbrev fK (c : Dev nD) : Vec Ideal S1x200000x3 .f32 := m ((c : Thread nD τ).loc main_arg1)
abbrev pK (c : Dev nD) : Vec Ideal S1x200000x3 .f32 := m ((c : Thread nD τ).loc main_arg2)
abbrev idsK (c : Dev nD) : Vec Ideal S3x800x800x45 .i32 := m ((c : Thread nD τ).loc main_arg3)
abbrev ogK (c : Dev nD) : Vec Ideal S800x800x45 .i32 := m ((c : Thread nD τ).loc main_arg4)

/-! ## At the cell region's entry: the padded layouts -/

theorem W4_v6 (c : Dev nD) : W4 m ρ c (Proc.devRef .tc main_v6) = rowsPadded (xK m c) := by
  show StableHlo.after hostOps0_3 (StableHlo.after hostOps0_2 (StableHlo.after hostOps0_1 (StableHlo.after hostOps0 (W0 m ρ c)))) (Proc.devRef .tc main_v6) = _
  after_results
  rfl
theorem W4_v7 (c : Dev nD) : W4 m ρ c (Proc.devRef .tc main_v7) = rowsPadded (fK m c) := by
  show StableHlo.after hostOps0_3 (StableHlo.after hostOps0_2 (StableHlo.after hostOps0_1 (StableHlo.after hostOps0 (W0 m ρ c)))) (Proc.devRef .tc main_v7) = _
  after_results
  rfl
theorem W4_v5 (c : Dev nD) : W4 m ρ c (Proc.devRef .tc main_v5) = rows (pK m c) := by
  show StableHlo.after hostOps0_3 (StableHlo.after hostOps0_2 (StableHlo.after hostOps0_1 (StableHlo.after hostOps0 (W0 m ρ c)))) (Proc.devRef .tc main_v5) = _
  after_results
  rfl
theorem W4_arg3 (c : Dev nD) : W4 m ρ c (Proc.devRef .tc main_arg3) = idsK m c := by
  show StableHlo.after hostOps0_3 (StableHlo.after hostOps0_2 (StableHlo.after hostOps0_1 (StableHlo.after hostOps0 (W0 m ρ c)))) (Proc.devRef .tc main_arg3) = _
  after_results
theorem W4_arg4 (c : Dev nD) : W4 m ρ c (Proc.devRef .tc main_arg4) = ogK m c := by
  show StableHlo.after hostOps0_3 (StableHlo.after hostOps0_2 (StableHlo.after hostOps0_1 (StableHlo.after hostOps0 (W0 m ρ c)))) (Proc.devRef .tc main_arg4) = _
  after_results

/-! ## At the cell region's exit -/

/-- The region's deformed coordinate is the stage's. -/
theorem moved_eq (c : Dev nD) (k : Fin 3) (n : Fin 200704) :
    Region0.deformedAt (V4 m ρ) c k n = movedAt (xK m c) (fK m c) k n := by
  unfold Region0.deformedAt movedAt
  show FloatOps.addf (F := Ideal) (φ := .f32) (W4 m ρ c (Proc.devRef .tc main_v6) (ix2 k n)) (W4 m ρ c (Proc.devRef .tc main_v7) (ix2 k n)) = _
  rw [W4_v6, W4_v7]

theorem W5_v8_0 (c : Dev nD) :
    W5 m ρ c (Proc.devRef .tc main_v8_0) = (fun i => movedAt (xK m c) (fK m c) (i 0) (i 1) : Vec Ideal S3x200704 .f32) := by
  refine (W5_arr m ρ c 2).trans ?_
  rw [Region0.deformed_arr]
  funext i
  exact moved_eq m ρ c (i 0) (i 1)

theorem W5_v8_1 (c : Dev nD) : W5 m ρ c (Proc.devRef .tc main_v8_1) = flatRow (xK m c) (fK m c) := by
  refine (W5_arr m ρ c 3).trans ?_
  rw [Region0.flat_arr]
  funext i
  unfold flatRow
  rw [moved_eq m ρ c 0 (i 1), moved_eq m ρ c 1 (i 1), moved_eq m ρ c 2 (i 1)]

theorem W5_arg3 (c : Dev nD) : W5 m ρ c (Proc.devRef .tc main_arg3) = idsK m c :=
  (W5_of_ne m ρ c main_arg3 (by decide)).trans (W4_arg3 m ρ c)
theorem W5_arg4 (c : Dev nD) : W5 m ρ c (Proc.devRef .tc main_arg4) = ogK m c :=
  (W5_of_ne m ρ c main_arg4 (by decide)).trans (W4_arg4 m ρ c)
theorem W5_v5 (c : Dev nD) : W5 m ρ c (Proc.devRef .tc main_v5) = rows (pK m c) :=
  (W5_of_ne m ρ c main_v5 (by decide)).trans (W4_v5 m ρ c)

/-! ## At the packing region's entry and exit -/

theorem W6_v9 (c : Dev nD) : W6 m ρ c (Proc.devRef .tc main_v9) = flatVec (xK m c) (fK m c) := by
  show StableHlo.after hostOps1 (W5 m ρ c) (Proc.devRef .tc main_v9) = _
  after_results
  rw [W5_v8_1]
  rfl
theorem W6_v10 (c : Dev nD) : W6 m ρ c (Proc.devRef .tc main_v10) = idsRows (idsK m c) := by
  show StableHlo.after hostOps1 (W5 m ρ c) (Proc.devRef .tc main_v10) = _
  after_results
  rw [W5_arg3]
  rfl
theorem W6_arg4 (c : Dev nD) : W6 m ρ c (Proc.devRef .tc main_arg4) = ogK m c := by
  show StableHlo.after hostOps1 (W5 m ρ c) (Proc.devRef .tc main_arg4) = _
  after_results
  exact W5_arg4 m ρ c
theorem W6_v5 (c : Dev nD) : W6 m ρ c (Proc.devRef .tc main_v5) = rows (pK m c) := by
  show StableHlo.after hostOps1 (W5 m ρ c) (Proc.devRef .tc main_v5) = _
  after_results
  exact W5_v5 m ρ c
theorem W6_v8_0 (c : Dev nD) :
    W6 m ρ c (Proc.devRef .tc main_v8_0) = (fun i => movedAt (xK m c) (fK m c) (i 0) (i 1) : Vec Ideal S3x200704 .f32) := by
  show StableHlo.after hostOps1 (W5 m ρ c) (Proc.devRef .tc main_v8_0) = _
  after_results
  exact W5_v8_0 m ρ c

theorem W7_v11 (c : Dev nD) : W7 m ρ c (Proc.devRef .tc main_v11) = packedRow (idsK m c) := by
  refine (W7_arr m ρ c 1).trans ?_
  rw [Region1.packed_arr]
  funext i
  unfold packedRow
  show Cert.Voxel.flatWord (W6 m ρ c (Proc.devRef .tc main_v10) (ix2 0 (i 1))) (W6 m ρ c (Proc.devRef .tc main_v10) (ix2 1 (i 1)))
    (W6 m ρ c (Proc.devRef .tc main_v10) (ix2 2 (i 1))) = _
  rw [W6_v10]

theorem W7_v9 (c : Dev nD) : W7 m ρ c (Proc.devRef .tc main_v9) = flatVec (xK m c) (fK m c) :=
  (W7_of_ne m ρ c main_v9 (by decide)).trans (W6_v9 m ρ c)
theorem W7_arg4 (c : Dev nD) : W7 m ρ c (Proc.devRef .tc main_arg4) = ogK m c :=
  (W7_of_ne m ρ c main_arg4 (by decide)).trans (W6_arg4 m ρ c)
theorem W7_v5 (c : Dev nD) : W7 m ρ c (Proc.devRef .tc main_v5) = rows (pK m c) :=
  (W7_of_ne m ρ c main_v5 (by decide)).trans (W6_v5 m ρ c)
theorem W7_v8_0 (c : Dev nD) :
    W7 m ρ c (Proc.devRef .tc main_v8_0) = (fun i => movedAt (xK m c) (fK m c) (i 0) (i 1) : Vec Ideal S3x200704 .f32) :=
  (W7_of_ne m ρ c main_v8_0 (by decide)).trans (W6_v8_0 m ρ c)

/-! ## At the distance region's entry: the three lookups -/

theorem W8_v27 (c : Dev nD) : W8 m ρ c (Proc.devRef .tc main_v27) = nearestFull (xK m c) (fK m c) (idsK m c) (ogK m c) := by
  show StableHlo.after hostOps2 (W7 m ρ c) (Proc.devRef .tc main_v27) = _
  after_results_simp
  rw [W7_v11, W7_v9, W7_arg4]
  rfl
theorem W8_v34 (c : Dev nD) :
    W8 m ρ c (Proc.devRef .tc main_v34) = matchedRows (xK m c) (fK m c) (pK m c) (idsK m c) (ogK m c) := by
  show StableHlo.after hostOps2 (W7 m ρ c) (Proc.devRef .tc main_v34) = _
  after_results_simp
  rw [W7_v11, W7_v9, W7_arg4, W7_v5]
  rfl
theorem W8_v8_0 (c : Dev nD) :
    W8 m ρ c (Proc.devRef .tc main_v8_0) = (fun i => movedAt (xK m c) (fK m c) (i 0) (i 1) : Vec Ideal S3x200704 .f32) := by
  show StableHlo.after hostOps2 (W7 m ρ c) (Proc.devRef .tc main_v8_0) = _
  after_results_simp
  exact W7_v8_0 m ρ c

/-! ## At the distance region's exit, and the results -/

/-- The region's difference is the stage's. -/
theorem gap_eq (c : Dev nD) (k : Fin 3) (n : Fin 200704) :
    Region2.diffAt (V8 m ρ) c k n = gapAt (xK m c) (fK m c) (pK m c) (idsK m c) (ogK m c) k n := by
  unfold Region2.diffAt gapAt
  show FloatOps.subf (F := Ideal) (φ := .f32) (W8 m ρ c (Proc.devRef .tc main_v34) (ix2 k n)) (W8 m ρ c (Proc.devRef .tc main_v8_0) (ix2 k n)) = _
  rw [W8_v34, W8_v8_0]

theorem W9_v35 (c : Dev nD) : W9 m ρ c (Proc.devRef .tc main_v35) = distRow (xK m c) (fK m c) (pK m c) (idsK m c) (ogK m c) := by
  refine (W9_arr m ρ c 2).trans ?_
  rw [Region2.dist_arr]
  funext i
  unfold distRow
  refine congrArg Ideal.sqrt (Finset.sum_congr rfl fun k _ => ?_)
  rw [gap_eq m ρ c k (i 1)]
theorem W9_v27 (c : Dev nD) : W9 m ρ c (Proc.devRef .tc main_v27) = nearestFull (xK m c) (fK m c) (idsK m c) (ogK m c) :=
  (W9_of_ne m ρ c main_v27 (by decide)).trans (W8_v27 m ρ c)

/-- THE FIRST RESULT's buffer after the last stretch. -/
theorem result_dist (c : Dev nD) :
    W10 m ρ c (Proc.devRef .tc main_v36) = distOut (xK m c) (fK m c) (pK m c) (idsK m c) (ogK m c) := by
  show StableHlo.after hostOps3 (W9 m ρ c) (Proc.devRef .tc main_v36) = _
  after_results
  rw [W9_v35]
  rfl
/-- THE SECOND RESULT's buffer after the last stretch. -/
theorem result_nearest (c : Dev nD) :
    W10 m ρ c (Proc.devRef .tc main_v37) = nearestOut (xK m c) (fK m c) (idsK m c) (ogK m c) := by
  show StableHlo.after hostOps3 (W9 m ρ c) (Proc.devRef .tc main_v37) = _
  after_results
  rw [W9_v27]
  rfl

end Cert.KernelIdeal.Fold

end
-- ==== Proof.LibGatherRead.lean ====
/-
  `stablehlo.gather` READ AT AN INDEX, for four sets of dimension numbers that jnp's indexing prints and the
  library's `Predicate.gather_take` (a rank-1 table by a column of positions) does not cover:

  * `gather_cols_apply`   — `t[:, idx]` of a table [R, N] by n column numbers: result (r, p) is the table at row r, the
    column numbered `idx[p]`;
  * `gather_mid_apply`    — `t[:, idx]` of a table [1, N, C] by n numbers on the middle axis: result (0, p, k) is the
    table at (0, `idx[p]`, k);
  * `gather_cell3_apply`  — `t[i, j, k]` of a table [A, B, C] by n coordinate triples: result p is the table at the
    triple in row p of the start indices;
  * `gather_lead_cell3_apply` — `t[:, i, j, k]` of a table [R, A, B, C] by n coordinate triples: result (r, p) is the
    table at (r, the triple in row p).

  In each the start indices are an [n, 1] or [n, 3] array with the index vector on axis 1, and every start index is read as
  StableHLO reads it: SIGNED, and CLAMPED to its axis (a negative one reads position 0, one past the end the last position).
  Each lemma takes the dimension numbers as hypotheses (`rfl` on a printed record), so it applies to any record with those
  numbers whatever its name.
-/
import Idealize.ShloMosaic.PureOps
import Idealize.ShloMosaic.Lib.ValueIdx

namespace Cert.LibGatherRead

open Idealize.ShloMosaic Idealize.ShloMosaic.ValueIdx

/-- The position a start index `w` selects on an axis of `N` positions: read signed, clamped to `[0, N − 1]`. -/
def pos {w : Nat} (N : Nat) (hN : 0 < N) (i : BitVec w) : Fin N := ⟨min i.toInt.toNat (N - 1), by omega⟩

/-- An operand axis that is start-indexed and collapsed (slice size 1) reads the start index's component for it, signed
    and clamped to the axis. -/
theorem operandIdx_indexed {s si t : Shape} {w : Nat} (d : GatherDims s si t) (j : t.Idx) (idx : IVec si w)
    (a : Fin s.rank) (hm : a ∈ d.startIndexMap) (hc : a ∈ d.collapsedSliceDims) (hb : a ∉ d.operandBatchingDims) :
    (d.operandIdx j idx a).val
      = min (idx (d.siIdx j ⟨d.startIndexMap.idxOf a, List.idxOf_lt_length_iff.2 hm⟩)).toInt.toNat (s.size a - 1) := by
  have hk : a ∉ d.sKept := fun h => ((d.mem_sKept a).1 h).1 hc
  show d.start j idx a + d.batchCoord j a + d.offCoord j a = _
  rw [d.batchCoord_eq_zero j a hb, d.offCoord_eq_zero j a hk]
  simp only [Nat.add_zero]
  unfold GatherDims.start
  rw [dif_pos hm, d.slice_collapsed a hc]

/-- An operand axis that is kept whole and not start-indexed reads the result's coordinate on its offset axis. -/
theorem operandIdx_kept {s si t : Shape} {w : Nat} (d : GatherDims s si t) (j : t.Idx) (idx : IVec si w)
    (a : Fin s.rank) (hm : a ∉ d.startIndexMap) (hk : a ∈ d.sKept) :
    (d.operandIdx j idx a).val
      = (j (d.offsetDims[d.sKept.idxOf a]'(by rw [d.offset_length]; exact List.idxOf_lt_length_iff.2 hk))).val := by
  have hb := ((d.mem_sKept a).1 hk).2
  show d.start j idx a + d.batchCoord j a + d.offCoord j a = _
  rw [d.batchCoord_eq_zero j a hb, Nat.add_zero]
  unfold GatherDims.start GatherDims.offCoord
  rw [dif_neg hm, dif_pos hk, Nat.zero_add]

/-- Start indices [n, m] with the index vector on axis 1: the start-indices index of component `k` for a result index
    whose first batch coordinate is `p` is (p, k). -/
theorem siIdx_col {s t : Shape} {n m : Nat} (d : GatherDims s ⟨2, ![n, m]⟩ t) (hivd : d.indexVectorDim = 1)
    (j : t.Idx) (p : Fin n) (hp : ∀ h : 0 < d.batchDims.length, (j (d.batchDims[0]'h)).val = p.val)
    (c : Fin d.startIndexMap.length) (k : Fin m) (hck : c.val = k.val) :
    d.siIdx j c = ix2 p k := by
  funext b
  match b with
  | ⟨0, _⟩ =>
    unfold GatherDims.siIdx
    rw [dif_neg (by rw [hivd]; simp)]
    unfold GatherDims.siCoord
    apply Fin.ext
    simp only [Fin.val_cast]
    have key : ∀ (i : Nat) (h : i < d.batchDims.length), i = 0 → (j (d.batchDims[i]'h)).val = p.val := by
      intro i h hi; subst hi; exact hp h
    apply key
    show List.idxOf _ (List.filter (fun b : Fin 2 => decide (b.val ≠ d.indexVectorDim)) (List.finRange 2)) = 0
    rw [hivd]; rfl
  | ⟨1, _⟩ =>
    unfold GatherDims.siIdx
    rw [dif_pos (by rw [hivd])]
    apply Fin.ext
    exact hck

/-- COLUMNS of a table [R, N] by n column numbers (`t[:, idx]`). -/
theorem gather_cols_apply {α : Type} {R N n w : Nat} (hN : 0 < N)
    (d : GatherDims ⟨2, ![R, N]⟩ ⟨2, ![n, 1]⟩ ⟨2, ![R, n]⟩)
    (hoff : d.offsetDims = [0]) (hcoll : d.collapsedSliceDims = [1]) (hob : d.operandBatchingDims = [])
    (hsim : d.startIndexMap = [1]) (hivd : d.indexVectorDim = 1)
    (x : (⟨2, ![R, N]⟩ : Shape).Idx → α) (idx : IVec ⟨2, ![n, 1]⟩ w) (r : Fin R) (p : Fin n) :
    Host.gather d x idx (ix2 r p) = x (ix2 r (pos N hN (idx (ix2 p (0 : Fin 1))))) := by
  unfold Host.gather
  congr 1
  funext a
  apply Fin.ext
  have hb : ∀ a : Fin 2, a ∉ d.operandBatchingDims := fun a => by rw [hob]; exact List.not_mem_nil
  -- the result's batch axis is axis 1 (axis 0 is the offset axis): its coordinate is p
  have hbd : d.batchDims = [1] := by
    show Shape.kept _ d.offsetDims = [1]
    rw [hoff]; rfl
  have hp : ∀ h : 0 < d.batchDims.length, ((ix2 r p : (⟨2, ![R, n]⟩ : Shape).Idx) (d.batchDims[0]'h)).val = p.val := by
    have key : ∀ (l : List (Fin 2)) (h : 0 < l.length), l = [1] →
        ((ix2 r p : (⟨2, ![R, n]⟩ : Shape).Idx) (l[0]'h)).val = p.val := by
      intro l h hl; subst hl; rfl
    exact fun h => key _ h hbd
  match a with
  | ⟨0, _⟩ =>
    -- the rows are kept whole: the result's coordinate on its one offset axis
    have hk : (⟨0, by decide⟩ : Fin 2) ∈ d.sKept := (d.mem_sKept _).2 ⟨by rw [hcoll]; simp, hb _⟩
    rw [operandIdx_kept d _ idx _ (by rw [hsim]; simp) hk]
    have key : ∀ (l : List (Fin 2)) (i : Nat) (h : i < l.length), l = [0] →
        ((ix2 r p : (⟨2, ![R, n]⟩ : Shape).Idx) (l[i]'h)).val = r.val := by
      intro l i h hl; subst hl
      have hi : i = 0 := by simpa using h
      subst hi; rfl
    exact key _ _ _ hoff
  | ⟨1, _⟩ =>
    -- the columns are start-indexed and collapsed: the column number, signed and clamped
    rw [operandIdx_indexed d _ idx _ (by rw [hsim]; simp) (by rw [hcoll]; simp) (hb _),
      siIdx_col d hivd _ p hp _ (0 : Fin 1) (by show List.idxOf _ d.startIndexMap = 0; rw [hsim]; rfl)]
    rfl

/-- The MIDDLE axis of a table [1, N, C] by n numbers (`t[:, idx]` with a leading axis of extent 1). -/
theorem gather_mid_apply {α : Type} {N C n w : Nat} (hN : 0 < N)
    (d : GatherDims ⟨3, ![1, N, C]⟩ ⟨2, ![n, 1]⟩ ⟨3, ![1, n, C]⟩)
    (hoff : d.offsetDims = [0, 2]) (hcoll : d.collapsedSliceDims = [1]) (hob : d.operandBatchingDims = [])
    (hsim : d.startIndexMap = [1]) (hivd : d.indexVectorDim = 1)
    (x : (⟨3, ![1, N, C]⟩ : Shape).Idx → α) (idx : IVec ⟨2, ![n, 1]⟩ w) (p : Fin n) (k : Fin C) :
    Host.gather d x idx (ix3 (0 : Fin 1) p k) = x (ix3 (0 : Fin 1) (pos N hN (idx (ix2 p (0 : Fin 1)))) k) := by
  unfold Host.gather
  congr 1
  funext a
  apply Fin.ext
  have hb : ∀ a : Fin 3, a ∉ d.operandBatchingDims := fun a => by rw [hob]; exact List.not_mem_nil
  -- the result's batch axis is axis 1 (axes 0 and 2 are the offset axes): its coordinate is p
  have hbd : d.batchDims = [1] := by
    show Shape.kept _ d.offsetDims = [1]
    rw [hoff]; rfl
  have hp : ∀ h : 0 < d.batchDims.length,
      ((ix3 (0 : Fin 1) p k : (⟨3, ![1, n, C]⟩ : Shape).Idx) (d.batchDims[0]'h)).val = p.val := by
    have key : ∀ (l : List (Fin 3)) (h : 0 < l.length), l = [1] →
        ((ix3 (0 : Fin 1) p k : (⟨3, ![1, n, C]⟩ : Shape).Idx) (l[0]'h)).val = p.val := by
      intro l h hl; subst hl; rfl
    exact fun h => key _ h hbd
  -- the operand's kept axes are 0 and 2, read by the result's offset axes 0 and 2 in that order
  have hsk : d.sKept = [0, 2] := by
    show Shape.kept _ (d.collapsedSliceDims ++ d.operandBatchingDims) = [0, 2]
    rw [hcoll, hob]; rfl
  have key : ∀ (l : List (Fin 3)) (i i' : Nat) (h : i < l.length), l = [0, 2] → i = i' → (h' : i' < 2) →
      ((ix3 (0 : Fin 1) p k : (⟨3, ![1, n, C]⟩ : Shape).Idx) (l[i]'h)).val
        = ((ix3 (0 : Fin 1) p k : (⟨3, ![1, n, C]⟩ : Shape).Idx) (([0, 2] : List (Fin 3))[i']'h')).val := by
    intro l i i' h hl hi h'; subst hl; subst hi; rfl
  match a with
  | ⟨0, _⟩ =>
    have hk : (⟨0, by decide⟩ : Fin 3) ∈ d.sKept := (d.mem_sKept _).2 ⟨by rw [hcoll]; simp, hb _⟩
    rw [operandIdx_kept d _ idx _ (by rw [hsim]; simp) hk]
    exact key _ _ 0 _ hoff (by rw [hsk]; rfl) (by decide)
  | ⟨1, _⟩ =>
    -- the middle axis is start-indexed and collapsed: the number, signed and clamped
    rw [operandIdx_indexed d _ idx _ (by rw [hsim]; simp) (by rw [hcoll]; simp) (hb _),
      siIdx_col d hivd _ p hp _ (0 : Fin 1) (by show List.idxOf _ d.startIndexMap = 0; rw [hsim]; rfl)]
    rfl
  | ⟨2, _⟩ =>
    have hk : (⟨2, by decide⟩ : Fin 3) ∈ d.sKept := (d.mem_sKept _).2 ⟨by rw [hcoll]; simp, hb _⟩
    rw [operandIdx_kept d _ idx _ (by rw [hsim]; simp) hk]
    exact key _ _ 1 _ hoff (by rw [hsk]; rfl) (by decide)

/-- ONE ELEMENT of a table [A, B, C] per coordinate triple (`t[i, j, k]`). -/
theorem gather_cell3_apply {α : Type} {A B C n w : Nat} (hA : 0 < A) (hB : 0 < B) (hC : 0 < C)
    (d : GatherDims ⟨3, ![A, B, C]⟩ ⟨2, ![n, 3]⟩ ⟨1, ![n]⟩)
    (hoff : d.offsetDims = []) (hcoll : d.collapsedSliceDims = [0, 1, 2]) (hob : d.operandBatchingDims = [])
    (hsim : d.startIndexMap = [0, 1, 2]) (hivd : d.indexVectorDim = 1)
    (x : (⟨3, ![A, B, C]⟩ : Shape).Idx → α) (idx : IVec ⟨2, ![n, 3]⟩ w) (p : Fin n) :
    Host.gather d x idx (ix1 p)
      = x (ix3 (pos A hA (idx (ix2 p (0 : Fin 3)))) (pos B hB (idx (ix2 p (1 : Fin 3)))) (pos C hC (idx (ix2 p (2 : Fin 3))))) := by
  unfold Host.gather
  congr 1
  funext a
  apply Fin.ext
  have hb : ∀ a : Fin 3, a ∉ d.operandBatchingDims := fun a => by rw [hob]; exact List.not_mem_nil
  -- the result's one axis is its batch axis: a rank-1 index has the same coordinate wherever it is read
  have hp : ∀ h : 0 < d.batchDims.length, ((ix1 p : (⟨1, ![n]⟩ : Shape).Idx) (d.batchDims[0]'h)).val = p.val := fun h => by
    have e : ∀ X : Fin 1, ((ix1 p : (⟨1, ![n]⟩ : Shape).Idx) X).val = p.val := fun X => by
      obtain rfl : X = 0 := Subsingleton.elim _ _
      rfl
    exact e _
  match a with
  | ⟨0, _⟩ =>
    rw [operandIdx_indexed d _ idx _ (by rw [hsim]; simp) (by rw [hcoll]; simp) (hb _),
      siIdx_col d hivd _ p hp _ (0 : Fin 3) (by show List.idxOf _ d.startIndexMap = 0; rw [hsim]; rfl)]
    rfl
  | ⟨1, _⟩ =>
    rw [operandIdx_indexed d _ idx _ (by rw [hsim]; simp) (by rw [hcoll]; simp) (hb _),
      siIdx_col d hivd _ p hp _ (1 : Fin 3) (by show List.idxOf _ d.startIndexMap = 1; rw [hsim]; rfl)]
    rfl
  | ⟨2, _⟩ =>
    rw [operandIdx_indexed d _ idx _ (by rw [hsim]; simp) (by rw [hcoll]; simp) (hb _),
      siIdx_col d hivd _ p hp _ (2 : Fin 3) (by show List.idxOf _ d.startIndexMap = 2; rw [hsim]; rfl)]
    rfl

/-- The LEADING axis whole, one element of the other three per coordinate triple (`t[:, i, j, k]` of a table [R, A, B, C]). -/
theorem gather_lead_cell3_apply {α : Type} {R A B C n w : Nat} (hA : 0 < A) (hB : 0 < B) (hC : 0 < C)
    (d : GatherDims ⟨4, ![R, A, B, C]⟩ ⟨2, ![n, 3]⟩ ⟨2, ![R, n]⟩)
    (hoff : d.offsetDims = [0]) (hcoll : d.collapsedSliceDims = [1, 2, 3]) (hob : d.operandBatchingDims = [])
    (hsim : d.startIndexMap = [1, 2, 3]) (hivd : d.indexVectorDim = 1)
    (x : (⟨4, ![R, A, B, C]⟩ : Shape).Idx → α) (idx : IVec ⟨2, ![n, 3]⟩ w) (r : Fin R) (p : Fin n) :
    Host.gather d x idx (ix2 r p)
      = x (ix4 r (pos A hA (idx (ix2 p (0 : Fin 3)))) (pos B hB (idx (ix2 p (1 : Fin 3)))) (pos C hC (idx (ix2 p (2 : Fin 3))))) := by
  unfold Host.gather
  congr 1
  funext a
  apply Fin.ext
  have hb : ∀ a : Fin 4, a ∉ d.operandBatchingDims := fun a => by rw [hob]; exact List.not_mem_nil
  -- the result's batch axis is axis 1 (axis 0 is the offset axis): its coordinate is p
  have hbd : d.batchDims = [1] := by
    show Shape.kept _ d.offsetDims = [1]
    rw [hoff]; rfl
  have hp : ∀ h : 0 < d.batchDims.length, ((ix2 r p : (⟨2, ![R, n]⟩ : Shape).Idx) (d.batchDims[0]'h)).val = p.val := by
    have key : ∀ (l : List (Fin 2)) (h : 0 < l.length), l = [1] →
        ((ix2 r p : (⟨2, ![R, n]⟩ : Shape).Idx) (l[0]'h)).val = p.val := by
      intro l h hl; subst hl; rfl
    exact fun h => key _ h hbd
  match a with
  | ⟨0, _⟩ =>
    -- the kept axis: the result's coordinate on its one offset axis
    have hk : (⟨0, by decide⟩ : Fin 4) ∈ d.sKept := (d.mem_sKept _).2 ⟨by rw [hcoll]; simp, hb _⟩
    rw [operandIdx_kept d _ idx _ (by rw [hsim]; simp) hk]
    have key : ∀ (l : List (Fin 2)) (i : Nat) (h : i < l.length), l = [0] →
        ((ix2 r p : (⟨2, ![R, n]⟩ : Shape).Idx) (l[i]'h)).val = r.val := by
      intro l i h hl; subst hl
      have hi : i = 0 := by simpa using h
      subst hi; rfl
    exact key _ _ _ hoff
  | ⟨1, _⟩ =>
    rw [operandIdx_indexed d _ idx _ (by rw [hsim]; simp) (by rw [hcoll]; simp) (hb _),
      siIdx_col d hivd _ p hp _ (0 : Fin 3) (by show List.idxOf _ d.startIndexMap = 0; rw [hsim]; rfl)]
    rfl
  | ⟨2, _⟩ =>
    rw [operandIdx_indexed d _ idx _ (by rw [hsim]; simp) (by rw [hcoll]; simp) (hb _),
      siIdx_col d hivd _ p hp _ (1 : Fin 3) (by show List.idxOf _ d.startIndexMap = 1; rw [hsim]; rfl)]
    rfl
  | ⟨3, _⟩ =>
    rw [operandIdx_indexed d _ idx _ (by rw [hsim]; simp) (by rw [hcoll]; simp) (hb _),
      siIdx_col d hivd _ p hp _ (2 : Fin 3) (by show List.idxOf _ d.startIndexMap = 2; rw [hsim]; rfl)]
    rfl

end Cert.LibGatherRead
-- ==== Proof.KValue.lean ====
/-
  The kernel program's two results ARE the specification's arrays. Column n < 200000 of the padded layout is point n of
  the cloud (the padding is never read back); the row-major position `cx·36000 + cy·45 + cz` of a cell, looked up in the
  flattened tables, reads the same entry as the three coordinates do in the unflattened ones, because the cell's
  coordinates are on their axes (they are clipped) and so are the entries of the nearest-occupied-cell table (the
  precondition); on such words the position does not wrap, is not negative, and is inside the table, so jnp's
  count-from-the-end and the gather's clamp change nothing.
-/
import proofs.«404501_j6201932775870_3_alg».proof.Proof.KStages
import proofs.«404501_j6201932775870_3_alg».proof.Proof.Spec
import proofs.«404501_j6201932775870_3_alg».proof.Proof.LibGatherRead
import Idealize.ShloMosaic.Lib.ValueIdx
import Idealize.ShloMosaic.Lib.ValueLayout
import Idealize.ShloMosaic.Lib.Pipeline.Value
import Idealize.ShloMosaic.Lib.KernelVsHost
import Idealize.ShloMosaic.Lib.StableHlo.Predicate

noncomputable section

open scoped BigOperators

namespace Cert.KernelIdeal.Stages

open Idealize.ShloMosaic Idealize.ShloMosaic.ValueIdx
open Cert.KernelIdeal Cert.KernelIdeal.Gen

/-! ## The clouds laid out by rows, read at an index -/

/-- Row k, column j of a cloud laid out one row per coordinate is coordinate k of point j. -/
theorem rows_apply (p : Vec Ideal S1x200000x3 .f32) (k : Fin 3) (j : Fin 200000) :
    rows p (ix2 k j) = p (ix3 0 j k) := by
  unfold rows
  refine (transpose_ix2_apply _ _ k j).trans ?_
  exact shapeCast_1ab_ab_apply p _ j k

/-- A column below 200000 of the padded layout is inside the operand: it reads the cloud. -/
theorem rowsPadded_apply (x : Vec Ideal S1x200000x3 .f32) (k : Fin 3) (n : Fin 200000) (hn : n.val < 200704) :
    rowsPadded x (ix2 k (⟨n.val, hn⟩ : Fin 200704)) = x (ix3 0 n k) := by
  unfold rowsPadded
  refine (pad_apply_of_inside _ _ _ _ _ _ _ _ (ix2 k n) ?_).trans (rows_apply x k n)
  intro a
  match a with
  | ⟨0, _⟩ => show k.val = 0 + k.val * (0 + 1); omega
  | ⟨1, _⟩ => show n.val = 0 + n.val * (0 + 1); omega

/-- The deformed padded cloud at a column below 200000 is the specification's deformed point. -/
theorem movedAt_eq (x f : Vec Ideal S1x200000x3 .f32) (k : Fin 3) (n : Fin 200000) (hn : n.val < 200704) :
    movedAt x f k (⟨n.val, hn⟩ : Fin 200704) = Cert.Voxel.deformed x f n k := by
  unfold movedAt Cert.Voxel.deformed
  rw [rowsPadded_apply x k n hn, rowsPadded_apply f k n hn]

/-! ## The flat cell index of a column -/

/-- Column n of the first region's result is the row-major position, in words, of point n's cell. -/
theorem flatVec_apply (x f : Vec Ideal S1x200000x3 .f32) (n : Fin 200000) (hn : n.val < 200704) :
    flatVec x f (ix1 (⟨n.val, hn⟩ : Fin 200704))
      = Cert.Voxel.flatWord (Cert.Voxel.cellAt x f n 0) (Cert.Voxel.cellAt x f n 1) (Cert.Voxel.cellAt x f n 2) := by
  unfold flatVec
  refine (shapeCast_1a_a_apply _ _ _).trans ?_
  show Cert.Voxel.flatWord (Cert.Voxel.cellWord 0 (movedAt x f 0 ⟨n.val, hn⟩))
      (Cert.Voxel.cellWord 1 (movedAt x f 1 ⟨n.val, hn⟩)) (Cert.Voxel.cellWord 2 (movedAt x f 2 ⟨n.val, hn⟩)) = _
  rw [movedAt_eq x f 0 n hn, movedAt_eq x f 1 n hn, movedAt_eq x f 2 n hn]
  rfl

/-! ## A lookup in a flat table -/

/-- The rank-1 index at a coordinate, in its two spellings. -/
theorem ofFin_eq_ix1 {n : Nat} (k : Fin n) : Shape.Idx.ofFin k = ix1 k := by
  funext a
  have : a = 0 := Subsingleton.elim _ _
  subst this
  exact Fin.ext rfl

/-- Counting from the end, pointwise. -/
theorem wrapVec_apply (N : BitVec 32) (v : Vec Ideal S200704 .i32) (q : Fin 200704) :
    wrapVec N v (ix1 q) = Cert.Voxel.wrapNeg N (v (ix1 q)) := rfl

/-- A vector as a column reads, at (q, 0), the vector at q. -/
theorem col_apply (v : Vec Ideal S200704 .i32) (q : Fin 200704) :
    col v (StableHlo.Predicate.ixP q) = v (ix1 q) := by
  unfold col
  refine (StableHlo.Predicate.bcast_col1 _ v q).trans ?_
  rw [ofFin_eq_ix1]

/-- `t[v]` at column q: the table at the word `v q`, counted from the end when negative, then clamped to the table. -/
theorem take_apply (t : Vec Ideal S28800000 .i32) (v : Vec Ideal S200704 .i32) (q : Fin 200704) :
    take t v (ix1 q)
      = t (ix1 (Cert.Voxel.clampTo 28800000 (by decide) (Cert.Voxel.wrapNeg 28800000#32 (v (ix1 q))))) := by
  unfold take
  have e := StableHlo.Predicate.gather_take gather_S28800000_S200704x1_S200704_n_0_n_n_0_1_1 rfl rfl rfl rfl t
    (col (wrapVec 28800000#32 v)) q (by decide)
  rw [ofFin_eq_ix1, ofFin_eq_ix1] at e
  refine e.trans (congrArg t (congrArg ix1 (Fin.ext ?_)))
  show min (col (wrapVec 28800000#32 v) (StableHlo.Predicate.ixP q)).toInt.toNat (28800000 - 1)
    = min (Cert.Voxel.wrapNeg 28800000#32 (v (ix1 q))).toInt.toNat (28800000 - 1)
  rw [col_apply, wrapVec_apply]

/-! ## Flat positions and cell coordinates -/

/-- A word on the axis is its own position. -/
theorem clampTo_of_lt (N : Nat) (hN : 0 < N) (w : BitVec 32) (h : w.toNat < N) (hN' : N ≤ 2 ^ 31) :
    Cert.Voxel.clampTo N hN w = ⟨w.toNat, h⟩ :=
  Fin.ext (Cert.Voxel.clampTo_val_of_lt N hN w h hN')

/-- The flat word of three cell coordinates is a position of the flat table: not negative, not past the end. -/
theorem clamp_wrap_flat (a b c : BitVec 32) (ha : a.toNat < 800) (hb : b.toNat < 800) (hc : c.toNat < 45)
    (hp : a.toNat * 36000 + b.toNat * 45 + c.toNat < 28800000) :
    Cert.Voxel.clampTo 28800000 (by decide) (Cert.Voxel.wrapNeg 28800000#32 (Cert.Voxel.flatWord a b c))
      = ⟨a.toNat * 36000 + b.toNat * 45 + c.toNat, hp⟩ := by
  have hf := Cert.Voxel.flat_toNat a b c ha hb hc
  have hlt : (Cert.Voxel.flatWord a b c).toNat < 28800000 := by rw [hf]; exact hp
  rw [Cert.Voxel.wrapNeg_of_nonneg _ _ (by omega)]
  exact Fin.ext ((Cert.Voxel.clampTo_val_of_lt _ _ _ hlt (by norm_num)).trans hf)

/-- Row j of the flattened table at the row-major position of cell (A, B, C) is the table at (j, A, B, C). -/
theorem idsRows_apply (ids : Vec Ideal S3x800x800x45 .i32) (j : Fin 3) (A B : Fin 800) (C : Fin 45)
    (hp : A.val * 36000 + B.val * 45 + C.val < 28800000) :
    idsRows ids (ix2 j (⟨A.val * 36000 + B.val * 45 + C.val, hp⟩ : Fin 28800000)) = ids (ix4 j A B C) := by
  unfold idsRows
  refine shapeCast_apply ids _ _ _ ?_
  rw [Shape.rowMajor_val_four, Shape.rowMajor_val_two]
  show ((j.val * 800 + A.val) * 800 + B.val) * 45 + C.val = j.val * 28800000 + (A.val * 36000 + B.val * 45 + C.val)
  omega

/-- The packed table at the position of cell (A, B, C): the flat word of that cell's nearest occupied cell. -/
theorem packedVec_apply (ids : Vec Ideal S3x800x800x45 .i32) (A B : Fin 800) (C : Fin 45)
    (hp : A.val * 36000 + B.val * 45 + C.val < 28800000) :
    packedVec ids (ix1 (⟨A.val * 36000 + B.val * 45 + C.val, hp⟩ : Fin 28800000))
      = Cert.Voxel.flatWord (ids (ix4 0 A B C)) (ids (ix4 1 A B C)) (ids (ix4 2 A B C)) := by
  unfold packedVec
  refine (shapeCast_1a_a_apply _ _ _).trans ?_
  show Cert.Voxel.flatWord (idsRows ids (ix2 0 ⟨A.val * 36000 + B.val * 45 + C.val, hp⟩))
      (idsRows ids (ix2 1 ⟨A.val * 36000 + B.val * 45 + C.val, hp⟩))
      (idsRows ids (ix2 2 ⟨A.val * 36000 + B.val * 45 + C.val, hp⟩)) = _
  rw [idsRows_apply ids 0 A B C hp, idsRows_apply ids 1 A B C hp, idsRows_apply ids 2 A B C hp]

/-- The flattened grid at the position of cell (A, B, C) is the grid at (A, B, C). -/
theorem gridVec_apply (og : Vec Ideal S800x800x45 .i32) (A B : Fin 800) (C : Fin 45)
    (hp : A.val * 36000 + B.val * 45 + C.val < 28800000) :
    gridVec og (ix1 (⟨A.val * 36000 + B.val * 45 + C.val, hp⟩ : Fin 28800000)) = og (ix3 A B C) := by
  unfold gridVec
  refine shapeCast_apply og _ _ _ ?_
  rw [Shape.rowMajor_val_three, Shape.rowMajor_val_one]
  show (A.val * 800 + B.val) * 45 + C.val = A.val * 36000 + B.val * 45 + C.val
  omega

/-! ## The two lookups by position are the lookups by coordinates -/

/-- Column n of the first lookup: the flat word of the nearest occupied cell's coordinates. -/
theorem nearFlat_apply (x f : Vec Ideal S1x200000x3 .f32) (ids : Vec Ideal S3x800x800x45 .i32) (n : Fin 200000)
    (hn : n.val < 200704) :
    nearFlat x f ids (ix1 (⟨n.val, hn⟩ : Fin 200704))
      = Cert.Voxel.flatWord (Cert.Voxel.nearCoord ids x f n 0) (Cert.Voxel.nearCoord ids x f n 1)
          (Cert.Voxel.nearCoord ids x f n 2) := by
  have ha : (Cert.Voxel.cellAt x f n 0).toNat < 800 := Cert.Voxel.cellWord0_lt _
  have hb : (Cert.Voxel.cellAt x f n 1).toNat < 800 := Cert.Voxel.cellWord1_lt _
  have hc : (Cert.Voxel.cellAt x f n 2).toNat < 45 := Cert.Voxel.cellWord2_lt _
  have hp : (Cert.Voxel.cellAt x f n 0).toNat * 36000 + (Cert.Voxel.cellAt x f n 1).toNat * 45
      + (Cert.Voxel.cellAt x f n 2).toNat < 28800000 := by omega
  unfold nearFlat Cert.Voxel.nearCoord
  rw [take_apply, flatVec_apply x f n hn, clamp_wrap_flat _ _ _ ha hb hc hp,
    clampTo_of_lt 800 _ _ ha (by norm_num), clampTo_of_lt 800 _ _ hb (by norm_num),
    clampTo_of_lt 45 _ _ hc (by norm_num)]
  exact packedVec_apply ids ⟨_, ha⟩ ⟨_, hb⟩ ⟨_, hc⟩ hp

/-- Column n of the second lookup is the specification's matched point number. -/
theorem nearestFull_apply (x f : Vec Ideal S1x200000x3 .f32) (ids : Vec Ideal S3x800x800x45 .i32)
    (og : Vec Ideal S800x800x45 .i32) (h : Cert.Voxel.IdsInRange ids) (n : Fin 200000) (hn : n.val < 200704) :
    nearestFull x f ids og (ix1 (⟨n.val, hn⟩ : Fin 200704)) = Cert.Voxel.nearest ids og x f n := by
  obtain ⟨ha, hb, hc⟩ : (Cert.Voxel.nearCoord ids x f n 0).toNat < 800 ∧ (Cert.Voxel.nearCoord ids x f n 1).toNat < 800
      ∧ (Cert.Voxel.nearCoord ids x f n 2).toNat < 45 := h _ _ _
  have hp : (Cert.Voxel.nearCoord ids x f n 0).toNat * 36000 + (Cert.Voxel.nearCoord ids x f n 1).toNat * 45
      + (Cert.Voxel.nearCoord ids x f n 2).toNat < 28800000 := by omega
  unfold nearestFull Cert.Voxel.nearest
  rw [take_apply, nearFlat_apply x f ids n hn, clamp_wrap_flat _ _ _ ha hb hc hp,
    clampTo_of_lt 800 _ _ ha (by norm_num), clampTo_of_lt 800 _ _ hb (by norm_num),
    clampTo_of_lt 45 _ _ hc (by norm_num)]
  exact gridVec_apply og ⟨_, ha⟩ ⟨_, hb⟩ ⟨_, hc⟩ hp

/-! ## The two results -/

/-- THE SECOND RESULT is the specification's. -/
theorem nearestOut_eq (x f : Vec Ideal S1x200000x3 .f32) (ids : Vec Ideal S3x800x800x45 .i32) (og : Vec Ideal S800x800x45 .i32)
    (h : Cert.Voxel.IdsInRange ids) :
    nearestOut x f ids og = (Cert.Voxel.nearestArr ids og x f : Vec Ideal S200000 .i32) := by
  funext i
  obtain ⟨n, rfl⟩ : ∃ n, i = ix1 n := ⟨i 0, eq_ix1 i⟩
  have hn : n.val < 200704 := by have := n.isLt; omega
  unfold nearestOut
  refine (extractStridedSlice_apply _ _ _ (ix1 n) (ix1 (⟨n.val, hn⟩ : Fin 200704)) ?_).trans ?_
  · intro a
    match a with
    | ⟨0, _⟩ => show n.val = 0 + n.val; omega
  · exact nearestFull_apply x f ids og h n hn

/-! ## The matched point, the gap and the distance -/

/-- A vector as a column, the row written by coordinates. -/
theorem col_apply_ix2 (v : Vec Ideal S200704 .i32) (q : Fin 200704) :
    col v (ix2 q (0 : Fin 1)) = v (ix1 q) := by
  have e : (ix2 q (0 : Fin 1) : S200704x1.Idx) = StableHlo.Predicate.ixP q := by
    funext a
    match a with
    | ⟨0, _⟩ => rfl
    | ⟨1, _⟩ => rfl
  rw [e]
  exact col_apply v q

/-- Row k, column n of the lookup into the second cloud: coordinate k of the matched point, its number counted from the
    end when negative, then clamped to the cloud. -/
theorem matchedRows_apply (x f p : Vec Ideal S1x200000x3 .f32) (ids : Vec Ideal S3x800x800x45 .i32)
    (og : Vec Ideal S800x800x45 .i32) (h : Cert.Voxel.IdsInRange ids) (k : Fin 3) (n : Fin 200000) (hn : n.val < 200704) :
    matchedRows x f p ids og (ix2 k (⟨n.val, hn⟩ : Fin 200704))
      = p (ix3 0 (Cert.Voxel.clampTo 200000 (by decide) (Cert.Voxel.wrapNeg 200000#32 (Cert.Voxel.nearest ids og x f n))) k) := by
  unfold matchedRows
  refine (Cert.LibGatherRead.gather_cols_apply (by decide : 0 < 200000)
    gather_S3x200000_S200704x1_S3x200704_0_1_n_n_1_1_31 rfl rfl rfl rfl rfl (rows p) _ k ⟨n.val, hn⟩).trans ?_
  rw [col_apply_ix2, wrapVec_apply, nearestFull_apply x f ids og h n hn]
  exact rows_apply p k _

/-- The gap at a column below 200000 is the specification's offset. -/
theorem gapAt_eq (x f p : Vec Ideal S1x200000x3 .f32) (ids : Vec Ideal S3x800x800x45 .i32)
    (og : Vec Ideal S800x800x45 .i32) (h : Cert.Voxel.IdsInRange ids) (k : Fin 3) (n : Fin 200000) (hn : n.val < 200704) :
    gapAt x f p ids og k (⟨n.val, hn⟩ : Fin 200704) = Cert.Voxel.offset ids og x f p n k := by
  unfold gapAt Cert.Voxel.offset
  rw [matchedRows_apply x f p ids og h k n hn, movedAt_eq x f k n hn]

/-- The distance at a column below 200000 is the specification's. -/
theorem distRow_apply (x f p : Vec Ideal S1x200000x3 .f32) (ids : Vec Ideal S3x800x800x45 .i32)
    (og : Vec Ideal S800x800x45 .i32) (h : Cert.Voxel.IdsInRange ids) (n : Fin 200000) (hn : n.val < 200704) :
    distRow x f p ids og (ix2 (0 : Fin 1) (⟨n.val, hn⟩ : Fin 200704)) = Cert.Voxel.dist ids og x f p n := by
  show Ideal.sqrt (∑ k : Fin 3, gapAt x f p ids og k ⟨n.val, hn⟩ * gapAt x f p ids og k ⟨n.val, hn⟩)
    = Cert.Voxel.dist ids og x f p n
  unfold Cert.Voxel.dist
  refine congrArg Ideal.sqrt (Finset.sum_congr rfl fun k _ => ?_)
  rw [gapAt_eq x f p ids og h k n hn]

/-- THE FIRST RESULT is the specification's. -/
theorem distOut_eq (x f p : Vec Ideal S1x200000x3 .f32) (ids : Vec Ideal S3x800x800x45 .i32) (og : Vec Ideal S800x800x45 .i32)
    (h : Cert.Voxel.IdsInRange ids) :
    distOut x f p ids og = (Cert.Voxel.distArr ids og x f p : Vec Ideal S1x200000 .f32) := by
  funext i
  obtain ⟨u, n, rfl⟩ : ∃ u n, i = ix2 u n := ⟨i 0, i 1, eq_ix2 i⟩
  have hn : n.val < 200704 := by have := n.isLt; omega
  have hu : u.val = 0 := by have := u.isLt; omega
  unfold distOut
  refine (extractStridedSlice_apply _ _ _ (ix2 u n) (ix2 (0 : Fin 1) (⟨n.val, hn⟩ : Fin 200704)) ?_).trans ?_
  · intro a
    match a with
    | ⟨0, _⟩ => show (0 : Nat) = 0 + u.val; omega
    | ⟨1, _⟩ => show n.val = 0 + n.val; omega
  · exact distRow_apply x f p ids og h n hn

end Cert.KernelIdeal.Stages

end
-- ==== Proof.RefOps.lean ====
/- GENERATED by `python3 scratch/mk_refops.py proof/ReferenceIdeal.lean > proof/Proof/RefOps.lean` (run in the unit directory): the
   reference's @main as lists of its 98 host operations in order, the operations of the two functions it calls (its clip and its
   norm) written at the calls over each call's own buffers; four stretches, ending at the clipped cells, the nearest
   cell's coordinates, the matched point numbers, and the distances. Each entry is one printed operation, copied. -/
import proofs.«404501_j6201932775870_3_alg».proof.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- 21 operations. -/
abbrev opsCells : List (HloOp τ sig (Elt F)) :=
  [ StableHlo.nullary main_cst (fun i => FloatOps.ofBits .f32 (lit0 (S3.rowMajor i))),
    StableHlo.nullary main_c (fun i => lit1 (S3.rowMajor i)),
    StableHlo.binary main_arg0 main_arg1 main_v0 (addf : (⟨S1x200000x3, .f32⟩ : BufTy).Contents (Elt F) → (⟨S1x200000x3, .f32⟩ : BufTy).Contents (Elt F) → (⟨S1x200000x3, .f32⟩ : BufTy).Contents (Elt F)),
    StableHlo.unary main_cst main_v1 (broadcastInDim S1x1x3 ![2] bcast_S3_S1x1x3_2 : (⟨S3, .f32⟩ : BufTy).Contents (Elt F) → (⟨S1x1x3, .f32⟩ : BufTy).Contents (Elt F)),
    StableHlo.unary main_v1 main_v2 (broadcastInDim S1x200000x3 ![0, 1, 2] bcast_S1x1x3_S1x200000x3_0_1_2 : (⟨S1x1x3, .f32⟩ : BufTy).Contents (Elt F) → (⟨S1x200000x3, .f32⟩ : BufTy).Contents (Elt F)),
    StableHlo.binary main_v0 main_v2 main_v3 (subf : (⟨S1x200000x3, .f32⟩ : BufTy).Contents (Elt F) → (⟨S1x200000x3, .f32⟩ : BufTy).Contents (Elt F) → (⟨S1x200000x3, .f32⟩ : BufTy).Contents (Elt F)),
    StableHlo.nullary main_cst_0 (constant S_ .f32 0x3DCCCCCD#32),
    StableHlo.unary main_cst_0 main_v4 (broadcastInDim S1x200000x3 ![] bcast_S_S1x200000x3 : (⟨S_, .f32⟩ : BufTy).Contents (Elt F) → (⟨S1x200000x3, .f32⟩ : BufTy).Contents (Elt F)),
    StableHlo.binary main_v3 main_v4 main_v5 (Host.divf : (⟨S1x200000x3, .f32⟩ : BufTy).Contents (Elt F) → (⟨S1x200000x3, .f32⟩ : BufTy).Contents (Elt F) → (⟨S1x200000x3, .f32⟩ : BufTy).Contents (Elt F)),
    StableHlo.unary main_v5 main_v6 (fptosi 32 : (⟨S1x200000x3, .f32⟩ : BufTy).Contents (Elt F) → (⟨S1x200000x3, .i32⟩ : BufTy).Contents (Elt F)),
    StableHlo.nullary main_c_1 (constantI S_ 32 1#32),
    StableHlo.unary main_c_1 main_v7 (broadcastInDim S3 ![] bcast_S_S3 : (⟨S_, .i32⟩ : BufTy).Contents (Elt F) → (⟨S3, .i32⟩ : BufTy).Contents (Elt F)),
    StableHlo.binary main_c main_v7 main_v8 (subi : (⟨S3, .i32⟩ : BufTy).Contents (Elt F) → (⟨S3, .i32⟩ : BufTy).Contents (Elt F) → (⟨S3, .i32⟩ : BufTy).Contents (Elt F)),
    StableHlo.nullary main_c_2 (constantI S_ 32 0#32),
    StableHlo.TRef.unary (.of main_c_2 : StableHlo.TRef sig ⟨S_, .i32⟩) main_call0.v0 id,
    StableHlo.TRef.unary main_call0.v0 main_call0.v1 (broadcastInDim S1x200000x3 ![] bcast_S_S1x200000x3),
    StableHlo.TRef.binary main_call0.v1 (.of main_v6 : StableHlo.TRef sig ⟨S1x200000x3, .i32⟩) main_call0.v2 maxsi,
    StableHlo.TRef.unary (.of main_v8 : StableHlo.TRef sig ⟨S3, .i32⟩) main_call0.v3 (broadcastInDim S1x1x3 ![2] bcast_S3_S1x1x3_2),
    StableHlo.TRef.unary main_call0.v3 main_call0.v4 (broadcastInDim S1x200000x3 ![0, 1, 2] bcast_S1x1x3_S1x200000x3_0_1_2),
    StableHlo.TRef.binary main_call0.v4 main_call0.v2 main_call0.v5 minsi,
    StableHlo.unary main_v9 main_v10 ((extractStridedSlice S1x200000x1 ![0, 0, 0] · slices_S1x200000x3_S1x200000x1_0_0_0) : (⟨S1x200000x3, .i32⟩ : BufTy).Contents (Elt F) → (⟨S1x200000x1, .i32⟩ : BufTy).Contents (Elt F)) ]

/-- 31 operations. -/
abbrev opsNear : List (HloOp τ sig (Elt F)) :=
  [ StableHlo.reshape main_v10 main_v11 rfl shapeCasts_S1x200000x1_S200000,
    StableHlo.unary main_v9 main_v12 ((extractStridedSlice S1x200000x1 ![0, 0, 1] · slices_S1x200000x3_S1x200000x1_0_0_1) : (⟨S1x200000x3, .i32⟩ : BufTy).Contents (Elt F) → (⟨S1x200000x1, .i32⟩ : BufTy).Contents (Elt F)),
    StableHlo.reshape main_v12 main_v13 rfl shapeCasts_S1x200000x1_S200000,
    StableHlo.unary main_v9 main_v14 ((extractStridedSlice S1x200000x1 ![0, 0, 2] · slices_S1x200000x3_S1x200000x1_0_0_2) : (⟨S1x200000x3, .i32⟩ : BufTy).Contents (Elt F) → (⟨S1x200000x1, .i32⟩ : BufTy).Contents (Elt F)),
    StableHlo.reshape main_v14 main_v15 rfl shapeCasts_S1x200000x1_S200000,
    StableHlo.nullary main_c_3 (constantI S_ 32 0#32),
    StableHlo.unary main_c_3 main_v16 (broadcastInDim S200000 ![] bcast_S_S200000 : (⟨S_, .i32⟩ : BufTy).Contents (Elt F) → (⟨S200000, .i32⟩ : BufTy).Contents (Elt F)),
    StableHlo.binary main_v11 main_v16 main_v17 (cmpi .slt : (⟨S200000, .i32⟩ : BufTy).Contents (Elt F) → (⟨S200000, .i32⟩ : BufTy).Contents (Elt F) → (⟨S200000, .i1⟩ : BufTy).Contents (Elt F)),
    StableHlo.nullary main_c_4 (constantI S_ 32 800#32),
    StableHlo.unary main_c_4 main_v18 (broadcastInDim S200000 ![] bcast_S_S200000 : (⟨S_, .i32⟩ : BufTy).Contents (Elt F) → (⟨S200000, .i32⟩ : BufTy).Contents (Elt F)),
    StableHlo.binary main_v11 main_v18 main_v19 (addi : (⟨S200000, .i32⟩ : BufTy).Contents (Elt F) → (⟨S200000, .i32⟩ : BufTy).Contents (Elt F) → (⟨S200000, .i32⟩ : BufTy).Contents (Elt F)),
    StableHlo.ternary main_v17 main_v19 main_v11 main_v20 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.nullary main_c_5 (constantI S_ 32 0#32),
    StableHlo.unary main_c_5 main_v21 (broadcastInDim S200000 ![] bcast_S_S200000 : (⟨S_, .i32⟩ : BufTy).Contents (Elt F) → (⟨S200000, .i32⟩ : BufTy).Contents (Elt F)),
    StableHlo.binary main_v13 main_v21 main_v22 (cmpi .slt : (⟨S200000, .i32⟩ : BufTy).Contents (Elt F) → (⟨S200000, .i32⟩ : BufTy).Contents (Elt F) → (⟨S200000, .i1⟩ : BufTy).Contents (Elt F)),
    StableHlo.nullary main_c_6 (constantI S_ 32 800#32),
    StableHlo.unary main_c_6 main_v23 (broadcastInDim S200000 ![] bcast_S_S200000 : (⟨S_, .i32⟩ : BufTy).Contents (Elt F) → (⟨S200000, .i32⟩ : BufTy).Contents (Elt F)),
    StableHlo.binary main_v13 main_v23 main_v24 (addi : (⟨S200000, .i32⟩ : BufTy).Contents (Elt F) → (⟨S200000, .i32⟩ : BufTy).Contents (Elt F) → (⟨S200000, .i32⟩ : BufTy).Contents (Elt F)),
    StableHlo.ternary main_v22 main_v24 main_v13 main_v25 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.nullary main_c_7 (constantI S_ 32 0#32),
    StableHlo.unary main_c_7 main_v26 (broadcastInDim S200000 ![] bcast_S_S200000 : (⟨S_, .i32⟩ : BufTy).Contents (Elt F) → (⟨S200000, .i32⟩ : BufTy).Contents (Elt F)),
    StableHlo.binary main_v15 main_v26 main_v27 (cmpi .slt : (⟨S200000, .i32⟩ : BufTy).Contents (Elt F) → (⟨S200000, .i32⟩ : BufTy).Contents (Elt F) → (⟨S200000, .i1⟩ : BufTy).Contents (Elt F)),
    StableHlo.nullary main_c_8 (constantI S_ 32 45#32),
    StableHlo.unary main_c_8 main_v28 (broadcastInDim S200000 ![] bcast_S_S200000 : (⟨S_, .i32⟩ : BufTy).Contents (Elt F) → (⟨S200000, .i32⟩ : BufTy).Contents (Elt F)),
    StableHlo.binary main_v15 main_v28 main_v29 (addi : (⟨S200000, .i32⟩ : BufTy).Contents (Elt F) → (⟨S200000, .i32⟩ : BufTy).Contents (Elt F) → (⟨S200000, .i32⟩ : BufTy).Contents (Elt F)),
    StableHlo.ternary main_v27 main_v29 main_v15 main_v30 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v20 main_v31 (broadcastInDim S200000x1 ![0] bcast_S200000_S200000x1_0 : (⟨S200000, .i32⟩ : BufTy).Contents (Elt F) → (⟨S200000x1, .i32⟩ : BufTy).Contents (Elt F)),
    StableHlo.unary main_v25 main_v32 (broadcastInDim S200000x1 ![0] bcast_S200000_S200000x1_0 : (⟨S200000, .i32⟩ : BufTy).Contents (Elt F) → (⟨S200000x1, .i32⟩ : BufTy).Contents (Elt F)),
    StableHlo.unary main_v30 main_v33 (broadcastInDim S200000x1 ![0] bcast_S200000_S200000x1_0 : (⟨S200000, .i32⟩ : BufTy).Contents (Elt F) → (⟨S200000x1, .i32⟩ : BufTy).Contents (Elt F)),
    StableHlo.nary ![main_v31, main_v32, main_v33] main_v34 (fun u => concatenate S200000x3 1 [⟨S200000x1, u 0⟩, ⟨S200000x1, u 1⟩, ⟨S200000x1, u 2⟩] concatenates_S200000x1_S200000x1_S200000x1_S200000x3_d1),
    StableHlo.binary main_arg3 main_v34 main_v35 ((fun x i => Host.gather gather_S3x800x800x45_S200000x3_S3x200000_0_123_n_n_123_1_3111 x i) : (⟨S3x800x800x45, .i32⟩ : BufTy).Contents (Elt F) → (⟨S200000x3, .i32⟩ : BufTy).Contents (Elt F) → (⟨S3x200000, .i32⟩ : BufTy).Contents (Elt F)) ]

/-- 32 operations. -/
abbrev opsMatch : List (HloOp τ sig (Elt F)) :=
  [ StableHlo.unary main_v35 main_v36 ((extractStridedSlice S1x200000 ![0, 0] · slices_S3x200000_S1x200000_0_0) : (⟨S3x200000, .i32⟩ : BufTy).Contents (Elt F) → (⟨S1x200000, .i32⟩ : BufTy).Contents (Elt F)),
    StableHlo.reshape main_v36 main_v37 rfl shapeCasts_S1x200000_S200000,
    StableHlo.unary main_v35 main_v38 ((extractStridedSlice S1x200000 ![1, 0] · slices_S3x200000_S1x200000_1_0) : (⟨S3x200000, .i32⟩ : BufTy).Contents (Elt F) → (⟨S1x200000, .i32⟩ : BufTy).Contents (Elt F)),
    StableHlo.reshape main_v38 main_v39 rfl shapeCasts_S1x200000_S200000,
    StableHlo.unary main_v35 main_v40 ((extractStridedSlice S1x200000 ![2, 0] · slices_S3x200000_S1x200000_2_0) : (⟨S3x200000, .i32⟩ : BufTy).Contents (Elt F) → (⟨S1x200000, .i32⟩ : BufTy).Contents (Elt F)),
    StableHlo.reshape main_v40 main_v41 rfl shapeCasts_S1x200000_S200000,
    StableHlo.nullary main_c_9 (constantI S_ 32 0#32),
    StableHlo.unary main_c_9 main_v42 (broadcastInDim S200000 ![] bcast_S_S200000 : (⟨S_, .i32⟩ : BufTy).Contents (Elt F) → (⟨S200000, .i32⟩ : BufTy).Contents (Elt F)),
    StableHlo.binary main_v37 main_v42 main_v43 (cmpi .slt : (⟨S200000, .i32⟩ : BufTy).Contents (Elt F) → (⟨S200000, .i32⟩ : BufTy).Contents (Elt F) → (⟨S200000, .i1⟩ : BufTy).Contents (Elt F)),
    StableHlo.nullary main_c_10 (constantI S_ 32 800#32),
    StableHlo.unary main_c_10 main_v44 (broadcastInDim S200000 ![] bcast_S_S200000 : (⟨S_, .i32⟩ : BufTy).Contents (Elt F) → (⟨S200000, .i32⟩ : BufTy).Contents (Elt F)),
    StableHlo.binary main_v37 main_v44 main_v45 (addi : (⟨S200000, .i32⟩ : BufTy).Contents (Elt F) → (⟨S200000, .i32⟩ : BufTy).Contents (Elt F) → (⟨S200000, .i32⟩ : BufTy).Contents (Elt F)),
    StableHlo.ternary main_v43 main_v45 main_v37 main_v46 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.nullary main_c_11 (constantI S_ 32 0#32),
    StableHlo.unary main_c_11 main_v47 (broadcastInDim S200000 ![] bcast_S_S200000 : (⟨S_, .i32⟩ : BufTy).Contents (Elt F) → (⟨S200000, .i32⟩ : BufTy).Contents (Elt F)),
    StableHlo.binary main_v39 main_v47 main_v48 (cmpi .slt : (⟨S200000, .i32⟩ : BufTy).Contents (Elt F) → (⟨S200000, .i32⟩ : BufTy).Contents (Elt F) → (⟨S200000, .i1⟩ : BufTy).Contents (Elt F)),
    StableHlo.nullary main_c_12 (constantI S_ 32 800#32),
    StableHlo.unary main_c_12 main_v49 (broadcastInDim S200000 ![] bcast_S_S200000 : (⟨S_, .i32⟩ : BufTy).Contents (Elt F) → (⟨S200000, .i32⟩ : BufTy).Contents (Elt F)),
    StableHlo.binary main_v39 main_v49 main_v50 (addi : (⟨S200000, .i32⟩ : BufTy).Contents (Elt F) → (⟨S200000, .i32⟩ : BufTy).Contents (Elt F) → (⟨S200000, .i32⟩ : BufTy).Contents (Elt F)),
    StableHlo.ternary main_v48 main_v50 main_v39 main_v51 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.nullary main_c_13 (constantI S_ 32 0#32),
    StableHlo.unary main_c_13 main_v52 (broadcastInDim S200000 ![] bcast_S_S200000 : (⟨S_, .i32⟩ : BufTy).Contents (Elt F) → (⟨S200000, .i32⟩ : BufTy).Contents (Elt F)),
    StableHlo.binary main_v41 main_v52 main_v53 (cmpi .slt : (⟨S200000, .i32⟩ : BufTy).Contents (Elt F) → (⟨S200000, .i32⟩ : BufTy).Contents (Elt F) → (⟨S200000, .i1⟩ : BufTy).Contents (Elt F)),
    StableHlo.nullary main_c_14 (constantI S_ 32 45#32),
    StableHlo.unary main_c_14 main_v54 (broadcastInDim S200000 ![] bcast_S_S200000 : (⟨S_, .i32⟩ : BufTy).Contents (Elt F) → (⟨S200000, .i32⟩ : BufTy).Contents (Elt F)),
    StableHlo.binary main_v41 main_v54 main_v55 (addi : (⟨S200000, .i32⟩ : BufTy).Contents (Elt F) → (⟨S200000, .i32⟩ : BufTy).Contents (Elt F) → (⟨S200000, .i32⟩ : BufTy).Contents (Elt F)),
    StableHlo.ternary main_v53 main_v55 main_v41 main_v56 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v46 main_v57 (broadcastInDim S200000x1 ![0] bcast_S200000_S200000x1_0 : (⟨S200000, .i32⟩ : BufTy).Contents (Elt F) → (⟨S200000x1, .i32⟩ : BufTy).Contents (Elt F)),
    StableHlo.unary main_v51 main_v58 (broadcastInDim S200000x1 ![0] bcast_S200000_S200000x1_0 : (⟨S200000, .i32⟩ : BufTy).Contents (Elt F) → (⟨S200000x1, .i32⟩ : BufTy).Contents (Elt F)),
    StableHlo.unary main_v56 main_v59 (broadcastInDim S200000x1 ![0] bcast_S200000_S200000x1_0 : (⟨S200000, .i32⟩ : BufTy).Contents (Elt F) → (⟨S200000x1, .i32⟩ : BufTy).Contents (Elt F)),
    StableHlo.nary ![main_v57, main_v58, main_v59] main_v60 (fun u => concatenate S200000x3 1 [⟨S200000x1, u 0⟩, ⟨S200000x1, u 1⟩, ⟨S200000x1, u 2⟩] concatenates_S200000x1_S200000x1_S200000x1_S200000x3_d1),
    StableHlo.binary main_arg4 main_v60 main_v61 ((fun x i => Host.gather gather_S800x800x45_S200000x3_S200000_n_012_n_n_012_1_111 x i) : (⟨S800x800x45, .i32⟩ : BufTy).Contents (Elt F) → (⟨S200000x3, .i32⟩ : BufTy).Contents (Elt F) → (⟨S200000, .i32⟩ : BufTy).Contents (Elt F)) ]

/-- 14 operations. -/
abbrev opsDist : List (HloOp τ sig (Elt F)) :=
  [ StableHlo.nullary main_c_15 (constantI S_ 32 0#32),
    StableHlo.unary main_c_15 main_v62 (broadcastInDim S200000 ![] bcast_S_S200000 : (⟨S_, .i32⟩ : BufTy).Contents (Elt F) → (⟨S200000, .i32⟩ : BufTy).Contents (Elt F)),
    StableHlo.binary main_v61 main_v62 main_v63 (cmpi .slt : (⟨S200000, .i32⟩ : BufTy).Contents (Elt F) → (⟨S200000, .i32⟩ : BufTy).Contents (Elt F) → (⟨S200000, .i1⟩ : BufTy).Contents (Elt F)),
    StableHlo.nullary main_c_16 (constantI S_ 32 200000#32),
    StableHlo.unary main_c_16 main_v64 (broadcastInDim S200000 ![] bcast_S_S200000 : (⟨S_, .i32⟩ : BufTy).Contents (Elt F) → (⟨S200000, .i32⟩ : BufTy).Contents (Elt F)),
    StableHlo.binary main_v61 main_v64 main_v65 (addi : (⟨S200000, .i32⟩ : BufTy).Contents (Elt F) → (⟨S200000, .i32⟩ : BufTy).Contents (Elt F) → (⟨S200000, .i32⟩ : BufTy).Contents (Elt F)),
    StableHlo.ternary main_v63 main_v65 main_v61 main_v66 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v66 main_v67 (broadcastInDim S200000x1 ![0] bcast_S200000_S200000x1_0 : (⟨S200000, .i32⟩ : BufTy).Contents (Elt F) → (⟨S200000x1, .i32⟩ : BufTy).Contents (Elt F)),
    StableHlo.binary main_arg2 main_v67 main_v68 ((fun x i => Host.gather gather_S1x200000x3_S200000x1_S1x200000x3_02_1_n_n_1_1_113 x i) : (⟨S1x200000x3, .f32⟩ : BufTy).Contents (Elt F) → (⟨S200000x1, .i32⟩ : BufTy).Contents (Elt F) → (⟨S1x200000x3, .f32⟩ : BufTy).Contents (Elt F)),
    StableHlo.binary main_v68 main_v0 main_v69 (subf : (⟨S1x200000x3, .f32⟩ : BufTy).Contents (Elt F) → (⟨S1x200000x3, .f32⟩ : BufTy).Contents (Elt F) → (⟨S1x200000x3, .f32⟩ : BufTy).Contents (Elt F)),
    StableHlo.TRef.binary (.of main_v69 : StableHlo.TRef sig ⟨S1x200000x3, .f32⟩) (.of main_v69 : StableHlo.TRef sig ⟨S1x200000x3, .f32⟩) main_call1.v0 mulf,
    StableHlo.TRef.nullary main_call1.cst (constant S_ .f32 0x00000000#32),
    StableHlo.TRef.binary main_call1.v0 main_call1.cst main_call1.v1 (fun x v => Host.reduceAdd x v reducesTo_S1x200000x3_S1x200000_d2 h_S_),
    StableHlo.TRef.unary main_call1.v1 main_call1.v2 Host.sqrt ]

/-- @main's operations, in order. -/
abbrev ops : List (HloOp τ sig (Elt F)) := opsCells ++ opsNear ++ opsMatch ++ opsDist

end Cert.ReferenceIdeal.Hand

end
-- ==== Proof.RRun.lean ====
/-
  The reference's run. Its @main is a straight line of 98 host operations (the two functions it calls written out at
  their calls), so every weakly fair execution ends with each buffer at the fold of those operations over the launch
  contents: nothing is launched, nothing waits.
-/
import proofs.«404501_j6201932775870_3_alg».proof.Proof.RefOps
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

set_option maxRecDepth 16384 in
set_option maxHeartbeats 4000000 in
/-- @main is that straight line: the two windows of statements one after the other, the called functions' bodies at
    their calls. -/
theorem main_eq (c : Dev nD) : main (F := F) c = seq ops := by
  -- both sides are one chain of `hlo` steps once the windows and the called bodies are unfolded, the four stretches
  -- joined into one list, and sequencing reassociated
  simp only [main, main_part0, main_part1, fn_clip.body, fn_norm.body, ops, opsCells, opsNear, opsMatch, opsDist,
    List.cons_append, List.nil_append, seq, bind_assoc, pure_bind]

theorem scopedRefs_eq : (Finset.univ.filter fun b : Ref sig .tc => b.isScoped) = ∅ := by
  decide
theorem scopedSems_eq : (Finset.univ.filter fun sm : SemLoc sig => sm.isScoped .tc) = ∅ := by
  decide

/-- The first stretch, to the clipped cells: every operation touches TensorCore references only. -/
theorem opsCells_sub : (opsCells : List (HloOp τ sig (Elt F))).Forall fun op => op.bufs ⊆ tcRefs τ sig :=
  ⟨nullary_bufs_sub .., nullary_bufs_sub .., binary_bufs_sub .., unary_bufs_sub .., unary_bufs_sub .., binary_bufs_sub ..,
    nullary_bufs_sub .., unary_bufs_sub .., binary_bufs_sub .., unary_bufs_sub .., nullary_bufs_sub .., unary_bufs_sub ..,
    binary_bufs_sub .., nullary_bufs_sub .., unary_bufs_sub .., unary_bufs_sub .., binary_bufs_sub .., unary_bufs_sub ..,
    unary_bufs_sub .., binary_bufs_sub .., unary_bufs_sub ..⟩

/-- The second stretch, to the nearest cell's coordinates. -/
theorem opsNear_sub : (opsNear : List (HloOp τ sig (Elt F))).Forall fun op => op.bufs ⊆ tcRefs τ sig :=
  ⟨reshape_bufs_sub .., unary_bufs_sub .., reshape_bufs_sub .., unary_bufs_sub .., reshape_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., unary_bufs_sub .., nary_bufs_sub ..,
    binary_bufs_sub ..⟩

/-- The third stretch, to the matched point numbers. -/
theorem opsMatch_sub : (opsMatch : List (HloOp τ sig (Elt F))).Forall fun op => op.bufs ⊆ tcRefs τ sig :=
  ⟨unary_bufs_sub .., reshape_bufs_sub .., unary_bufs_sub .., reshape_bufs_sub .., unary_bufs_sub .., reshape_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub .., unary_bufs_sub ..,
    nary_bufs_sub .., binary_bufs_sub ..⟩

/-- The fourth stretch, to the distances. -/
theorem opsDist_sub : (opsDist : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., binary_bufs_sub .., binary_bufs_sub .., nullary_bufs_sub ..,
    binary_bufs_sub .., unary_bufs_sub ..⟩

/-- Every operation touches TensorCore references only. -/
theorem ops_sub : (ops : List (HloOp τ sig (Elt F))).Forall fun op => op.bufs ⊆ tcRefs τ sig := by
  exact List.forall_append.mpr ⟨List.forall_append.mpr ⟨List.forall_append.mpr ⟨opsCells_sub, opsNear_sub⟩, opsMatch_sub⟩, opsDist_sub⟩

/-- From any memory with zero counters every weakly fair execution of @main terminates, and every final state has each
    TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.LibSeq.lean ====
/- Lines of host operations cut in pieces.

   A line of operations run from contents V leaves the contents `after ops V`: the fold of the operations' results.
   Running a line that is two lines one after the other is running the first and then the second from what the
   first left; a property every operation of both lines has is a property of every operation of the whole. -/
import Idealize.ShloMosaic.Lib.StableHlo.Run

namespace Cert.LibSeq

open Idealize.ShloMosaic Idealize.ShloMosaic.StableHlo

variable {τ : Topo} {sig : RefSig} {Val : EltTy → Type}

/-- The contents after two lines in a row: the second line's fold over the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- What holds of every operation of two lines holds of every operation of their concatenation. -/
theorem forall_append {p : HloOp τ sig Val → Prop} {l₁ l₂ : List (HloOp τ sig Val)}
    (h₁ : l₁.Forall p) (h₂ : l₂.Forall p) : (l₁ ++ l₂).Forall p :=
  List.forall_append.mpr ⟨h₁, h₂⟩

/-- If no operation of either line leaves a buffer undetermined, none of the concatenation does. -/
theorem fresh_append {l₁ l₂ : List (HloOp τ sig Val)}
    (h₁ : ∀ op ∈ l₁, op.fresh = ∅) (h₂ : ∀ op ∈ l₂, op.fresh = ∅) : ∀ op ∈ l₁ ++ l₂, op.fresh = ∅ :=
  fun op h => (List.mem_append.mp h).elim (h₁ op) (h₂ op)

/-- A reference outside two lists is outside their concatenation. -/
theorem not_mem_append {α : Type} {r : α} {A B : List α} (hA : r ∉ A) (hB : r ∉ B) : r ∉ A ++ B :=
  fun h => (List.mem_append.mp h).elim hA hB

/-! ## An operation of three operands

The result of a three-operand operation with each operand's contents at its own reference (the library has the
four-operand form), so that the operands' own contents go on being rewritten under it. -/

theorem nary3_result {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

/-- The same with the result's reference out of the index, for one rewriting pass over a whole line. -/
theorem nary3_result' {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G

/-- The results of a line in one pass, a line cut in pieces included, with the three-operand form above. -/
macro "after_results_nary3" : tactic =>
  `(tactic| (simp (disch := decide) only [Cert.LibSeq.after_append, Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.reshape_result', Cert.LibSeq.nary3_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.reshape_result_ne', Idealize.ShloMosaic.StableHlo.nary_result_ne']))

end Cert.LibSeq
-- ==== Proof.RLayout.lean ====
/-
  The reference's layout steps, read at an index. jnp's `coors[0, :, k]` is a slice of width one and a reshape: column k
  of a cloud-shaped array as a vector; `nn_cell[k]` is the same for a row of a [3, 200000] array; three index vectors side
  by side (each made a column, the three concatenated along axis 1) are the start indices of a gather by coordinate
  triples; a table of three numbers broadcast over the points (through [1, 1, 3]) reads, at coordinate k of any point,
  its entry k; and the two dense tables of the program are the grid's lower corner and its axis lengths.
-/
import proofs.«404501_j6201932775870_3_alg».proof.ReferenceIdeal
import proofs.«404501_j6201932775870_3_alg».proof.Proof.Spec
import Idealize.ShloMosaic.Lib.ValueIdx
import Idealize.ShloMosaic.Lib.Pipeline.Value
import Idealize.ShloMosaic.Lib.ValueLayout
import Idealize.ShloMosaic.Lib.StableHlo.Predicate

noncomputable section

namespace Cert.ReferenceIdeal.Layout

open Cert.ReferenceIdeal Idealize.ShloMosaic Idealize.ShloMosaic.ValueIdx

variable {α : Type}

/-- Column `o` of a cloud-shaped array, as a vector: entry p is the array at (0, p, o). -/
theorem column_apply (x : S1x200000x3.Idx → α) (o : Nat) (ho : o < 3) (hs : S1x200000x3.Slices ![0, 0, o] S1x200000x1)
    (hc : S1x200000x1.ShapeCasts S200000) (p : Fin 200000) :
    shapeCast S200000 (extractStridedSlice S1x200000x1 ![0, 0, o] x hs) hc (ix1 p) = x (ix3 (0 : Fin 1) p ⟨o, ho⟩) := by
  refine (shapeCast_apply _ hc (ix1 p) (ix3 (0 : Fin 1) p (0 : Fin 1)) ?_).trans ?_
  · rw [Shape.rowMajor_val_three, Shape.rowMajor_val_one]
    show (0 * 200000 + p.val) * 1 + 0 = p.val
    omega
  · refine extractStridedSlice_apply _ x hs _ (ix3 (0 : Fin 1) p (⟨o, ho⟩ : Fin 3)) ?_
    intro a
    match a with
    | ⟨0, _⟩ => show (0 : Nat) = 0 + 0; omega
    | ⟨1, _⟩ => show p.val = 0 + p.val; omega
    | ⟨2, _⟩ => show o = o + 0; omega

/-- Row `o` of a [3, 200000] array, as a vector: entry p is the array at (o, p). -/
theorem row_apply (x : S3x200000.Idx → α) (o : Nat) (ho : o < 3) (hs : S3x200000.Slices ![o, 0] S1x200000)
    (hc : S1x200000.ShapeCasts S200000) (p : Fin 200000) :
    shapeCast S200000 (extractStridedSlice S1x200000 ![o, 0] x hs) hc (ix1 p) = x (ix2 (⟨o, ho⟩ : Fin 3) p) := by
  refine (shapeCast_1a_a_apply _ hc p).trans ?_
  refine extractStridedSlice_apply _ x hs _ (ix2 (⟨o, ho⟩ : Fin 3) p) ?_
  intro a
  match a with
  | ⟨0, _⟩ => show o = o + 0; omega
  | ⟨1, _⟩ => show p.val = 0 + p.val; omega

/-- Three vectors as the three columns of a [200000, 3] array: column j of row p is vector j at p. -/
theorem columns_apply (a b c : S200000.Idx → α) (hb : S200000.BroadcastsInDim S200000x1 (![0] : Fin 1 → Fin S200000x1.rank))
    (hcat : Shape.Concatenates [S200000x1, S200000x1, S200000x1] S200000x3 1) (p : Fin 200000) :
    concatenate S200000x3 1 [⟨S200000x1, broadcastInDim S200000x1 ![0] hb a⟩, ⟨S200000x1, broadcastInDim S200000x1 ![0] hb b⟩,
        ⟨S200000x1, broadcastInDim S200000x1 ![0] hb c⟩] hcat (ix2 p (0 : Fin 3)) = a (ix1 p)
    ∧ concatenate S200000x3 1 [⟨S200000x1, broadcastInDim S200000x1 ![0] hb a⟩, ⟨S200000x1, broadcastInDim S200000x1 ![0] hb b⟩,
        ⟨S200000x1, broadcastInDim S200000x1 ![0] hb c⟩] hcat (ix2 p (1 : Fin 3)) = b (ix1 p)
    ∧ concatenate S200000x3 1 [⟨S200000x1, broadcastInDim S200000x1 ![0] hb a⟩, ⟨S200000x1, broadcastInDim S200000x1 ![0] hb b⟩,
        ⟨S200000x1, broadcastInDim S200000x1 ![0] hb c⟩] hcat (ix2 p (2 : Fin 3)) = c (ix1 p) := by
  have hcol : ∀ v : S200000.Idx → α, broadcastInDim S200000x1 ![0] hb v (ix2 p (0 : Fin 1)) = v (ix1 p) := fun v =>
    broadcastInDim_apply _ hb v _ (ix1 p) fun d => match d with | ⟨0, _⟩ => rfl
  have hi : ∀ (j : Fin 3) (b : Fin S200000x1.rank), b.cast (rfl : S200000x1.rank = S200000x3.rank) ≠ (1 : Fin S200000x3.rank) →
      ((ix2 p (0 : Fin 1) : S200000x1.Idx) b).val = ((ix2 p j : S200000x3.Idx) (b.cast rfl)).val := fun j b hne =>
    match b, hne with
    | ⟨0, _⟩, _ => rfl
    | ⟨1, _⟩, hne => absurd rfl hne
  refine ⟨?_, ?_, ?_⟩
  · exact (concatenate_apply_piece (t := S200000x3) 1
      [⟨S200000x1, broadcastInDim S200000x1 ![0] hb a⟩, ⟨S200000x1, broadcastInDim S200000x1 ![0] hb b⟩,
        ⟨S200000x1, broadcastInDim S200000x1 ![0] hb c⟩] hcat (ix2 p (0 : Fin 3)) 0 (Nat.zero_lt_succ _) S200000x1 _ rfl rfl 0 rfl
      (ix2 p (0 : Fin 1)) (hi 0) rfl).trans (hcol a)
  · exact (concatenate_apply_piece (t := S200000x3) 1
      [⟨S200000x1, broadcastInDim S200000x1 ![0] hb a⟩, ⟨S200000x1, broadcastInDim S200000x1 ![0] hb b⟩,
        ⟨S200000x1, broadcastInDim S200000x1 ![0] hb c⟩] hcat (ix2 p (1 : Fin 3)) 1 (Nat.succ_lt_succ (Nat.zero_lt_succ _)) S200000x1 _ rfl rfl 1 rfl
      (ix2 p (0 : Fin 1)) (hi 1) rfl).trans (hcol b)
  · exact (concatenate_apply_piece (t := S200000x3) 1
      [⟨S200000x1, broadcastInDim S200000x1 ![0] hb a⟩, ⟨S200000x1, broadcastInDim S200000x1 ![0] hb b⟩,
        ⟨S200000x1, broadcastInDim S200000x1 ![0] hb c⟩] hcat (ix2 p (2 : Fin 3)) 2 (Nat.succ_lt_succ (Nat.succ_lt_succ (Nat.zero_lt_succ _))) S200000x1 _ rfl rfl 2 rfl
      (ix2 p (0 : Fin 1)) (hi 2) rfl).trans (hcol c)

/-- A vector as a [200000, 1] column: row p is the vector at p. -/
theorem column_of_vector_apply (a : S200000.Idx → α) (hb : S200000.BroadcastsInDim S200000x1 (![0] : Fin 1 → Fin S200000x1.rank)) (p : Fin 200000) :
    broadcastInDim S200000x1 ![0] hb a (ix2 p (0 : Fin 1)) = a (ix1 p) := by
  exact broadcastInDim_apply _ hb a _ (ix1 p) fun d => match d with | ⟨0, _⟩ => rfl

/-- A table of three entries laid over the points: at coordinate k of any point, entry k. -/
theorem table_over_points_apply (t : S3.Idx → α) (h1 : S3.BroadcastsInDim S1x1x3 (![2] : Fin 1 → Fin S1x1x3.rank))
    (h2 : S1x1x3.BroadcastsInDim S1x200000x3 (![0, 1, 2] : Fin 3 → Fin S1x200000x3.rank)) (n : Fin 200000) (k : Fin 3) :
    broadcastInDim S1x200000x3 ![0, 1, 2] h2 (broadcastInDim S1x1x3 ![2] h1 t) (ix3 (0 : Fin 1) n k) = t (ix1 k) := by
  refine (broadcastInDim_apply _ h2 _ (ix3 (0 : Fin 1) n k) (ix3 (0 : Fin 1) (0 : Fin 1) k) ?_).trans ?_
  · intro a
    match a with
    | ⟨0, _⟩ => rfl
    | ⟨1, _⟩ => rfl
    | ⟨2, _⟩ => rfl
  · exact broadcastInDim_apply _ h1 t _ (ix1 k) fun d => match d with | ⟨0, _⟩ => rfl

/-- A scalar laid over the points. -/
theorem scalar_over_points_apply (v : S_.Idx → α) (h : S_.BroadcastsInDim S1x200000x3 (![] : Fin 0 → Fin S1x200000x3.rank)) (i : S1x200000x3.Idx) :
    broadcastInDim S1x200000x3 ![] h v i = v ix0 := by
  exact broadcastInDim_apply _ h v i ix0 fun a => a.elim0

/-- The first dense table is the grid's lower corner. -/
theorem lit0_entry (k : Fin 3) : lit0 (S3.rowMajor (ix1 k)) = Cert.Voxel.loBits k := by
  have e : S3.rowMajor (ix1 k) = k := Fin.ext (Shape.rowMajor_val_one _)
  refine (congrArg lit0 e).trans ?_
  match k with
  | ⟨0, _⟩ => rfl
  | ⟨1, _⟩ => rfl
  | ⟨2, _⟩ => rfl

/-- The second dense table, less one, is the last cell on each axis. -/
theorem lit1_entry (k : Fin 3) : IntOp.subi (lit1 (S3.rowMajor (ix1 k))) 1#32 = Cert.Voxel.lastCell k := by
  have key : ∀ q : Fin 3, IntOp.subi (lit1 q) 1#32 = Cert.Voxel.lastCell q := by decide
  have e : S3.rowMajor (ix1 k) = k := Fin.ext (Shape.rowMajor_val_one _)
  exact (congrArg (fun q => IntOp.subi (lit1 q) 1#32) e).trans (key k)

end Cert.ReferenceIdeal.Layout

end
-- ==== Proof.RValue.lean ====
/-
  The reference's two results, read. The fold of its 98 operations over any contents `V` of the buffers leaves, in the
  buffer of the second result, the matched point numbers `Cert.Voxel.nearestArr`, and in the buffer of the first the
  distances `Cert.Voxel.distArr`, of the five argument arrays; the arguments themselves it leaves as they were.
  Stretch by stretch: the cells (sum, shift by the grid's corner, quotient by the cell side, truncation, clip); the
  nearest occupied cell's three coordinates (a gather of the table at the cell, whose coordinates are never negative,
  so jnp's count-from-the-end adds nothing); the matched point number (a gather of the grid at those coordinates, which
  the precondition keeps on their axes, so again nothing is added); the distance (a gather of the second cloud at the
  number, the difference, the three squares summed from zero, the square root).
-/
import proofs.«404501_j6201932775870_3_alg».proof.Proof.RefOps
import proofs.«404501_j6201932775870_3_alg».proof.Proof.Spec
import proofs.«404501_j6201932775870_3_alg».proof.Proof.LibGatherRead
import proofs.«404501_j6201932775870_3_alg».proof.Proof.LibSeq
import proofs.«404501_j6201932775870_3_alg».proof.Proof.RLayout
import Idealize.ShloMosaic.Lib.StableHlo.Run
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.ReferenceIdeal.Hand

open Cert.ReferenceIdeal Idealize.ShloMosaic Idealize.ShloMosaic.TcCoe Idealize.SL.Sem Idealize.ShloMosaic.StableHlo
open Idealize.ShloMosaic.ValueIdx
open Cert.ReferenceIdeal.Facts₀ Cert.ReferenceIdeal.Facts

variable [Cert.ReferenceIdeal.Facts]

/-- The five argument arrays in contents `V`. -/
abbrev xOf (V : Valuation τ sig (Elt Ideal)) : Vec Ideal S1x200000x3 .f32 := V (main_arg0 : DevRef τ sig)
abbrev fOf (V : Valuation τ sig (Elt Ideal)) : Vec Ideal S1x200000x3 .f32 := V (main_arg1 : DevRef τ sig)
abbrev pOf (V : Valuation τ sig (Elt Ideal)) : Vec Ideal S1x200000x3 .f32 := V (main_arg2 : DevRef τ sig)
abbrev idsOf (V : Valuation τ sig (Elt Ideal)) : Vec Ideal S3x800x800x45 .i32 := V (main_arg3 : DevRef τ sig)
abbrev ogOf (V : Valuation τ sig (Elt Ideal)) : Vec Ideal S800x800x45 .i32 := V (main_arg4 : DevRef τ sig)

/-! ## The stretches' results as functions of what they read -/

/-- The clipped cells [1, 200000, 3] of the two clouds' sum. -/
def cellsT (x f : FVec Ideal S1x200000x3 .f32) : IVec S1x200000x3 32 :=
  minsi
    (broadcastInDim S1x200000x3 ![0, 1, 2] bcast_S1x1x3_S1x200000x3_0_1_2
      (broadcastInDim S1x1x3 ![2] bcast_S3_S1x1x3_2
        (subi (fun i => lit1 (S3.rowMajor i)) (broadcastInDim S3 ![] bcast_S_S3 (constantI S_ 32 1#32)))))
    (maxsi (broadcastInDim S1x200000x3 ![] bcast_S_S1x200000x3 (constantI S_ 32 0#32))
      (fptosi 32 (Host.divf (F := Ideal)
        (subf (F := Ideal) (addf (F := Ideal) x f)
          (broadcastInDim S1x200000x3 ![0, 1, 2] bcast_S1x1x3_S1x200000x3_0_1_2
            (broadcastInDim S1x1x3 ![2] bcast_S3_S1x1x3_2 (fun i => FloatOps.ofBits (F := Ideal) .f32 (lit0 (S3.rowMajor i))))))
        (broadcastInDim S1x200000x3 ![] bcast_S_S1x200000x3 (constant (F := Ideal) S_ .f32 0x3DCCCCCD#32)))))

/-- jnp's count-from-the-end over a vector of indices on an axis of `N` positions: `v + N` where `v` is negative. -/
def wrapVec (N : BitVec 32) (v : IVec S200000 32) : IVec S200000 32 :=
  select (cmpi .slt v (broadcastInDim S200000 ![] bcast_S_S200000 (constantI S_ 32 0#32)))
    (addi v (broadcastInDim S200000 ![] bcast_S_S200000 (constantI S_ 32 N))) v

/-- Three index vectors laid side by side as the rows' coordinate triples [200000, 3]. -/
def triple (a b c : IVec S200000 32) : IVec S200000x3 32 :=
  concatenate S200000x3 1
    [⟨S200000x1, broadcastInDim S200000x1 ![0] bcast_S200000_S200000x1_0 a⟩,
     ⟨S200000x1, broadcastInDim S200000x1 ![0] bcast_S200000_S200000x1_0 b⟩,
     ⟨S200000x1, broadcastInDim S200000x1 ![0] bcast_S200000_S200000x1_0 c⟩]
    concatenates_S200000x1_S200000x1_S200000x1_S200000x3_d1

/-- Column `k` of the cells as a vector [200000]. -/
def cellCol1 (c : IVec S1x200000x3 32) : IVec S200000 32 :=
  shapeCast S200000 (extractStridedSlice S1x200000x1 ![0, 0, 1] c slices_S1x200000x3_S1x200000x1_0_0_1) shapeCasts_S1x200000x1_S200000
def cellCol2 (c : IVec S1x200000x3 32) : IVec S200000 32 :=
  shapeCast S200000 (extractStridedSlice S1x200000x1 ![0, 0, 2] c slices_S1x200000x3_S1x200000x1_0_0_2) shapeCasts_S1x200000x1_S200000

/-- The nearest occupied cell's three coordinates [3, 200000], of the cells `c`, their first column `c0` and the table. -/
def nearT (c : IVec S1x200000x3 32) (c0 : IVec S1x200000x1 32) (ids : IVec S3x800x800x45 32) : IVec S3x200000 32 :=
  Host.gather gather_S3x800x800x45_S200000x3_S3x200000_0_123_n_n_123_1_3111 ids
    (triple (wrapVec 800#32 (shapeCast S200000 c0 shapeCasts_S1x200000x1_S200000)) (wrapVec 800#32 (cellCol1 c)) (wrapVec 45#32 (cellCol2 c)))

/-- Row `k` of the coordinates as a vector [200000]. -/
def nearRow0 (g : IVec S3x200000 32) : IVec S200000 32 :=
  shapeCast S200000 (extractStridedSlice S1x200000 ![0, 0] g slices_S3x200000_S1x200000_0_0) shapeCasts_S1x200000_S200000
def nearRow1 (g : IVec S3x200000 32) : IVec S200000 32 :=
  shapeCast S200000 (extractStridedSlice S1x200000 ![1, 0] g slices_S3x200000_S1x200000_1_0) shapeCasts_S1x200000_S200000
def nearRow2 (g : IVec S3x200000 32) : IVec S200000 32 :=
  shapeCast S200000 (extractStridedSlice S1x200000 ![2, 0] g slices_S3x200000_S1x200000_2_0) shapeCasts_S1x200000_S200000

/-- The matched point numbers [200000], of the nearest cells' coordinates and the grid. -/
def matchT (g : IVec S3x200000 32) (og : IVec S800x800x45 32) : IVec S200000 32 :=
  Host.gather gather_S800x800x45_S200000x3_S200000_n_012_n_n_012_1_111 og
    (triple (wrapVec 800#32 (nearRow0 g)) (wrapVec 800#32 (nearRow1 g)) (wrapVec 45#32 (nearRow2 g)))

/-- The distances [1, 200000], of the matched numbers, the second cloud and the deformed first. -/
def distT (m : IVec S200000 32) (p d : FVec Ideal S1x200000x3 .f32) : FVec Ideal S1x200000 .f32 :=
  Host.sqrt (F := Ideal) (Host.reduceAdd (F := Ideal)
    (mulf (F := Ideal)
      (subf (F := Ideal) (Host.gather gather_S1x200000x3_S200000x1_S1x200000x3_02_1_n_n_1_1_113 p
        (broadcastInDim S200000x1 ![0] bcast_S200000_S200000x1_0 (wrapVec 200000#32 m))) d)
      (subf (F := Ideal) (Host.gather gather_S1x200000x3_S200000x1_S1x200000x3_02_1_n_n_1_1_113 p
        (broadcastInDim S200000x1 ![0] bcast_S200000_S200000x1_0 (wrapVec 200000#32 m))) d))
    (constant (F := Ideal) S_ .f32 0x00000000#32) reducesTo_S1x200000x3_S1x200000_d2 h_S_)

/-! ## The fold, stretch by stretch, over any contents -/

set_option maxRecDepth 8192 in
theorem cells_v9 (W : Valuation τ sig (Elt Ideal)) :
    after (opsCells (F := Ideal)) W (main_v9 : DevRef τ sig)
      = cellsT (W (main_arg0 : DevRef τ sig)) (W (main_arg1 : DevRef τ sig)) := by
  after_results
  rfl

set_option maxRecDepth 8192 in
theorem cells_v10 (W : Valuation τ sig (Elt Ideal)) :
    after (opsCells (F := Ideal)) W (main_v10 : DevRef τ sig)
      = extractStridedSlice S1x200000x1 ![0, 0, 0] (cellsT (W (main_arg0 : DevRef τ sig)) (W (main_arg1 : DevRef τ sig)))
          slices_S1x200000x3_S1x200000x1_0_0_0 := by
  after_results
  rfl

set_option maxRecDepth 8192 in
theorem cells_v0 (W : Valuation τ sig (Elt Ideal)) :
    after (opsCells (F := Ideal)) W (main_v0 : DevRef τ sig)
      = addf (F := Ideal) (φ := .f32) (W (main_arg0 : DevRef τ sig)) (W (main_arg1 : DevRef τ sig)) := by
  after_results

/-- The column [200000, 1] of a vector. -/
def colOf (v : IVec S200000 32) : IVec S200000x1 32 := broadcastInDim S200000x1 ![0] bcast_S200000_S200000x1_0 v

set_option maxRecDepth 8192 in
theorem nearA_v31 (W : Valuation τ sig (Elt Ideal)) :
    after ((opsNear (F := Ideal)).take 29) W (main_v31 : DevRef τ sig)
      = colOf (wrapVec 800#32 (shapeCast S200000 (W (main_v10 : DevRef τ sig)) shapeCasts_S1x200000x1_S200000)) := by
  simp only [opsNear, List.take_succ_cons, List.take_zero]
  after_results_simp
  rfl

set_option maxRecDepth 8192 in
theorem nearA_v32 (W : Valuation τ sig (Elt Ideal)) :
    after ((opsNear (F := Ideal)).take 29) W (main_v32 : DevRef τ sig)
      = colOf (wrapVec 800#32 (cellCol1 (W (main_v9 : DevRef τ sig)))) := by
  simp only [opsNear, List.take_succ_cons, List.take_zero]
  after_results_simp
  rfl

set_option maxRecDepth 8192 in
theorem nearA_v33 (W : Valuation τ sig (Elt Ideal)) :
    after ((opsNear (F := Ideal)).take 29) W (main_v33 : DevRef τ sig)
      = colOf (wrapVec 45#32 (cellCol2 (W (main_v9 : DevRef τ sig)))) := by
  simp only [opsNear, List.take_succ_cons, List.take_zero]
  after_results_simp
  rfl

set_option maxRecDepth 8192 in
theorem nearA_arg3 (W : Valuation τ sig (Elt Ideal)) :
    after ((opsNear (F := Ideal)).take 29) W (main_arg3 : DevRef τ sig) = W (main_arg3 : DevRef τ sig) := by
  simp only [opsNear, List.take_succ_cons, List.take_zero]
  after_results_simp

attribute [local irreducible] Host.gather concatenate in
set_option maxRecDepth 8192 in
theorem nearB_v35 (W : Valuation τ sig (Elt Ideal)) :
    after ((opsNear (F := Ideal)).drop 29) W (main_v35 : DevRef τ sig)
      = Host.gather gather_S3x800x800x45_S200000x3_S3x200000_0_123_n_n_123_1_3111 (W (main_arg3 : DevRef τ sig))
          (concatenate S200000x3 1
            [⟨S200000x1, W (main_v31 : DevRef τ sig)⟩, ⟨S200000x1, W (main_v32 : DevRef τ sig)⟩, ⟨S200000x1, W (main_v33 : DevRef τ sig)⟩]
            concatenates_S200000x1_S200000x1_S200000x1_S200000x3_d1) := by
  simp only [opsNear, List.drop_succ_cons, List.drop_zero]
  after_results
  rfl

theorem near_v35 (W : Valuation τ sig (Elt Ideal)) :
    after (opsNear (F := Ideal)) W (main_v35 : DevRef τ sig)
      = nearT (W (main_v9 : DevRef τ sig)) (W (main_v10 : DevRef τ sig)) (W (main_arg3 : DevRef τ sig)) := by
  rw [← List.take_append_drop 29 (opsNear (F := Ideal)), Cert.LibSeq.after_append, nearB_v35, nearA_v31, nearA_v32, nearA_v33, nearA_arg3]
  rfl

set_option maxRecDepth 8192 in
theorem matchA_v57 (W : Valuation τ sig (Elt Ideal)) :
    after ((opsMatch (F := Ideal)).take 30) W (main_v57 : DevRef τ sig)
      = colOf (wrapVec 800#32 (nearRow0 (W (main_v35 : DevRef τ sig)))) := by
  simp only [opsMatch, List.take_succ_cons, List.take_zero]
  after_results_simp
  rfl

set_option maxRecDepth 8192 in
theorem matchA_v58 (W : Valuation τ sig (Elt Ideal)) :
    after ((opsMatch (F := Ideal)).take 30) W (main_v58 : DevRef τ sig)
      = colOf (wrapVec 800#32 (nearRow1 (W (main_v35 : DevRef τ sig)))) := by
  simp only [opsMatch, List.take_succ_cons, List.take_zero]
  after_results_simp
  rfl

set_option maxRecDepth 8192 in
theorem matchA_v59 (W : Valuation τ sig (Elt Ideal)) :
    after ((opsMatch (F := Ideal)).take 30) W (main_v59 : DevRef τ sig)
      = colOf (wrapVec 45#32 (nearRow2 (W (main_v35 : DevRef τ sig)))) := by
  simp only [opsMatch, List.take_succ_cons, List.take_zero]
  after_results_simp
  rfl

set_option maxRecDepth 8192 in
theorem matchA_arg4 (W : Valuation τ sig (Elt Ideal)) :
    after ((opsMatch (F := Ideal)).take 30) W (main_arg4 : DevRef τ sig) = W (main_arg4 : DevRef τ sig) := by
  simp only [opsMatch, List.take_succ_cons, List.take_zero]
  after_results_simp

attribute [local irreducible] Host.gather concatenate in
set_option maxRecDepth 8192 in
theorem matchB_v61 (W : Valuation τ sig (Elt Ideal)) :
    after ((opsMatch (F := Ideal)).drop 30) W (main_v61 : DevRef τ sig)
      = Host.gather gather_S800x800x45_S200000x3_S200000_n_012_n_n_012_1_111 (W (main_arg4 : DevRef τ sig))
          (concatenate S200000x3 1
            [⟨S200000x1, W (main_v57 : DevRef τ sig)⟩, ⟨S200000x1, W (main_v58 : DevRef τ sig)⟩, ⟨S200000x1, W (main_v59 : DevRef τ sig)⟩]
            concatenates_S200000x1_S200000x1_S200000x1_S200000x3_d1) := by
  simp only [opsMatch, List.drop_succ_cons, List.drop_zero]
  after_results
  rfl

theorem match_v61 (W : Valuation τ sig (Elt Ideal)) :
    after (opsMatch (F := Ideal)) W (main_v61 : DevRef τ sig)
      = matchT (W (main_v35 : DevRef τ sig)) (W (main_arg4 : DevRef τ sig)) := by
  rw [← List.take_append_drop 30 (opsMatch (F := Ideal)), Cert.LibSeq.after_append, matchB_v61, matchA_v57, matchA_v58, matchA_v59, matchA_arg4]
  rfl

attribute [local irreducible] Host.gather Host.reduceAdd in
set_option maxRecDepth 8192 in
theorem dist_v70 (W : Valuation τ sig (Elt Ideal)) :
    after (opsDist (F := Ideal)) W (main_v70 : DevRef τ sig)
      = distT (W (main_v61 : DevRef τ sig)) (W (main_arg2 : DevRef τ sig)) (W (main_v0 : DevRef τ sig)) := by
  after_results_simp
  rfl

/-! What each stretch leaves as it was, of the buffers a later stretch still reads. -/

set_option maxRecDepth 8192 in
theorem cells_keep_arg2 (W : Valuation τ sig (Elt Ideal)) :
    after (opsCells (F := Ideal)) W (main_arg2 : DevRef τ sig) = W (main_arg2 : DevRef τ sig) := by after_results
set_option maxRecDepth 8192 in
theorem cells_keep_arg3 (W : Valuation τ sig (Elt Ideal)) :
    after (opsCells (F := Ideal)) W (main_arg3 : DevRef τ sig) = W (main_arg3 : DevRef τ sig) := by after_results
set_option maxRecDepth 8192 in
theorem cells_keep_arg4 (W : Valuation τ sig (Elt Ideal)) :
    after (opsCells (F := Ideal)) W (main_arg4 : DevRef τ sig) = W (main_arg4 : DevRef τ sig) := by after_results

set_option maxRecDepth 8192 in
theorem near_keep_v0 (W : Valuation τ sig (Elt Ideal)) :
    after (opsNear (F := Ideal)) W (main_v0 : DevRef τ sig) = W (main_v0 : DevRef τ sig) := by after_results_simp
set_option maxRecDepth 8192 in
theorem near_keep_arg2 (W : Valuation τ sig (Elt Ideal)) :
    after (opsNear (F := Ideal)) W (main_arg2 : DevRef τ sig) = W (main_arg2 : DevRef τ sig) := by after_results_simp
set_option maxRecDepth 8192 in
theorem near_keep_arg4 (W : Valuation τ sig (Elt Ideal)) :
    after (opsNear (F := Ideal)) W (main_arg4 : DevRef τ sig) = W (main_arg4 : DevRef τ sig) := by after_results_simp

set_option maxRecDepth 8192 in
theorem match_keep_v0 (W : Valuation τ sig (Elt Ideal)) :
    after (opsMatch (F := Ideal)) W (main_v0 : DevRef τ sig) = W (main_v0 : DevRef τ sig) := by after_results_simp
set_option maxRecDepth 8192 in
theorem match_keep_arg2 (W : Valuation τ sig (Elt Ideal)) :
    after (opsMatch (F := Ideal)) W (main_arg2 : DevRef τ sig) = W (main_arg2 : DevRef τ sig) := by after_results_simp

set_option maxRecDepth 8192 in
theorem dist_keep_v61 (W : Valuation τ sig (Elt Ideal)) :
    after (opsDist (F := Ideal)) W (main_v61 : DevRef τ sig) = W (main_v61 : DevRef τ sig) := by after_results_simp

/-! ## The stretches' terms read at an index -/

open Cert.Voxel

/-- jnp's count-from-the-end at an index. -/
theorem wrapVec_apply (N : BitVec 32) (v : IVec S200000 32) (p : Fin 200000) :
    wrapVec N v (ix1 p) = wrapNeg N (v (ix1 p)) := rfl

/-- The clipped cells at (0, n, k): the specification's cell of point n on axis k. -/
theorem cellsT_apply (x f : FVec Ideal S1x200000x3 .f32) (n : Fin 200000) (k : Fin 3) :
    cellsT x f (ix3 (0 : Fin 1) n k) = cellAt x f n k := by
  simp only [cellsT, minsi, maxsi, fptosi, Host.divf, subf, addf]
  rw [Layout.table_over_points_apply, Layout.table_over_points_apply, Layout.scalar_over_points_apply, Layout.scalar_over_points_apply]
  show IntOp.minsi (IntOp.subi (lit1 (S3.rowMajor (ix1 k))) 1#32) _ = _
  rw [Layout.lit1_entry, Layout.lit0_entry]
  rfl

/-- The nearest cell's coordinate j for point n, read off the cells and their first column: the table at the cell of
    point n (a cell is never negative, so nothing is counted from the end). -/
theorem nearT_apply (x f : FVec Ideal S1x200000x3 .f32) (ids : IVec S3x800x800x45 32) (j : Fin 3) (n : Fin 200000) :
    nearT (cellsT x f)
        (extractStridedSlice S1x200000x1 ![0, 0, 0] (cellsT x f) slices_S1x200000x3_S1x200000x1_0_0_0) ids (ix2 j n)
      = nearCoord ids x f n j := by
  unfold nearT
  rw [Cert.LibGatherRead.gather_lead_cell3_apply (by decide) (by decide) (by decide) _ rfl rfl rfl rfl rfl]
  obtain ⟨h0, h1, h2⟩ := Layout.columns_apply
    (wrapVec 800#32 (shapeCast S200000 (extractStridedSlice S1x200000x1 ![0, 0, 0] (cellsT x f) slices_S1x200000x3_S1x200000x1_0_0_0) shapeCasts_S1x200000x1_S200000))
    (wrapVec 800#32 (cellCol1 (cellsT x f))) (wrapVec 45#32 (cellCol2 (cellsT x f)))
    bcast_S200000_S200000x1_0 concatenates_S200000x1_S200000x1_S200000x1_S200000x3_d1 n
  unfold triple
  rw [h0, h1, h2, wrapVec_apply, wrapVec_apply, wrapVec_apply]
  unfold cellCol1 cellCol2
  rw [Layout.column_apply _ 0 (by decide), Layout.column_apply _ 1 (by decide), Layout.column_apply _ 2 (by decide),
    cellsT_apply, cellsT_apply, cellsT_apply,
    wrapNeg_of_nonneg 800#32 (cellAt x f n ⟨0, by decide⟩) (Nat.lt_trans (cellWord0_lt (deformed x f n 0)) (by decide)),
    wrapNeg_of_nonneg 800#32 (cellAt x f n ⟨1, by decide⟩) (Nat.lt_trans (cellWord1_lt (deformed x f n 1)) (by decide)),
    wrapNeg_of_nonneg 45#32 (cellAt x f n ⟨2, by decide⟩) (Nat.lt_trans (cellWord2_lt (deformed x f n 2)) (by decide))]
  rfl

/-- The matched number for point n, read off any coordinates array g: the grid at g's three rows' entries, each
    counted from the end if negative, clamped. -/
theorem matchT_apply (g : IVec S3x200000 32) (og : IVec S800x800x45 32) (n : Fin 200000) :
    matchT g og (ix1 n)
      = og (ix3 (clampTo 800 (by decide) (wrapNeg 800#32 (g (ix2 (0 : Fin 3) n))))
          (clampTo 800 (by decide) (wrapNeg 800#32 (g (ix2 (1 : Fin 3) n))))
          (clampTo 45 (by decide) (wrapNeg 45#32 (g (ix2 (2 : Fin 3) n))))) := by
  unfold matchT
  rw [Cert.LibGatherRead.gather_cell3_apply (by decide) (by decide) (by decide) _ rfl rfl rfl rfl rfl]
  obtain ⟨h0, h1, h2⟩ := Layout.columns_apply (wrapVec 800#32 (nearRow0 g)) (wrapVec 800#32 (nearRow1 g)) (wrapVec 45#32 (nearRow2 g))
    bcast_S200000_S200000x1_0 concatenates_S200000x1_S200000x1_S200000x1_S200000x3_d1 n
  unfold triple
  rw [h0, h1, h2, wrapVec_apply, wrapVec_apply, wrapVec_apply]
  unfold nearRow0 nearRow1 nearRow2
  rw [Layout.row_apply _ 0 (by decide), Layout.row_apply _ 1 (by decide), Layout.row_apply _ 2 (by decide)]
  rfl

/-- The distance for point n, read off any numbers m, cloud p and deformed points d. -/
theorem distT_apply (m : IVec S200000 32) (p d : FVec Ideal S1x200000x3 .f32) (n : Fin 200000) :
    distT m p d (ix2 (0 : Fin 1) n)
      = Ideal.sqrt (∑ k : Fin 3,
          (p (ix3 (0 : Fin 1) (clampTo 200000 (by decide) (wrapNeg 200000#32 (m (ix1 n)))) k) - d (ix3 (0 : Fin 1) n k))
          * (p (ix3 (0 : Fin 1) (clampTo 200000 (by decide) (wrapNeg 200000#32 (m (ix1 n)))) k) - d (ix3 (0 : Fin 1) n k))) := by
  have hR : S1x200000x3.Reduces [2] S1x200000 :=
    ⟨reducesTo_S1x200000x3_S1x200000_d2.1, by decide, reducesTo_S1x200000x3_S1x200000_d2.2⟩
  unfold distT
  rw [show ∀ (X : FVec Ideal S1x200000 .f32) (i : S1x200000.Idx), Host.sqrt X i = Ideal.sqrt (X i) from fun _ _ => rfl,
    hostReduceAdd_apply, Ideal.hostReduceAdd_single reducesTo_S1x200000x3_S1x200000_d2 hR, constant_apply,
    Ideal.ofBits_zero_f32, zero_add]
  refine congrArg Ideal.sqrt (Finset.sum_congr rfl fun (k : Fin 3) _ => ?_)
  have hl : hR.lift (ix2 (0 : Fin 1) n) k = ix3 (0 : Fin 1) n k := by
    funext c; apply Fin.ext
    match c with
    | ⟨0, _⟩ => rfl
    | ⟨1, _⟩ => rfl
    | ⟨2, _⟩ => rfl
  rw [hl]
  show (Host.gather _ p _ (ix3 (0 : Fin 1) n k) - d (ix3 (0 : Fin 1) n k)) * (Host.gather _ p _ (ix3 (0 : Fin 1) n k) - d (ix3 (0 : Fin 1) n k)) = _
  rw [Cert.LibGatherRead.gather_mid_apply (by decide) _ rfl rfl rfl rfl rfl, Layout.column_of_vector_apply, wrapVec_apply]
  rfl

/-- THE SECOND RESULT: the matched point numbers. -/
theorem ref_nearest (V : Valuation τ sig (Elt Ideal)) (h : Cert.Voxel.IdsInRange (idsOf V)) :
    after (ops (F := Ideal)) V (main_v61 : DevRef τ sig) = (Cert.Voxel.nearestArr (idsOf V) (ogOf V) (xOf V) (fOf V) : Vec Ideal S200000 .i32) := by
  -- the fold cut at the seams, each stretch's result a function of what it reads
  show after (opsCells ++ opsNear ++ opsMatch ++ opsDist) V _ = _
  rw [Cert.LibSeq.after_append, Cert.LibSeq.after_append, Cert.LibSeq.after_append,
    dist_keep_v61, match_v61, near_v35, near_keep_arg4, cells_v9, cells_v10, cells_keep_arg3, cells_keep_arg4]
  funext i
  obtain ⟨n, rfl⟩ : ∃ n : Fin 200000, i = ix1 n := ⟨i 0, eq_ix1 i⟩
  -- index by index: the grid at the nearest cell's coordinates, which the precondition keeps on their axes
  rw [matchT_apply, nearT_apply, nearT_apply, nearT_apply,
    Cert.Voxel.wrapNeg_of_nonneg 800#32 (Cert.Voxel.nearCoord (idsOf V) (xOf V) (fOf V) n 0) (Nat.lt_trans (h _ _ _).1 (by decide)),
    Cert.Voxel.wrapNeg_of_nonneg 800#32 (Cert.Voxel.nearCoord (idsOf V) (xOf V) (fOf V) n 1) (Nat.lt_trans (h _ _ _).2.1 (by decide)),
    Cert.Voxel.wrapNeg_of_nonneg 45#32 (Cert.Voxel.nearCoord (idsOf V) (xOf V) (fOf V) n 2) (Nat.lt_trans (h _ _ _).2.2 (by decide))]
  rfl

/-- THE FIRST RESULT: the distances. -/
theorem ref_dist (V : Valuation τ sig (Elt Ideal)) (h : Cert.Voxel.IdsInRange (idsOf V)) :
    after (ops (F := Ideal)) V (main_v70 : DevRef τ sig)
      = (Cert.Voxel.distArr (idsOf V) (ogOf V) (xOf V) (fOf V) (pOf V) : Vec Ideal S1x200000 .f32) := by
  -- the fold cut at the seams, each stretch's result a function of what it reads
  show after (opsCells ++ opsNear ++ opsMatch ++ opsDist) V _ = _
  rw [Cert.LibSeq.after_append, Cert.LibSeq.after_append, Cert.LibSeq.after_append,
    dist_v70, match_v61, match_keep_arg2, match_keep_v0, near_v35, near_keep_arg4, near_keep_arg2, near_keep_v0,
    cells_v9, cells_v10, cells_keep_arg3, cells_keep_arg4, cells_keep_arg2, cells_v0]
  funext i
  obtain ⟨z, n, rfl⟩ : ∃ (z : Fin 1) (n : Fin 200000), i = ix2 z n := ⟨i 0, i 1, eq_ix2 i⟩
  obtain rfl : z = 0 := Subsingleton.elim _ _
  -- index by index: the norm of the matched point less the deformed one
  rw [distT_apply, matchT_apply, nearT_apply, nearT_apply, nearT_apply,
    Cert.Voxel.wrapNeg_of_nonneg 800#32 (Cert.Voxel.nearCoord (idsOf V) (xOf V) (fOf V) n 0) (Nat.lt_trans (h _ _ _).1 (by decide)),
    Cert.Voxel.wrapNeg_of_nonneg 800#32 (Cert.Voxel.nearCoord (idsOf V) (xOf V) (fOf V) n 1) (Nat.lt_trans (h _ _ _).2.1 (by decide)),
    Cert.Voxel.wrapNeg_of_nonneg 45#32 (Cert.Voxel.nearCoord (idsOf V) (xOf V) (fOf V) n 2) (Nat.lt_trans (h _ _ _).2.2 (by decide))]
  rfl

end Cert.ReferenceIdeal.Hand

end
-- ==== Proof.RArgs.lean ====
/-
  No operation of the reference writes an argument: the fold of its 98 operations over any contents leaves the five
  argument buffers as they were (each operation's result buffer is a value of @main or of a called function, never an
  argument).
-/
import proofs.«404501_j6201932775870_3_alg».proof.Proof.RefOps
import proofs.«404501_j6201932775870_3_alg».proof.Proof.LibSeq
import Idealize.ShloMosaic.Lib.StableHlo.Run
import Idealize.ShloMosaic.PureOps.Ideal

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

/-! ## What each stretch writes

Each operation writes one buffer, its result: a value of @main or of a called function. The lists below name them in
order; a reference outside a stretch's list is left as it was by the stretch. -/

/-- The references the first stretch's operations write. -/
abbrev opsCells_W : List (Ref sig .tc) :=
  [main_cst, main_c, main_v0, main_v1, main_v2, main_v3, main_cst_0, main_v4, main_v5, main_v6, main_c_1, main_v7,
    main_v8, main_c_2, main_call0_v0, main_call0_v1, main_call0_v2, main_call0_v3, main_call0_v4, main_v9, main_v10]
theorem opsCells_writes {F : FTy → Type} [FloatOps F] :
    (opsCells : List (HloOp τ sig (Elt F))).Forall fun op => op.writes ⊆ (opsCells_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- The references the second stretch's operations write. -/
abbrev opsNear_W : List (Ref sig .tc) :=
  [main_v11, main_v12, main_v13, main_v14, main_v15, main_c_3, main_v16, main_v17, main_c_4, main_v18, main_v19, main_v20,
    main_c_5, main_v21, main_v22, main_c_6, main_v23, main_v24, main_v25, main_c_7, main_v26, main_v27, main_c_8, main_v28,
    main_v29, main_v30, main_v31, main_v32, main_v33, main_v34, main_v35]
theorem opsNear_writes {F : FTy → Type} [FloatOps F] :
    (opsNear : List (HloOp τ sig (Elt F))).Forall fun op => op.writes ⊆ (opsNear_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- The references the third stretch's operations write. -/
abbrev opsMatch_W : List (Ref sig .tc) :=
  [main_v36, main_v37, main_v38, main_v39, main_v40, main_v41, main_c_9, main_v42, main_v43, main_c_10, main_v44, main_v45,
    main_v46, main_c_11, main_v47, main_v48, main_c_12, main_v49, main_v50, main_v51, main_c_13, main_v52, main_v53, main_c_14,
    main_v54, main_v55, main_v56, main_v57, main_v58, main_v59, main_v60, main_v61]
theorem opsMatch_writes {F : FTy → Type} [FloatOps F] :
    (opsMatch : List (HloOp τ sig (Elt F))).Forall fun op => op.writes ⊆ (opsMatch_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- The references the fourth stretch's operations write. -/
abbrev opsDist_W : List (Ref sig .tc) :=
  [main_c_15, main_v62, main_v63, main_c_16, main_v64, main_v65, main_v66, main_v67, main_v68, main_v69, main_call1_v0, main_call1_cst,
    main_call1_v1, main_v70]
theorem opsDist_writes {F : FTy → Type} [FloatOps F] :
    (opsDist : List (HloOp τ sig (Elt F))).Forall fun op => op.writes ⊆ (opsDist_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-! ## The whole line -/

/-- A reference none of the four stretches writes is left as it was by the whole line. -/
theorem ops_keeps {F : FTy → Type} [FloatOps F] (V : Valuation τ sig (Elt F)) (r : Ref sig .tc)
    (h0 : r ∉ opsCells_W) (h1 : r ∉ opsNear_W) (h2 : r ∉ opsMatch_W) (h3 : r ∉ opsDist_W) :
    after (ops (F := F)) V (Proc.devRef .tc r) = V (Proc.devRef .tc r) := by
  show after (opsCells ++ opsNear ++ opsMatch ++ opsDist) V (Proc.devRef .tc r) = V (Proc.devRef .tc r)
  rw [Cert.LibSeq.after_append, Cert.LibSeq.after_append, Cert.LibSeq.after_append,
    after_of_writes_sub opsDist _ opsDist_writes h3, after_of_writes_sub opsMatch _ opsMatch_writes h2,
    after_of_writes_sub opsNear _ opsNear_writes h1, after_of_writes_sub opsCells _ opsCells_writes h0]

/-! ## The arguments -/

theorem ref_arg0 (V : Valuation τ sig (Elt Ideal)) : after (ops (F := Ideal)) V (main_arg0 : DevRef τ sig) = V (main_arg0 : DevRef τ sig) := by
  exact ops_keeps V main_arg0 (by decide) (by decide) (by decide) (by decide)
theorem ref_arg1 (V : Valuation τ sig (Elt Ideal)) : after (ops (F := Ideal)) V (main_arg1 : DevRef τ sig) = V (main_arg1 : DevRef τ sig) := by
  exact ops_keeps V main_arg1 (by decide) (by decide) (by decide) (by decide)
theorem ref_arg2 (V : Valuation τ sig (Elt Ideal)) : after (ops (F := Ideal)) V (main_arg2 : DevRef τ sig) = V (main_arg2 : DevRef τ sig) := by
  exact ops_keeps V main_arg2 (by decide) (by decide) (by decide) (by decide)
theorem ref_arg3 (V : Valuation τ sig (Elt Ideal)) : after (ops (F := Ideal)) V (main_arg3 : DevRef τ sig) = V (main_arg3 : DevRef τ sig) := by
  exact ops_keeps V main_arg3 (by decide) (by decide) (by decide) (by decide)
theorem ref_arg4 (V : Valuation τ sig (Elt Ideal)) : after (ops (F := Ideal)) V (main_arg4 : DevRef τ sig) = V (main_arg4 : DevRef τ sig) := by
  exact ops_keeps V main_arg4 (by decide) (by decide) (by decide) (by decide)

end Cert.ReferenceIdeal.Hand

end
-- ==== Proof.lean ====
/-
  The certificate: a point cloud moved by its flow, matched through a voxel grid to a second cloud, and the distances.

  Both programs compute, for each of the 200000 points, the cell of the moved point in an 800 × 800 × 45 grid, the
  nearest occupied cell to it (a table), the point of the second cloud stored at that cell (a second table), and the
  Euclidean distance to it (`Cert.Voxel`, Proof/Spec.lean). The reference indexes the tables by the three cell
  coordinates; the kernel program flattens them — it packs the nearest-cell table into row-major positions
  `a·36000 + b·45 + c` in one region, computes the moved point's position in another, looks both tables up by position,
  and takes the distance in a third. The two lookups agree exactly when the nearest-cell table holds cell coordinates,
  each on its own axis: that is the precondition's second half (outside it the reference itself indexes out of range), and
  it is where the precondition is used (Proof/PreDecode.lean). No law of the extended reals is needed: both sides apply the
  same operations to the same numbers, so the float half of the precondition is never opened.

  The three frames: the two kernel programs' are the generated frame certificates; the reference launches nothing, and
  its run is the fold of its host operations (Proof/RRun.lean). `preserves` is trivial: the idealization rewrote nothing.
  `algebraic`: the kernel program's run with its two result buffers named (Proof/KRun.lean), read back through the three
  regions and the host stretches between them (Proof/KRegion0–2.lean, Proof/KFold.lean) and compared with the
  specification index by index (Proof/KValue.lean); the reference's results likewise (Proof/RValue.lean).
-/
import proofs.«404501_j6201932775870_3_alg».proof.Defs
import proofs.«404501_j6201932775870_3_alg».proof.Proof.Gen.Kernel
import proofs.«404501_j6201932775870_3_alg».proof.Proof.Gen.Kernel.Skeleton
import proofs.«404501_j6201932775870_3_alg».proof.Proof.Gen.Kernel.Launch
import proofs.«404501_j6201932775870_3_alg».proof.Proof.Gen.Kernel.Points
import proofs.«404501_j6201932775870_3_alg».proof.Proof.Gen.Kernel.Frame
import proofs.«404501_j6201932775870_3_alg».proof.Proof.Gen.KernelIdeal
import proofs.«404501_j6201932775870_3_alg».proof.Proof.Gen.KernelIdeal.Skeleton
import proofs.«404501_j6201932775870_3_alg».proof.Proof.Gen.KernelIdeal.Launch
import proofs.«404501_j6201932775870_3_alg».proof.Proof.Gen.KernelIdeal.Points
import proofs.«404501_j6201932775870_3_alg».proof.Proof.Gen.KernelIdeal.Frame
import proofs.«404501_j6201932775870_3_alg».proof.Proof.Gen.ReferenceIdeal
import proofs.«404501_j6201932775870_3_alg».proof.Proof.Gen.Pre_finite_inputs
import proofs.«404501_j6201932775870_3_alg».proof.Proof.Spec
import proofs.«404501_j6201932775870_3_alg».proof.Proof.PreDecode
import proofs.«404501_j6201932775870_3_alg».proof.Proof.KRun
import proofs.«404501_j6201932775870_3_alg».proof.Proof.KFold
import proofs.«404501_j6201932775870_3_alg».proof.Proof.KValue
import proofs.«404501_j6201932775870_3_alg».proof.Proof.RRun
import proofs.«404501_j6201932775870_3_alg».proof.Proof.RValue
import proofs.«404501_j6201932775870_3_alg».proof.Proof.RArgs
import Idealize.ShloMosaic.Adequacy
import Idealize.ShloMosaic.Init

noncomputable section

namespace Cert.Proof

open Idealize.ShloMosaic Idealize.ShloMosaic.TcCoe Idealize.SL.Sem Idealize.ShloMosaic.StableHlo

theorem frame_kernel : Cert.frame_Kernel (hKernel := Cert.Kernel.Gen.facts) (hPre_finite_inputs := Cert.Pre_finite_inputs.Gen.facts) :=
  fun m ρ _ => Cert.Kernel.Gen.frame m ρ

theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run leaves every buffer at the fold of its operations, and no operation writes an argument. -/
theorem frame_referenceIdeal :
    Cert.frame_ReferenceIdeal (hReferenceIdeal := Cert.ReferenceIdeal.Gen.facts) (hPre_finite_inputs := Cert.Pre_finite_inputs.Gen.facts) :=
  fun m ρ _ =>
    (θ_run (Cert.ReferenceIdeal.defs (F := Ideal)) _ _).mono (fun r h c =>
      ⟨(h c Cert.ReferenceIdeal.main_arg0).trans (Cert.ReferenceIdeal.Hand.ref_arg0 _),
       (h c Cert.ReferenceIdeal.main_arg1).trans (Cert.ReferenceIdeal.Hand.ref_arg1 _),
       (h c Cert.ReferenceIdeal.main_arg2).trans (Cert.ReferenceIdeal.Hand.ref_arg2 _),
       (h c Cert.ReferenceIdeal.main_arg3).trans (Cert.ReferenceIdeal.Hand.ref_arg3 _),
       (h c Cert.ReferenceIdeal.main_arg4).trans (Cert.ReferenceIdeal.Hand.ref_arg4 _)⟩)
      (Cert.ReferenceIdeal.Hand.run_main (F := Ideal) m ρ)

/-- Both programs end with the specification's two arrays of the (shared) arguments in their result buffers. -/
theorem algebraic :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' hpre hagree
  -- the nearest-cell table's entries are cell coordinates, on every device
  have hids : ∀ c : Dev Cert.KernelIdeal.nD, Cert.Voxel.IdsInRange (m ((c.tc : Thread Cert.KernelIdeal.nD Cert.KernelIdeal.τ).loc Cert.KernelIdeal.main_arg3)) :=
    fun c => Cert.PreDecode.ids_in_range (F := Ideal) _ _ _ _ _ (hpre c)
  refine ⟨fun c => Cert.Voxel.distArr (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
      fun c => Cert.Voxel.nearestArr (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)), ?_, ?_⟩
  · -- the kernel program: the run with its results named, the fold read back, the stages compared with the specification
    refine (θ_run (Cert.KernelIdeal.defs (F := Ideal)) _ _).mono (fun r h c => ?_) (Cert.KernelIdeal.Run.run_results (F := Ideal) m ρ)
    obtain ⟨h36, h37, h0, h1, h2, h3, h4⟩ := h c
    exact ⟨h36.trans ((Cert.KernelIdeal.Fold.result_dist m ρ c).trans (Cert.KernelIdeal.Stages.distOut_eq _ _ _ _ _ (hids c))),
      h37.trans ((Cert.KernelIdeal.Fold.result_nearest m ρ c).trans (Cert.KernelIdeal.Stages.nearestOut_eq _ _ _ _ (hids c))),
      h0, h1, h2, h3, h4⟩
  · -- the reference: the fold of its operations over its own launch contents, which agree with the kernel program's
    refine (θ_run (Cert.ReferenceIdeal.defs (F := Ideal)) _ _).mono (fun r h c => ?_) (Cert.ReferenceIdeal.Hand.run_main (F := Ideal) m' ρ')
    obtain ⟨e0, e1, e2, e3, e4⟩ := hagree c
    have hids' : Cert.Voxel.IdsInRange (Cert.ReferenceIdeal.Hand.idsOf (launchContents m' c)) := by
      show Cert.Voxel.IdsInRange (m' ((c.tc : Thread Cert.ReferenceIdeal.nD Cert.ReferenceIdeal.τ).loc Cert.ReferenceIdeal.main_arg3))
      rw [e3]; exact hids c
    refine ⟨(h c Cert.ReferenceIdeal.main_v70).trans ((Cert.ReferenceIdeal.Hand.ref_dist _ hids').trans ?_),
      (h c Cert.ReferenceIdeal.main_v61).trans ((Cert.ReferenceIdeal.Hand.ref_nearest _ hids').trans ?_),
      (h c Cert.ReferenceIdeal.main_arg0).trans (Cert.ReferenceIdeal.Hand.ref_arg0 _),
      (h c Cert.ReferenceIdeal.main_arg1).trans (Cert.ReferenceIdeal.Hand.ref_arg1 _),
      (h c Cert.ReferenceIdeal.main_arg2).trans (Cert.ReferenceIdeal.Hand.ref_arg2 _),
      (h c Cert.ReferenceIdeal.main_arg3).trans (Cert.ReferenceIdeal.Hand.ref_arg3 _),
      (h c Cert.ReferenceIdeal.main_arg4).trans (Cert.ReferenceIdeal.Hand.ref_arg4 _)⟩
    · show Cert.Voxel.distArr (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2)) = _
      rw [e0, e1, e2, e3, e4]
    · show Cert.Voxel.nearestArr (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1)) = _
      rw [e0, e1, e3, e4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
